-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3x32 : Shape := ⟨3, ![50000, 3, 32]⟩
abbrev S50000x32 : Shape := ⟨2, ![50000, 32]⟩
abbrev S1000000 : Shape := ⟨1, ![1000000]⟩
abbrev S32x32 : Shape := ⟨2, ![32, 32]⟩
abbrev S1 : Shape := ⟨1, ![1]⟩
abbrev S32 : Shape := ⟨1, ![32]⟩
abbrev S_ : Shape := ⟨0, ![]⟩

class Facts : Prop where
  bcast_S_S50000x3x32 : S_.BroadcastsInDim S50000x3x32 (![] : Fin 0 → Fin S50000x3x32.rank)
  reducesTo_S50000x3x32_S_d0_1_2 : S50000x3x32.ReducesTo [0, 1, 2] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S1000000 : S_.BroadcastsInDim S1000000 (![] : Fin 0 → Fin S1000000.rank)
  reducesTo_S1000000_S_d0 : S1000000.ReducesTo [0] S_
  bcast_S_S32x32 : S_.BroadcastsInDim S32x32 (![] : Fin 0 → Fin S32x32.rank)
  reducesTo_S32x32_S_d0_1 : S32x32.ReducesTo [0, 1] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_

variable [Facts]

def fn_part5 {F : FTy → Type} [FloatOps F] (main_v80 : IVec S_ 1) (main_v82 : IVec S1000000 1) (main_v84 : IVec S1000000 1) : IVec S_ 1 :=
  let main_v85 : IVec S1000000 1 := andi main_v82 main_v84
  let main_c_33 : IVec S_ 1 := constantI S_ 1 1#1
  let main_v86 : IVec S_ 1 := (fun x v => Host.reduce IntOp.andi x v reducesTo_S1000000_S_d0 h_S_) main_v85 main_c_33
  let main_v87 : IVec S_ 1 := andi main_v80 main_v86
  main_v87

def fn_part4 {F : FTy → Type} [FloatOps F] (main_arg3 : IVec S1000000 32) (main_arg4 : IVec S1000000 32) (main_arg16 : FVec F S32x32 .f32) (main_v63 : IVec S_ 1) (main_v67 : IVec S_ 1) : IVec S_ 1 :=
  let main_v68 : IVec S_ 1 := andi main_v63 main_v67
  let main_v69 : FVec F S32x32 .f32 := Host.absf main_arg16
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_c_28 : IVec S_ 32 := constantI S_ 32 0#32
  let main_v74 : IVec S1000000 32 := broadcastInDim S1000000 ![] bcast_S_S1000000 main_c_28
  let main_v75 : IVec S1000000 1 := cmpi .sge main_arg3 main_v74
  let main_c_29 : IVec S_ 32 := constantI S_ 32 50000#32
  let main_v76 : IVec S1000000 32 := broadcastInDim S1000000 ![] bcast_S_S1000000 main_c_29
  let main_v77 : IVec S1000000 1 := cmpi .slt main_arg3 main_v76
  let main_v78 : IVec S1000000 1 := andi main_v75 main_v77
  let main_c_30 : IVec S_ 1 := constantI S_ 1 1#1
  let main_v79 : IVec S_ 1 := (fun x v => Host.reduce IntOp.andi x v reducesTo_S1000000_S_d0 h_S_) main_v78 main_c_30
  let main_v80 : IVec S_ 1 := andi main_v73 main_v79
  let main_c_31 : IVec S_ 32 := constantI S_ 32 0#32
  let main_v81 : IVec S1000000 32 := broadcastInDim S1000000 ![] bcast_S_S1000000 main_c_31
  let main_v82 : IVec S1000000 1 := cmpi .sge main_arg4 main_v81
  let main_c_32 : IVec S_ 32 := constantI S_ 32 50000#32
  let main_v83 : IVec S1000000 32 := broadcastInDim S1000000 ![] bcast_S_S1000000 main_c_32
  let main_v84 : IVec S1000000 1 := cmpi .slt main_arg4 main_v83
  fn_part5 (F := F) main_v80 main_v82 main_v84

def fn_part3 {F : FTy → Type} [FloatOps F] (main_arg3 : IVec S1000000 32) (main_arg4 : IVec S1000000 32) (main_arg13 : FVec F S32x32 .f32) (main_arg14 : FVec F S32x32 .f32) (main_arg15 : FVec F S32x32 .f32) (main_arg16 : FVec F S32x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg14
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg3 main_arg4 main_arg16 main_v63 main_v67

def fn_part2 {F : FTy → Type} [FloatOps F] (main_arg3 : IVec S1000000 32) (main_arg4 : IVec S1000000 32) (main_arg9 : FVec F S32 .f32) (main_arg10 : FVec F S32 .f32) (main_arg11 : FVec F S32x32 .f32) (main_arg12 : FVec F S32x32 .f32) (main_arg13 : FVec F S32x32 .f32) (main_arg14 : FVec F S32x32 .f32) (main_arg15 : FVec F S32x32 .f32) (main_arg16 : FVec F S32x32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg3 main_arg4 main_arg13 main_arg14 main_arg15 main_arg16 main_v48 main_v49 main_v50

def fn_part1 {F : FTy → Type} [FloatOps F] (main_arg3 : IVec S1000000 32) (main_arg4 : IVec S1000000 32) (main_arg6 : FVec F S1 .f32) (main_arg7 : FVec F S32 .f32) (main_arg8 : FVec F S32 .f32) (main_arg9 : FVec F S32 .f32) (main_arg10 : FVec F S32 .f32) (main_arg11 : FVec F S32x32 .f32) (main_arg12 : FVec F S32x32 .f32) (main_arg13 : FVec F S32x32 .f32) (main_arg14 : FVec F S32x32 .f32) (main_arg15 : FVec F S32x32 .f32) (main_arg16 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_v33

def fn {F : FTy → Type} [FloatOps F] (main_arg0 : FVec F S50000x3x32 .f32) (main_arg1 : FVec F S50000x32 .f32) (main_arg2 : FVec F S1000000 .f32) (main_arg3 : IVec S1000000 32) (main_arg4 : IVec S1000000 32) (main_arg5 : FVec F S32x32 .f32) (main_arg6 : FVec F S1 .f32) (main_arg7 : FVec F S32 .f32) (main_arg8 : FVec F S32 .f32) (main_arg9 : FVec F S32 .f32) (main_arg10 : FVec F S32 .f32) (main_arg11 : FVec F S32x32 .f32) (main_arg12 : FVec F S32x32 .f32) (main_arg13 : FVec F S32x32 .f32) (main_arg14 : FVec F S32x32 .f32) (main_arg15 : FVec F S32x32 .f32) (main_arg16 : FVec F S32x32 .f32) : IVec S_ 1 :=
  let main_v0 : FVec F S50000x3x32 .f32 := Host.absf main_arg0
  let main_cst : FVec F S_ .f32 := constant S_ .f32 0x7F800000#32
  let main_v1 : FVec F S50000x3x32 .f32 := broadcastInDim S50000x3x32 ![] bcast_S_S50000x3x32 main_cst
  let main_v2 : IVec S50000x3x32 1 := cmpf .olt main_v0 main_v1
  let main_c : IVec S_ 1 := constantI S_ 1 1#1
  let main_v3 : IVec S_ 1 := (fun x v => Host.reduce IntOp.andi x v reducesTo_S50000x3x32_S_d0_1_2 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg3 main_arg4 main_arg6 main_arg7 main_arg8 main_arg9 main_arg10 main_arg11 main_arg12 main_arg13 main_arg14 main_arg15 main_arg16 main_v13 main_v16
-- ==== Kernel.lean ====
abbrev S50000x3x32 : Shape := ⟨3, ![50000, 3, 32]⟩
abbrev S50000x32 : Shape := ⟨2, ![50000, 32]⟩
abbrev S1000000 : Shape := ⟨1, ![1000000]⟩
abbrev S32x32 : Shape := ⟨2, ![32, 32]⟩
abbrev S1 : Shape := ⟨1, ![1]⟩
abbrev S32 : Shape := ⟨1, ![32]⟩
abbrev S50000x96 : Shape := ⟨2, ![50000, 96]⟩
abbrev S1x50000x1x32 : Shape := ⟨4, ![1, 50000, 1, 32]⟩
abbrev S1x50000x3x32 : Shape := ⟨4, ![1, 50000, 3, 32]⟩
abbrev S3x3 : Shape := ⟨2, ![3, 3]⟩
abbrev S_ : Shape := ⟨0, ![]⟩
abbrev S3x1x3x1 : Shape := ⟨4, ![3, 1, 3, 1]⟩
abbrev S1x32x1x32 : Shape := ⟨4, ![1, 32, 1, 32]⟩
abbrev S3x32x3x32 : Shape := ⟨4, ![3, 32, 3, 32]⟩
abbrev S96x96 : Shape := ⟨2, ![96, 96]⟩
abbrev S1x1 : Shape := ⟨2, ![1, 1]⟩
abbrev S5000x96 : Shape := ⟨2, ![5000, 96]⟩
abbrev S1000000x1 : Shape := ⟨2, ![1000000, 1]⟩
abbrev S1000000x96 : Shape := ⟨2, ![1000000, 96]⟩
abbrev S1x32 : Shape := ⟨2, ![1, 32]⟩
abbrev S10000x96 : Shape := ⟨2, ![10000, 96]⟩
abbrev S10000x1 : Shape := ⟨2, ![10000, 1]⟩
abbrev S10000x32 : Shape := ⟨2, ![10000, 32]⟩
abbrev S5000x32 : Shape := ⟨2, ![5000, 32]⟩

abbrev nBuf : Space → Nat
  | .hbm => 150
  | .vmem => 32
  | .smem => 0
  | _ => 0

abbrev hbmTy0_0 (i : Nat) : BufTy := match i % 128 with
  | 0 => ⟨S50000x3x32, .f32⟩
  | 1 => ⟨S50000x32, .f32⟩
  | 2 => ⟨S1000000, .f32⟩
  | 3 => ⟨S1000000, .i32⟩
  | 4 => ⟨S1000000, .i32⟩
  | 5 => ⟨S32x32, .f32⟩
  | 6 => ⟨S1, .f32⟩
  | 7 => ⟨S32, .f32⟩
  | 8 => ⟨S32, .f32⟩
  | 9 => ⟨S32, .f32⟩
  | 10 => ⟨S32, .f32⟩
  | 11 => ⟨S32x32, .f32⟩
  | 12 => ⟨S32x32, .f32⟩
  | 13 => ⟨S32x32, .f32⟩
  | 14 => ⟨S32x32, .f32⟩
  | 15 => ⟨S32x32, .f32⟩
  | 16 => ⟨S32x32, .f32⟩
  | 17 => ⟨S50000x96, .f32⟩
  | 18 => ⟨S1x50000x1x32, .f32⟩
  | 19 => ⟨S1x50000x3x32, .f32⟩
  | 20 => ⟨S50000x96, .f32⟩
  | 21 => ⟨S3x3, .i32⟩
  | 22 => ⟨S3x3, .i32⟩
  | 23 => ⟨S_, .i32⟩
  | 24 => ⟨S3x3, .i32⟩
  | 25 => ⟨S3x3, .i32⟩
  | 26 => ⟨S3x3, .i1⟩
  | 27 => ⟨S3x3, .f32⟩
  | 28 => ⟨S3x1x3x1, .f32⟩
  | 29 => ⟨S1x32x1x32, .f32⟩
  | 30 => ⟨S3x32x3x32, .f32⟩
  | 31 => ⟨S3x32x3x32, .f32⟩
  | 32 => ⟨S3x32x3x32, .f32⟩
  | 33 => ⟨S96x96, .f32⟩
  | 34 => ⟨S32x32, .f32⟩
  | 35 => ⟨S3x1x3x1, .f32⟩
  | 36 => ⟨S1x32x1x32, .f32⟩
  | 37 => ⟨S3x32x3x32, .f32⟩
  | 38 => ⟨S3x32x3x32, .f32⟩
  | 39 => ⟨S3x32x3x32, .f32⟩
  | 40 => ⟨S96x96, .f32⟩
  | 41 => ⟨S96x96, .bf16⟩
  | 42 => ⟨S96x96, .bf16⟩
  | 43 => ⟨S_, .f32⟩
  | 44 => ⟨S1, .f32⟩
  | 45 => ⟨S1, .f32⟩
  | 46 => ⟨S1, .f32⟩
  | 47 => ⟨S1x1, .f32⟩
  | 48 => ⟨S_, .f32⟩
  | 49 => ⟨S1, .f32⟩
  | 50 => ⟨S1, .f32⟩
  | 51 => ⟨S1, .f32⟩
  | 52 => ⟨S1x1, .f32⟩
  | 53 => ⟨S50000x96, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1, .i32⟩
  | 63 => ⟨S_, .i32⟩
  | 64 => ⟨S1000000x1, .i32⟩
  | 65 => ⟨S1000000x1, .i1⟩
  | 66 => ⟨S1x1, .i32⟩
  | 67 => ⟨S1000000x1, .i32⟩
  | 68 => ⟨S1000000x1, .i1⟩
  | 69 => ⟨S1000000x1, .i1⟩
  | 70 => ⟨S_, .i1⟩
  | 71 => ⟨S1000000, .i1⟩
  | 72 => ⟨S1000000x96, .f32⟩
  | 73 => ⟨S1000000x96, .i1⟩
  | 74 => ⟨S_, .f32⟩
  | 75 => ⟨S1000000x96, .f32⟩
  | 76 => ⟨S1000000x96, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1, .i32⟩
  | 86 => ⟨S_, .i32⟩
  | 87 => ⟨S1000000x1, .i32⟩
  | 88 => ⟨S1000000x1, .i1⟩
  | 89 => ⟨S1x1, .i32⟩
  | 90 => ⟨S1000000x1, .i32⟩
  | 91 => ⟨S1000000x1, .i1⟩
  | 92 => ⟨S1000000x1, .i1⟩
  | 93 => ⟨S_, .i1⟩
  | 94 => ⟨S1000000, .i1⟩
  | 95 => ⟨S1000000x96, .f32⟩
  | 96 => ⟨S1000000x96, .i1⟩
  | 97 => ⟨S_, .f32⟩
  | 98 => ⟨S1000000x96, .f32⟩
  | 99 => ⟨S1000000x96, .f32⟩
  | 100 => ⟨S32x32, .f32⟩
  | 101 => ⟨S_, .f32⟩
  | 102 => ⟨S32x32, .f32⟩
  | 103 => ⟨S32x32, .f32⟩
  | 104 => ⟨S32x32, .f32⟩
  | 105 => ⟨S32x32, .f32⟩
  | 106 => ⟨S3x1x3x1, .f32⟩
  | 107 => ⟨S1x32x1x32, .f32⟩
  | 108 => ⟨S3x32x3x32, .f32⟩
  | 109 => ⟨S3x32x3x32, .f32⟩
  | 110 => ⟨S3x32x3x32, .f32⟩
  | 111 => ⟨S96x96, .f32⟩
  | 112 => ⟨S96x96, .bf16⟩
  | 113 => ⟨S3x1x3x1, .f32⟩
  | 114 => ⟨S1x32x1x32, .f32⟩
  | 115 => ⟨S3x32x3x32, .f32⟩
  | 116 => ⟨S3x32x3x32, .f32⟩
  | 117 => ⟨S3x32x3x32, .f32⟩
  | 118 => ⟨S96x96, .f32⟩
  | 119 => ⟨S96x96, .bf16⟩
  | 120 => ⟨S1x32, .f32⟩
  | 121 => ⟨S1x32, .f32⟩
  | 122 => ⟨S1x32, .f32⟩
  | 123 => ⟨S1x32, .f32⟩
  | 124 => ⟨S1000000x1, .f32⟩
  | 125 => ⟨S1000000x96, .f32⟩
  | 126 => ⟨S_, .f32⟩
  | 127 => ⟨S50000x96, .f32⟩
  | _ => ⟨S50000x3x32, .f32⟩

abbrev hbmTy0_1 (i : Nat) : BufTy := match i % 128 with
  | 0 => ⟨S1000000x1, .i32⟩
  | 1 => ⟨S50000x96, .f32⟩
  | 2 => ⟨S_, .f32⟩
  | 3 => ⟨S50000x96, .f32⟩
  | 4 => ⟨S1000000x1, .i32⟩
  | 5 => ⟨S50000x96, .f32⟩
  | 6 => ⟨S3x1x3x1, .f32⟩
  | 7 => ⟨S1x32x1x32, .f32⟩
  | 8 => ⟨S3x32x3x32, .f32⟩
  | 9 => ⟨S3x32x3x32, .f32⟩
  | 10 => ⟨S3x32x3x32, .f32⟩
  | 11 => ⟨S96x96, .f32⟩
  | 12 => ⟨S96x96, .bf16⟩
  | 13 => ⟨S3x1x3x1, .f32⟩
  | 14 => ⟨S1x32x1x32, .f32⟩
  | 15 => ⟨S3x32x3x32, .f32⟩
  | 16 => ⟨S3x32x3x32, .f32⟩
  | 17 => ⟨S3x32x3x32, .f32⟩
  | 18 => ⟨S96x96, .f32⟩
  | 19 => ⟨S96x96, .bf16⟩
  | 20 => ⟨S50000x96, .f32⟩
  | 21 => ⟨S50000x3x32, .f32⟩
  | _ => ⟨S50000x3x32, .f32⟩

abbrev hbmTy (i : Nat) : BufTy := match i / 128 with
  | 0 => hbmTy0_0 i
  | 1 => hbmTy0_1 i
  | _ => ⟨S50000x3x32, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .bf16⟩
  | .local _ .vmem, ⟨5, _⟩ => ⟨S96x96, .bf16⟩
  | .local _ .vmem, ⟨6, _⟩ => ⟨S1x1, .f32⟩
  | .local _ .vmem, ⟨7, _⟩ => ⟨S1x1, .f32⟩
  | .local _ .vmem, ⟨8, _⟩ => ⟨S5000x96, .f32⟩
  | .local _ .vmem, ⟨9, _⟩ => ⟨S5000x96, .f32⟩
  | .local _ .vmem, ⟨10, _⟩ => ⟨S10000x96, .f32⟩
  | .local _ .vmem, ⟨11, _⟩ => ⟨S10000x96, .f32⟩
  | .local _ .vmem, ⟨12, _⟩ => ⟨S10000x96, .f32⟩
  | .local _ .vmem, ⟨13, _⟩ => ⟨S10000x96, .f32⟩
  | .local _ .vmem, ⟨14, _⟩ => ⟨S10000x1, .f32⟩
  | .local _ .vmem, ⟨15, _⟩ => ⟨S10000x1, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S96x96, .bf16⟩
  | .local _ .vmem, ⟨21, _⟩ => ⟨S96x96, .bf16⟩
  | .local _ .vmem, ⟨22, _⟩ => ⟨S10000x96, .f32⟩
  | .local _ .vmem, ⟨23, _⟩ => ⟨S10000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S96x96, .bf16⟩
  | .local _ .vmem, ⟨29, _⟩ => ⟨S96x96, .bf16⟩
  | .local _ .vmem, ⟨30, _⟩ => ⟨S5000x96, .f32⟩
  | .local _ .vmem, ⟨31, _⟩ => ⟨S5000x96, .f32⟩
  | _, _ => ⟨S50000x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v10 : Ref sig .tc := ⟨.hbm, 33, rfl⟩
abbrev main_v11 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v24 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v25 : Ref sig .tc := ⟨.hbm, 99, rfl⟩
abbrev main_v26 : Ref sig .tc := ⟨.hbm, 100, rfl⟩
abbrev main_cst_1 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v31 : Ref sig .tc := ⟨.hbm, 111, rfl⟩
abbrev main_v32 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_cst_2 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_cst_3 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_v47 : Ref sig .tc := ⟨.hbm, 139, rfl⟩
abbrev main_v48 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x96 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S96x96 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x96 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S50000x3x32_S50000x96 : S50000x3x32.ShapeCasts S50000x96
  shapeCasts_S50000x32_S1x50000x1x32 : S50000x32.ShapeCasts S1x50000x1x32
  bcast_S1x50000x1x32_S1x50000x3x32_0_1_2_3 : S1x50000x1x32.BroadcastsInDim S1x50000x3x32 (![0, 1, 2, 3] : Fin 4 → Fin S1x50000x3x32.rank)
  shapeCasts_S1x50000x3x32_S50000x96 : S1x50000x3x32.ShapeCasts S50000x96
  bcast_S_S3x3 : S_.BroadcastsInDim S3x3 (![] : Fin 0 → Fin S3x3.rank)
  bcast_S3x3_S3x1x3x1_0_2 : S3x3.BroadcastsInDim S3x1x3x1 (![0, 2] : Fin 2 → Fin S3x1x3x1.rank)
  bcast_S32x32_S1x32x1x32_1_3 : S32x32.BroadcastsInDim S1x32x1x32 (![1, 3] : Fin 2 → Fin S1x32x1x32.rank)
  bcast_S3x1x3x1_S3x32x3x32_0_1_2_3 : S3x1x3x1.BroadcastsInDim S3x32x3x32 (![0, 1, 2, 3] : Fin 4 → Fin S3x32x3x32.rank)
  bcast_S1x32x1x32_S3x32x3x32_0_1_2_3 : S1x32x1x32.BroadcastsInDim S3x32x3x32 (![0, 1, 2, 3] : Fin 4 → Fin S3x32x3x32.rank)
  shapeCasts_S3x32x3x32_S96x96 : S3x32x3x32.ShapeCasts S96x96
  transposes_S32x32_S32x32_1_0 : S32x32.Transposes [1, 0] S32x32
  bitsLt_bf16_f32 : FTy.bits .bf16 < FTy.bits .f32
  bcast_S_S1 : S_.BroadcastsInDim S1 (![] : Fin 0 → Fin S1.rank)
  shapeCasts_S1_S1x1 : S1.ShapeCasts S1x1
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x96 : S1x1.Broadcasts S5000x96
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x96_0 : S1000000.BroadcastsInDim S1000000x96 (![0] : Fin 1 → Fin S1000000x96.rank)
  bcast_S_S1000000x96 : S_.BroadcastsInDim S1000000x96 (![] : Fin 0 → Fin S1000000x96.rank)
  bcast_S_S32x32 : S_.BroadcastsInDim S32x32 (![] : Fin 0 → Fin S32x32.rank)
  shapeCasts_S32_S1x32 : S32.ShapeCasts S1x32
  shapeCasts_S1000000_S1000000x1 : S1000000.ShapeCasts S1000000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S10000x1_S10000x32 : S10000x1.Broadcasts S10000x32
  broadcasts_S1x32_S10000x32 : S1x32.Broadcasts S10000x32
  concatenates_S10000x32_S10000x32_S10000x32_S10000x96_d1 : Shape.Concatenates [S10000x32, S10000x32, S10000x32] S10000x96 1
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  bcast_S_S50000x96 : S_.BroadcastsInDim S50000x96 (![] : Fin 0 → Fin S50000x96.rank)
  slices_S5000x96_o0_0_S5000x32 : S5000x96.Slices ![0, 0] S5000x32
  slices_S5000x96_o0_32_S5000x32 : S5000x96.Slices ![0, 32] S5000x32
  slices_S5000x96_o0_64_S5000x32 : S5000x96.Slices ![0, 64] S5000x32
  concatenates_S5000x32_S5000x32_S5000x32_S5000x96_d1 : Shape.Concatenates [S5000x32, S5000x32, S5000x32] S5000x96 1
  shapeCasts_S50000x96_S50000x3x32 : S50000x96.ShapeCasts S50000x3x32
  dot_S5000x96_S96x96_S5000x96_1_0_0_1_n_n_wf : DotDims.WF S5000x96 S96x96 S5000x96 [1] [0] [0] [1] [] []
  gather_S50000x96_S1000000x1_S1000000x96_1_0_n_n_0_1_196_wf : GatherDims.WF S50000x96 S1000000x1 S1000000x96 [1] [0] [] [0] [] 1 ![1, 96]
  dot_S32x32_S32x32_S32x32_1_0_0_1_n_n_wf : DotDims.WF S32x32 S32x32 S32x32 [1] [0] [0] [1] [] []
  dot_S10000x96_S96x96_S10000x96_1_0_0_1_n_n_wf : DotDims.WF S10000x96 S96x96 S10000x96 [1] [0] [0] [1] [] []
  scatter_S50000x96_S1000000x1_S1000000x96_1_0_0_1_wf : ScatterDims.WF S50000x96 S1000000x1 S1000000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .bf16 = 32 ∨ (Rect.block (s := S96x96) S96x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S1000000x96.size a
  hwx1_0 : ∀ i : grid1.Coords, EltTy.bits .f32 = 32 ∨ (Rect.block (s := S1000000x96) S10000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x96.size a ≤ S1000000x96.size a
  hwx1_1 : ∀ i : grid1.Coords, EltTy.bits .f32 = 32 ∨ (Rect.block (s := S1000000x96) S10000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S1000000x1.size a
  hwx1_2 : ∀ i : grid1.Coords, EltTy.bits .f32 = 32 ∨ (Rect.block (s := S1000000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x96.size a ≤ S96x96.size a
  hwx1_7 : ∀ i : grid1.Coords, EltTy.bits .bf16 = 32 ∨ (Rect.block (s := S96x96) S96x96.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S96x96.size a ≤ S96x96.size a
  hwx1_8 : ∀ i : grid1.Coords, EltTy.bits .bf16 = 32 ∨ (Rect.block (s := S96x96) S96x96.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x96.size a ≤ S1000000x96.size a
  hwx1_9 : ∀ i : grid1.Coords, EltTy.bits .f32 = 32 ∨ (Rect.block (s := S1000000x96) S10000x96.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .bf16 = 32 ∨ (Rect.block (s := S96x96) S96x96.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .bf16 = 32 ∨ (Rect.block (s := S96x96) S96x96.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .f32 = 32 ∨ (Rect.block (s := S50000x96) S5000x96.size (cc2_transform_4 i) (hinb2_4 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S1000000x1_S1000000x96_1_0_n_n_0_1_196 : GatherDims S50000x96 S1000000x1 S1000000x96 where
  offsetDims := [1]
  collapsedSliceDims := [0]
  operandBatchingDims := []
  startIndicesBatchingDims := []
  startIndexMap := [0]
  indexVectorDim := 1
  sliceSizes := ![1, 96]
  wf := gather_S50000x96_S1000000x1_S1000000x96_1_0_n_n_0_1_196_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def scatter_S50000x96_S1000000x1_S1000000x96_1_0_0_1 : ScatterDims S50000x96 S1000000x1 S1000000x96 where
  updateWindowDims := [1]
  insertedWindowDims := [0]
  scatterDimsToOperandDims := [0]
  indexVectorDim := 1
  wf := scatter_S50000x96_S1000000x1_S1000000x96_1_0_0_1_wf

abbrev win0_0 : Pipeline.Window sig grid0 :=
  Pipeline.Window.ofSpec (Memref.whole main_v0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S96x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S96x96.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S10000x96.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v43) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S5000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x3x32 : Shape := ⟨3, ![50000, 3, 32]⟩
abbrev S50000x32 : Shape := ⟨2, ![50000, 32]⟩
abbrev S1000000 : Shape := ⟨1, ![1000000]⟩
abbrev S32x32 : Shape := ⟨2, ![32, 32]⟩
abbrev S1 : Shape := ⟨1, ![1]⟩
abbrev S32 : Shape := ⟨1, ![32]⟩
abbrev S50000x1x32 : Shape := ⟨3, ![50000, 1, 32]⟩
abbrev S_ : Shape := ⟨0, ![]⟩
abbrev S1x1x1 : Shape := ⟨3, ![1, 1, 1]⟩
abbrev S1000000x1 : Shape := ⟨2, ![1000000, 1]⟩
abbrev S1x32 : Shape := ⟨2, ![1, 32]⟩
abbrev S1000000x32 : Shape := ⟨2, ![1000000, 32]⟩
abbrev S1000000x3x32 : Shape := ⟨3, ![1000000, 3, 32]⟩
abbrev S1000000x1x32 : Shape := ⟨3, ![1000000, 1, 32]⟩

abbrev nBuf : Space → Nat
  | .hbm => 135
  | .vmem => 0
  | .smem => 0
  | _ => 0

abbrev hbmTy0_0 (i : Nat) : BufTy := match i % 128 with
  | 0 => ⟨S50000x3x32, .f32⟩
  | 1 => ⟨S50000x32, .f32⟩
  | 2 => ⟨S1000000, .f32⟩
  | 3 => ⟨S1000000, .i32⟩
  | 4 => ⟨S1000000, .i32⟩
  | 5 => ⟨S32x32, .f32⟩
  | 6 => ⟨S1, .f32⟩
  | 7 => ⟨S32, .f32⟩
  | 8 => ⟨S32, .f32⟩
  | 9 => ⟨S32, .f32⟩
  | 10 => ⟨S32, .f32⟩
  | 11 => ⟨S32x32, .f32⟩
  | 12 => ⟨S32x32, .f32⟩
  | 13 => ⟨S32x32, .f32⟩
  | 14 => ⟨S32x32, .f32⟩
  | 15 => ⟨S32x32, .f32⟩
  | 16 => ⟨S32x32, .f32⟩
  | 17 => ⟨S50000x3x32, .f32⟩
  | 18 => ⟨S50000x1x32, .f32⟩
  | 19 => ⟨S50000x3x32, .f32⟩
  | 20 => ⟨S50000x3x32, .f32⟩
  | 21 => ⟨S50000x3x32, .f32⟩
  | 22 => ⟨S_, .f32⟩
  | 23 => ⟨S1, .f32⟩
  | 24 => ⟨S1, .f32⟩
  | 25 => ⟨S1, .f32⟩
  | 26 => ⟨S1x1x1, .f32⟩
  | 27 => ⟨S50000x3x32, .f32⟩
  | 28 => ⟨S50000x3x32, .f32⟩
  | 29 => ⟨S1, .f32⟩
  | 30 => ⟨S1x1x1, .f32⟩
  | 31 => ⟨S50000x3x32, .f32⟩
  | 32 => ⟨S50000x3x32, .f32⟩
  | 33 => ⟨S50000x3x32, .f32⟩
  | 34 => ⟨S1000000x1, .f32⟩
  | 35 => ⟨S1x32, .f32⟩
  | 36 => ⟨S1000000x32, .f32⟩
  | 37 => ⟨S1000000x32, .f32⟩
  | 38 => ⟨S1000000x32, .f32⟩
  | 39 => ⟨S1x32, .f32⟩
  | 40 => ⟨S1000000x32, .f32⟩
  | 41 => ⟨S1000000x32, .f32⟩
  | 42 => ⟨S1000000x32, .f32⟩
  | 43 => ⟨S1000000x32, .f32⟩
  | 44 => ⟨S_, .f32⟩
  | 45 => ⟨S1000000x32, .f32⟩
  | 46 => ⟨S1000000x32, .f32⟩
  | 47 => ⟨S_, .f32⟩
  | 48 => ⟨S1000000x32, .f32⟩
  | 49 => ⟨S1000000x32, .f32⟩
  | 50 => ⟨S1000000x32, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x3x32, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x3x32, .f32⟩
  | 69 => ⟨S1000000x1x32, .f32⟩
  | 70 => ⟨S1000000x3x32, .f32⟩
  | 71 => ⟨S1000000x3x32, .f32⟩
  | 72 => ⟨S1000000x3x32, .f32⟩
  | 73 => ⟨S1000000x1x32, .f32⟩
  | 74 => ⟨S1000000x3x32, .f32⟩
  | 75 => ⟨S1000000x3x32, .f32⟩
  | 76 => ⟨S1000000x3x32, .f32⟩
  | 77 => ⟨S_, .f32⟩
  | 78 => ⟨S1000000x3x32, .f32⟩
  | 79 => ⟨S1000000x3x32, .f32⟩
  | 80 => ⟨S1000000x3x32, .f32⟩
  | 81 => ⟨S1000000x3x32, .f32⟩
  | 82 => ⟨S1000000x3x32, .f32⟩
  | 83 => ⟨S_, .f32⟩
  | 84 => ⟨S1000000x3x32, .f32⟩
  | 85 => ⟨S1000000x3x32, .f32⟩
  | 86 => ⟨S32x32, .f32⟩
  | 87 => ⟨S_, .f32⟩
  | 88 => ⟨S32x32, .f32⟩
  | 89 => ⟨S32x32, .f32⟩
  | 90 => ⟨S1000000x3x32, .f32⟩
  | 91 => ⟨S1000000x1, .f32⟩
  | 92 => ⟨S1x32, .f32⟩
  | 93 => ⟨S1000000x32, .f32⟩
  | 94 => ⟨S1000000x32, .f32⟩
  | 95 => ⟨S1000000x32, .f32⟩
  | 96 => ⟨S1x32, .f32⟩
  | 97 => ⟨S1000000x32, .f32⟩
  | 98 => ⟨S1000000x32, .f32⟩
  | 99 => ⟨S1000000x32, .f32⟩
  | 100 => ⟨S1000000x32, .f32⟩
  | 101 => ⟨S_, .f32⟩
  | 102 => ⟨S1000000x32, .f32⟩
  | 103 => ⟨S1000000x32, .f32⟩
  | 104 => ⟨S_, .f32⟩
  | 105 => ⟨S1000000x32, .f32⟩
  | 106 => ⟨S1000000x32, .f32⟩
  | 107 => ⟨S1000000x32, .f32⟩
  | 108 => ⟨S1000000x1x32, .f32⟩
  | 109 => ⟨S1000000x3x32, .f32⟩
  | 110 => ⟨S1000000x3x32, .f32⟩
  | 111 => ⟨S_, .f32⟩
  | 112 => ⟨S50000x3x32, .f32⟩
  | 113 => ⟨S1000000x1, .i32⟩
  | 114 => ⟨S50000x3x32, .f32⟩
  | 115 => ⟨S_, .f32⟩
  | 116 => ⟨S50000x3x32, .f32⟩
  | 117 => ⟨S1000000x1, .i32⟩
  | 118 => ⟨S50000x3x32, .f32⟩
  | 119 => ⟨S50000x3x32, .f32⟩
  | 120 => ⟨S50000x3x32, .f32⟩
  | 121 => ⟨S50000x3x32, .f32⟩
  | 122 => ⟨S50000x3x32, .f32⟩
  | 123 => ⟨S50000x3x32, .f32⟩
  | 124 => ⟨S_, .f32⟩
  | 125 => ⟨S50000x3x32, .f32⟩
  | 126 => ⟨S50000x3x32, .f32⟩
  | 127 => ⟨S50000x3x32, .f32⟩
  | _ => ⟨S50000x3x32, .f32⟩

abbrev hbmTy0_1 (i : Nat) : BufTy := match i % 128 with
  | 0 => ⟨S_, .f32⟩
  | 1 => ⟨S50000x32, .f32⟩
  | 2 => ⟨S50000x32, .f32⟩
  | 3 => ⟨S50000x32, .f32⟩
  | 4 => ⟨S50000x1x32, .f32⟩
  | 5 => ⟨S50000x3x32, .f32⟩
  | 6 => ⟨S50000x3x32, .f32⟩
  | _ => ⟨S50000x3x32, .f32⟩

abbrev hbmTy (i : Nat) : BufTy := match i / 128 with
  | 0 => hbmTy0_0 i
  | 1 => hbmTy0_1 i
  | _ => ⟨S50000x3x32, .f32⟩

abbrev bufTy : (tb : Table) → Fin (tcTables nBuf tb) → BufTy
  | .hbm, ⟨i, _⟩ => hbmTy i
  | _, _ => ⟨S50000x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v24 : Ref sig .tc := ⟨.hbm, 50, rfl⟩
abbrev main_c : Ref sig .tc := ⟨.hbm, 51, rfl⟩
abbrev main_v25 : Ref sig .tc := ⟨.hbm, 52, rfl⟩
abbrev main_v26 : Ref sig .tc := ⟨.hbm, 53, rfl⟩
abbrev main_c_0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_1 : Ref sig .tc := ⟨.hbm, 60, rfl⟩
abbrev main_v32 : Ref sig .tc := ⟨.hbm, 61, rfl⟩
abbrev main_v33 : Ref sig .tc := ⟨.hbm, 62, rfl⟩
abbrev main_c_2 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_3 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_4 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_6 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_7 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_8 : Ref sig .tc := ⟨.hbm, 124, rfl⟩
abbrev main_v81 : Ref sig .tc := ⟨.hbm, 125, rfl⟩
abbrev main_v82 : Ref sig .tc := ⟨.hbm, 126, rfl⟩
abbrev main_call2_v0 : Ref sig .tc := ⟨.hbm, 127, rfl⟩
abbrev main_call2_cst : Ref sig .tc := ⟨.hbm, 128, rfl⟩
abbrev main_call2_v1 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  bcast_S50000x32_S50000x1x32_0_2 : S50000x32.BroadcastsInDim S50000x1x32 (![0, 2] : Fin 2 → Fin S50000x1x32.rank)
  bcast_S50000x1x32_S50000x3x32_0_1_2 : S50000x1x32.BroadcastsInDim S50000x3x32 (![0, 1, 2] : Fin 3 → Fin S50000x3x32.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S50000x3x32_0_1_2 : S1x1x1.BroadcastsInDim S50000x3x32 (![0, 1, 2] : Fin 3 → Fin S50000x3x32.rank)
  bcast_S1000000_S1000000x1_0 : S1000000.BroadcastsInDim S1000000x1 (![0] : Fin 1 → Fin S1000000x1.rank)
  bcast_S32_S1x32_1 : S32.BroadcastsInDim S1x32 (![1] : Fin 1 → Fin S1x32.rank)
  bcast_S1000000x1_S1000000x32_0_1 : S1000000x1.BroadcastsInDim S1000000x32 (![0, 1] : Fin 2 → Fin S1000000x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S_S1000000 : S_.BroadcastsInDim S1000000 (![] : Fin 0 → Fin S1000000.rank)
  bcast_S1000000x32_S1000000x1x32_0_2 : S1000000x32.BroadcastsInDim S1000000x1x32 (![0, 2] : Fin 2 → Fin S1000000x1x32.rank)
  bcast_S1000000x1x32_S1000000x3x32_0_1_2 : S1000000x1x32.BroadcastsInDim S1000000x3x32 (![0, 1, 2] : Fin 3 → Fin S1000000x3x32.rank)
  bcast_S_S1000000x3x32 : S_.BroadcastsInDim S1000000x3x32 (![] : Fin 0 → Fin S1000000x3x32.rank)
  bcast_S_S32x32 : S_.BroadcastsInDim S32x32 (![] : Fin 0 → Fin S32x32.rank)
  bcast_S_S50000x3x32 : S_.BroadcastsInDim S50000x3x32 (![] : Fin 0 → Fin S50000x3x32.rank)
  reducesTo_S50000x3x32_S50000x32_d1 : S50000x3x32.ReducesTo [1] S50000x32
  h_S_ : 0 < S_.numel
  dot_S50000x3x32_S32x32_S50000x3x32_2_0_01_1_n_n_wf : DotDims.WF S50000x3x32 S32x32 S50000x3x32 [2] [0] [0, 1] [1] [] []
  dot_S50000x3x32_S32x32_S50000x3x32_2_1_01_0_n_n_wf : DotDims.WF S50000x3x32 S32x32 S50000x3x32 [2] [1] [0, 1] [0] [] []
  gather_S50000x3x32_S1000000x1_S1000000x3x32_12_0_n_n_0_1_1332_wf : GatherDims.WF S50000x3x32 S1000000x1 S1000000x3x32 [1, 2] [0] [] [0] [] 1 ![1, 3, 32]
  dot_S1000000x3x32_S32x32_S1000000x3x32_2_0_01_1_n_n_wf : DotDims.WF S1000000x3x32 S32x32 S1000000x3x32 [2] [0] [0, 1] [1] [] []
  scatter_S50000x3x32_S1000000x1_S1000000x3x32_12_0_0_1_wf : ScatterDims.WF S50000x3x32 S1000000x1 S1000000x3x32 [1, 2] [0] [0] 1

variable [Facts₀]

def dot_S50000x3x32_S32x32_S50000x3x32_2_0_01_1_n_n : DotDims S50000x3x32 S32x32 S50000x3x32 where
  lhsContracting := [2]
  rhsContracting := [0]
  lhsNonContracting := [0, 1]
  rhsNonContracting := [1]
  lhsBatch := []
  rhsBatch := []
  wf := dot_S50000x3x32_S32x32_S50000x3x32_2_0_01_1_n_n_wf
def dot_S50000x3x32_S32x32_S50000x3x32_2_1_01_0_n_n : DotDims S50000x3x32 S32x32 S50000x3x32 where
  lhsContracting := [2]
  rhsContracting := [1]
  lhsNonContracting := [0, 1]
  rhsNonContracting := [0]
  lhsBatch := []
  rhsBatch := []
  wf := dot_S50000x3x32_S32x32_S50000x3x32_2_1_01_0_n_n_wf
def gather_S50000x3x32_S1000000x1_S1000000x3x32_12_0_n_n_0_1_1332 : GatherDims S50000x3x32 S1000000x1 S1000000x3x32 where
  offsetDims := [1, 2]
  collapsedSliceDims := [0]
  operandBatchingDims := []
  startIndicesBatchingDims := []
  startIndexMap := [0]
  indexVectorDim := 1
  sliceSizes := ![1, 3, 32]
  wf := gather_S50000x3x32_S1000000x1_S1000000x3x32_12_0_n_n_0_1_1332_wf
def dot_S1000000x3x32_S32x32_S1000000x3x32_2_0_01_1_n_n : DotDims S1000000x3x32 S32x32 S1000000x3x32 where
  lhsContracting := [2]
  rhsContracting := [0]
  lhsNonContracting := [0, 1]
  rhsNonContracting := [1]
  lhsBatch := []
  rhsBatch := []
  wf := dot_S1000000x3x32_S32x32_S1000000x3x32_2_0_01_1_n_n_wf
def scatter_S50000x3x32_S1000000x1_S1000000x3x32_12_0_0_1 : ScatterDims S50000x3x32 S1000000x1 S1000000x3x32 where
  updateWindowDims := [1, 2]
  insertedWindowDims := [0]
  scatterDimsToOperandDims := [0]
  indexVectorDim := 1
  wf := scatter_S50000x3x32_S1000000x1_S1000000x3x32_12_0_0_1_wf

class Facts : Prop extends Facts₀ where

variable [Facts]
-- ==== Proof.KernelHostTerms.lean ====
/-
  The host side of the kernel's program as pure functions: every array a pallas_call is launched on, and the
  result, as a term of the program's own operations over the argument arrays (generic in the float
  instance). Between the three launches the program
  * flattens `xn` to [50000, 96], tiles `xn_attr` three times along the lanes, lifts each 32×32 mixing matrix
    `M` to the block-diagonal 96×96 matrix `I₃ ⊗ M` (a product of two broadcasts, the identity built from
    two iotas), and takes the cosine and sine of `0.1 · ms_w`;
  * gathers the rows `xe_src` and `xe_dst` of the first launch's result (negative indices wrapped once, a
    row read out of range replaced by a fill value), and composes `n2e_M · ((vv_M1 + vv_M2) · ½)`;
  * adds the second launch's rows into the rows `xe_dst`, resp. `xe_src`, of a zero array;
  * reshapes the third launch's result to [50000, 3, 32].
  Each launch's result array is row-blocked: row `n` is row `n mod B` of the body's result on rows
  `B · (n / B) … ` of the row-blocked operands and the whole small operands.
-/
import proofs.«407674_j57329223467239_3_alg».proof.Proof.Gen.KernelIdeal.Frame
import Idealize.ShloMosaic.Lib.ValueIdx

noncomputable section

namespace Cert.KernelIdeal.HostTerms

open Cert.KernelIdeal Cert.KernelIdeal.Gen Idealize.ShloMosaic Idealize.ShloMosaic.ValueIdx

variable {F : FTy → Type} [FloatOps F]

/-! ## Before the first launch -/

/-- `xn` flattened to [50000, 96]. -/
def flatNodes (a0 : FVec F S50000x3x32 .f32) : FVec F S50000x96 .f32 :=
  shapeCast S50000x96 a0 shapeCasts_S50000x3x32_S50000x96

/-- `xn_attr` tiled three times along the lanes. -/
def tiledAttr (a1 : FVec F S50000x32 .f32) : FVec F S50000x96 .f32 :=
  shapeCast S50000x96 (broadcastInDim S1x50000x3x32 ![0, 1, 2, 3] bcast_S1x50000x1x32_S1x50000x3x32_0_1_2_3
    (shapeCast S1x50000x1x32 a1 shapeCasts_S50000x32_S1x50000x1x32)) shapeCasts_S1x50000x3x32_S50000x96

/-- The 3×3 identity, as the program builds it: `iota₀ + 0 = iota₁`, converted to a float. -/
def eye3 : FVec F S3x3 .f32 :=
  uitofp .f32 (cmpi .eq (addi (iotaInDim S3x3 32 0) (broadcastInDim S3x3 ![] bcast_S_S3x3 (constantI S_ 32 0#32)))
    (iotaInDim S3x3 32 1))

/-- `E ⊗ M` as a 96×96 matrix: the product of the two factors broadcast to [3, 32, 3, 32], flattened. -/
def kron (E : FVec F S3x3 .f32) (M : FVec F S32x32 .f32) : FVec F S96x96 .f32 :=
  shapeCast S96x96 (mulf
    (broadcastInDim S3x32x3x32 ![0, 1, 2, 3] bcast_S3x1x3x1_S3x32x3x32_0_1_2_3
      (broadcastInDim S3x1x3x1 ![0, 2] bcast_S3x3_S3x1x3x1_0_2 E))
    (broadcastInDim S3x32x3x32 ![0, 1, 2, 3] bcast_S1x32x1x32_S3x32x3x32_0_1_2_3
      (broadcastInDim S1x32x1x32 ![1, 3] bcast_S32x32_S1x32x1x32_1_3 M))) shapeCasts_S3x32x3x32_S96x96

/-- A mixing matrix lifted block-diagonally and rounded to bf16. -/
def blockDiag (M : FVec F S32x32 .f32) : FVec F S96x96 .bf16 :=
  truncf .bf16 (kron eye3 M) bitsLt_bf16_f32

/-- The transposed mixing matrix lifted block-diagonally and rounded to bf16. -/
def blockDiagT (M : FVec F S32x32 .f32) : FVec F S96x96 .bf16 :=
  blockDiag (transpose S32x32 [1, 0] M transposes_S32x32_S32x32_1_0)

/-- The angle `0.1 · ms_w`. -/
def angle (a6 : FVec F S1 .f32) : FVec F S1 .f32 :=
  mulf (broadcastInDim S1 ![] bcast_S_S1 (constant S_ .f32 0x3DCCCCCD#32)) a6

def cosAngle (a6 : FVec F S1 .f32) : FVec F S1x1 .f32 := shapeCast S1x1 (Host.cos (angle a6)) shapeCasts_S1_S1x1
def sinAngle (a6 : FVec F S1 .f32) : FVec F S1x1 .f32 := shapeCast S1x1 (Host.sin (angle a6)) shapeCasts_S1_S1x1

/-! ## Between the first and the second launch -/

/-- An index list with its negative entries wrapped once. -/
def wrapIdx (ix : IVec S1000000 32) : IVec S1000000x1 32 :=
  broadcastInDim S1000000x1 ![0] bcast_S1000000_S1000000x1_0
    (select (cmpi .slt ix (broadcastInDim S1000000 ![] bcast_S_S1000000 (constantI S_ 32 0#32)))
      (addi ix (broadcastInDim S1000000 ![] bcast_S_S1000000 (constantI S_ 32 50000#32))) ix)

/-- Per edge: is the wrapped index inside `[0, 49999]`? -/
def inRange (ix : IVec S1000000 32) : IVec S1000000 1 :=
  (fun x v => Host.reduce IntOp.andi x v reducesTo_S1000000x1_S1000000_d1 h_S_)
    (andi (cmpi .sge (wrapIdx ix) (broadcastInDim S1000000x1 ![] bcast_S_S1000000x1 (constantI S_ 32 0#32)))
      (cmpi .sle (wrapIdx ix) (broadcastInDim S1000000x1 ![0, 1] bcast_S1x1_S1000000x1_0_1
        (broadcastInDim S1x1 ![1] bcast_S1_S1x1_1 (constantI S1 32 49999#32)))))
    (constantI S_ 1 1#1)

/-- The rows `ix` of a [50000, 96] array, a row out of range replaced by the fill value. -/
def takeRows (X : FVec F S50000x96 .f32) (ix : IVec S1000000 32) : FVec F S1000000x96 .f32 :=
  select (broadcastInDim S1000000x96 ![0] bcast_S1000000_S1000000x96_0 (inRange ix))
    ((fun x i => Host.gather gather_S50000x96_S1000000x1_S1000000x96_1_0_n_n_0_1_196 x i) X (wrapIdx ix))
    (broadcastInDim S1000000x96 ![] bcast_S_S1000000x96 (constant S_ .f32 0x7FC00000#32))

/-- `(vv_M1 + vv_M2) · ½`. -/
def halfSum (a13 a14 : FVec F S32x32 .f32) : FVec F S32x32 .f32 :=
  mulf (addf a13 a14) (broadcastInDim S32x32 ![] bcast_S_S32x32 (constant S_ .f32 0x3F000000#32))

/-- `n2e_M · ((vv_M1 + vv_M2) · ½)`, lifted block-diagonally and rounded to bf16. -/
def composed (a11 a13 a14 : FVec F S32x32 .f32) : FVec F S96x96 .bf16 :=
  blockDiag ((fun l r => Host.dotGeneral dot_S32x32_S32x32_S32x32_1_0_0_1_n_n none l r) a11 (halfSum a13 a14))

def rowVec (a : FVec F S32 .f32) : FVec F S1x32 .f32 := shapeCast S1x32 a shapeCasts_S32_S1x32
def colVec (a2 : FVec F S1000000 .f32) : FVec F S1000000x1 .f32 := shapeCast S1000000x1 a2 shapeCasts_S1000000_S1000000x1

/-! ## Between the second and the third launch -/

/-- The rows of `Y` added into the rows `ix` of a zero [50000, 96] array. -/
def scatterRows (ix : IVec S1000000 32) (Y : FVec F S1000000x96 .f32) : FVec F S50000x96 .f32 :=
  (fun x i u => Host.scatterAdd scatter_S50000x96_S1000000x1_S1000000x96_1_0_0_1 x i u)
    (broadcastInDim S50000x96 ![] bcast_S_S50000x96 (constant S_ .f32 0x00000000#32))
    (broadcastInDim S1000000x1 ![0] bcast_S1000000_S1000000x1_0 ix) Y

/-! ## The launches' result arrays -/

/-- Rows `5000 t … 5000 t + 4999` of a [50000, 96] array. -/
def rows5000 (A : FVec F S50000x96 .f32) (t : Fin 10) : Vec F S5000x96 .f32 :=
  fun y => A (ix2 ⟨5000 * t.val + (y 0).val, by have := idx2_lt0 y; have := t.isLt; omega⟩ ⟨(y 1).val, idx2_lt1 y⟩)

/-- Rows `10000 t … 10000 t + 9999` of a [1000000, 96] array. -/
def rows10000 (A : FVec F S1000000x96 .f32) (t : Fin 100) : Vec F S10000x96 .f32 :=
  fun y => A (ix2 ⟨10000 * t.val + (y 0).val, by have := idx2_lt0 y; have := t.isLt; omega⟩ ⟨(y 1).val, idx2_lt1 y⟩)

/-- Rows `10000 t … 10000 t + 9999` of a [1000000, 1] column. -/
def col10000 (A : FVec F S1000000x1 .f32) (t : Fin 100) : Vec F S10000x1 .f32 :=
  fun y => A (ix2 ⟨10000 * t.val + (y 0).val, by have := idx2_lt0 y; have := t.isLt; omega⟩ ⟨(y 1).val, idx2_lt1 y⟩)

/-- The first launch's result array: row `n` is row `n mod 5000` of the body's result on block `n / 5000`. -/
def nodeMix1 (A0 A1 : FVec F S50000x96 .f32) (A2 A3 : FVec F S96x96 .bf16) (A4 A5 : FVec F S1x1 .f32) :
    FVec F S50000x96 .f32 := fun i =>
  out0_6 (rows5000 A0 ⟨(i 0).val / 5000, by have := idx2_lt0 i; omega⟩) (rows5000 A1 ⟨(i 0).val / 5000, by have := idx2_lt0 i; omega⟩)
    A2 A3 A4 A5 (ix2 ⟨(i 0).val % 5000, Nat.mod_lt _ (by decide)⟩ ⟨(i 1).val, idx2_lt1 i⟩)

/-- The second launch's result array. -/
def edgeMix (A0 A1 : FVec F S1000000x96 .f32) (A2 : FVec F S1000000x1 .f32) (A3 A4 A5 A6 : FVec F S1x32 .f32)
    (A7 A8 : FVec F S96x96 .bf16) : FVec F S1000000x96 .f32 := fun i =>
  out1_9 (rows10000 A0 ⟨(i 0).val / 10000, by have := idx2_lt0 i; omega⟩) (rows10000 A1 ⟨(i 0).val / 10000, by have := idx2_lt0 i; omega⟩)
    (col10000 A2 ⟨(i 0).val / 10000, by have := idx2_lt0 i; omega⟩) A3 A4 A5 A6 A7 A8
    (ix2 ⟨(i 0).val % 10000, Nat.mod_lt _ (by decide)⟩ ⟨(i 1).val, idx2_lt1 i⟩)

/-- The third launch's result array. -/
def nodeMix2 (A0 A1 : FVec F S50000x96 .f32) (A2 A3 : FVec F S96x96 .bf16) : FVec F S50000x96 .f32 := fun i =>
  out2_4 (rows5000 A0 ⟨(i 0).val / 5000, by have := idx2_lt0 i; omega⟩) (rows5000 A1 ⟨(i 0).val / 5000, by have := idx2_lt0 i; omega⟩)
    A2 A3 (ix2 ⟨(i 0).val % 5000, Nat.mod_lt _ (by decide)⟩ ⟨(i 1).val, idx2_lt1 i⟩)

/-! ## The program's result -/

def stage1 (a0 : FVec F S50000x3x32 .f32) (a1 : FVec F S50000x32 .f32) (a5 : FVec F S32x32 .f32) (a6 : FVec F S1 .f32) :
    FVec F S50000x96 .f32 :=
  nodeMix1 (flatNodes a0) (tiledAttr a1) (blockDiag a5) (blockDiagT a5) (cosAngle a6) (sinAngle a6)

def stage2 (X : FVec F S50000x96 .f32) (a2 : FVec F S1000000 .f32) (a3 a4 : IVec S1000000 32)
    (a7 a8 a9 a10 : FVec F S32 .f32) (a11 a12 a13 a14 : FVec F S32x32 .f32) : FVec F S1000000x96 .f32 :=
  edgeMix (takeRows X a3) (takeRows X a4) (colVec a2) (rowVec a7) (rowVec a8) (rowVec a9) (rowVec a10)
    (composed a11 a13 a14) (composed a12 a13 a14)

def stage3 (Y : FVec F S1000000x96 .f32) (a3 a4 : IVec S1000000 32) (a15 a16 : FVec F S32x32 .f32) :
    FVec F S50000x96 .f32 :=
  nodeMix2 (scatterRows a4 Y) (scatterRows a3 Y) (blockDiag a15) (blockDiag a16)

/-- The result buffer's final contents as a function of the seventeen arguments. -/
def result (a0 : FVec F S50000x3x32 .f32) (a1 : FVec F S50000x32 .f32) (a2 : FVec F S1000000 .f32)
    (a3 a4 : IVec S1000000 32) (a5 : FVec F S32x32 .f32) (a6 : FVec F S1 .f32) (a7 a8 a9 a10 : FVec F S32 .f32)
    (a11 a12 a13 a14 a15 a16 : FVec F S32x32 .f32) : FVec F S50000x3x32 .f32 :=
  shapeCast S50000x3x32
    (stage3 (stage2 (stage1 a0 a1 a5 a6) a2 a3 a4 a7 a8 a9 a10 a11 a12 a13 a14) a3 a4 a15 a16)
    shapeCasts_S50000x96_S50000x3x32

end Cert.KernelIdeal.HostTerms

end
-- ==== Proof.RegionArrays.lean ====
/-
  Each launch's result array, read off the pipeline's proof data: the flushed blocks tile the rows, the block of
  point `t` holds the body's result on the row-blocked operands' rows `B·t …` and on the whole small operands, so
  the array after the launch is the row-blocked function of the arrays the launch found.
-/
import proofs.«407674_j57329223467239_3_alg».proof.Proof.KernelHostTerms
import Idealize.ShloMosaic.Lib.Pipeline.Value

set_option maxRecDepth 16384

noncomputable section

namespace Cert.KernelIdeal.RegionArrays

open Cert.KernelIdeal Cert.KernelIdeal.Gen Cert.KernelIdeal.HostTerms
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## Launch 0 -/

/-- The printed block index maps over the grid: the row-blocked windows follow the point, the others stay. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

theorem N0 : cfg0.N = 10 := by decide

theorem blk0_0 (c : Dev nD) (t : Fin cfg0.N) :
    iblk0 V c 0 t = rows5000 (V c main_v0) ⟨t.val, lt_of_lt_of_eq t.isLt N0⟩ := by
  have hi := idx0 t
  funext y
  unfold iblk0
  rw [View.read_apply]
  show V c main_v0 _ = V c main_v0 _
  refine congrArg (V c main_v0) ?_
  funext a
  apply Fin.ext
  match a with
  | ⟨0, _⟩ => show win0_0.index t (0 : Fin 2) * 5000 + 1 * (y 0).val = 5000 * t.val + (y 0).val; rw [hi.1]; omega
  | ⟨1, _⟩ => show win0_0.index t (1 : Fin 2) * 96 + 1 * (y 1).val = (y 1).val; rw [hi.2.1]; omega

theorem blk0_1 (c : Dev nD) (t : Fin cfg0.N) :
    iblk0 V c 1 t = rows5000 (V c main_v3) ⟨t.val, lt_of_lt_of_eq t.isLt N0⟩ := by
  have hi := idx0 t
  funext y
  unfold iblk0
  rw [View.read_apply]
  show V c main_v3 _ = V c main_v3 _
  refine congrArg (V c main_v3) ?_
  funext a
  apply Fin.ext
  match a with
  | ⟨0, _⟩ => show win0_1.index t (0 : Fin 2) * 5000 + 1 * (y 0).val = 5000 * t.val + (y 0).val; rw [hi.2.2.1]; omega
  | ⟨1, _⟩ => show win0_1.index t (1 : Fin 2) * 96 + 1 * (y 1).val = (y 1).val; rw [hi.2.2.2.1]; omega

theorem blk0_2 (c : Dev nD) (t : Fin cfg0.N) : iblk0 V c 2 t = V c main_v13 := by
  have hi := idx0 t
  funext y
  unfold iblk0
  rw [View.read_apply]
  show V c main_v13 _ = V c main_v13 y
  refine congrArg (V c main_v13) ?_
  funext a
  apply Fin.ext
  match a with
  | ⟨0, _⟩ => show win0_2.index t (0 : Fin 2) * 96 + 1 * (y 0).val = (y 0).val; rw [hi.2.2.2.2.1]; omega
  | ⟨1, _⟩ => show win0_2.index t (1 : Fin 2) * 96 + 1 * (y 1).val = (y 1).val; rw [hi.2.2.2.2.2.1]; omega

theorem blk0_3 (c : Dev nD) (t : Fin cfg0.N) : iblk0 V c 3 t = V c main_v14 := by
  have hi := idx0 t
  funext y
  unfold iblk0
  rw [View.read_apply]
  show V c main_v14 _ = V c main_v14 y
  refine congrArg (V c main_v14) ?_
  funext a
  apply Fin.ext
  match a with
  | ⟨0, _⟩ => show win0_3.index t (0 : Fin 2) * 96 + 1 * (y 0).val = (y 0).val; rw [hi.2.2.2.2.2.2.1]; omega
  | ⟨1, _⟩ => show win0_3.index t (1 : Fin 2) * 96 + 1 * (y 1).val = (y 1).val; rw [hi.2.2.2.2.2.2.2.1]; omega

theorem blk0_4 (c : Dev nD) (t : Fin cfg0.N) : iblk0 V c 4 t = V c main_v18 := by
  have hi := idx0 t
  funext y
  unfold iblk0
  rw [View.read_apply]
  show V c main_v18 _ = V c main_v18 y
  refine congrArg (V c main_v18) ?_
  funext a
  apply Fin.ext
  match a with
  | ⟨0, _⟩ => show win0_4.index t (0 : Fin 2) * 1 + 1 * (y 0).val = (y 0).val; rw [hi.2.2.2.2.2.2.2.2.1]; omega
  | ⟨1, _⟩ => show win0_4.index t (1 : Fin 2) * 1 + 1 * (y 1).val = (y 1).val; rw [hi.2.2.2.2.2.2.2.2.2.1]; omega

theorem blk0_5 (c : Dev nD) (t : Fin cfg0.N) : iblk0 V c 5 t = V c main_v22 := by
  have hi := idx0 t
  funext y
  unfold iblk0
  rw [View.read_apply]
  show V c main_v22 _ = V c main_v22 y
  refine congrArg (V c main_v22) ?_
  funext a
  apply Fin.ext
  match a with
  | ⟨0, _⟩ => show win0_5.index t (0 : Fin 2) * 1 + 1 * (y 0).val = (y 0).val; rw [hi.2.2.2.2.2.2.2.2.2.2.1]; omega
  | ⟨1, _⟩ => show win0_5.index t (1 : Fin 2) * 1 + 1 * (y 1).val = (y 1).val; rw [hi.2.2.2.2.2.2.2.2.2.2.2.1]; omega

/-- The result array at an index of block `t` is the body's result on block `t`'s operands at the index inside the block. -/
theorem nodeMix1_at (A0 : FVec F S50000x96 .f32) (A1 : FVec F S50000x96 .f32) (A2 : FVec F S96x96 .bf16) (A3 : FVec F S96x96 .bf16) (A4 : FVec F S1x1 .f32) (A5 : FVec F S1x1 .f32) (i : S50000x96.Idx) (t : Fin 10) (j : S5000x96.Idx)
    (h0 : (i 0).val = 5000 * t.val + (j 0).val) (h1 : (i 1).val = (j 1).val) :
    nodeMix1 A0 A1 A2 A3 A4 A5 i = out0_6 (rows5000 A0 t) (rows5000 A1 t) A2 A3 A4 A5 j := by
  have hj0 : (j 0).val < 5000 := idx2_lt0 j
  have ht : (⟨(i 0).val / 5000, by have := idx2_lt0 i; omega⟩ : Fin 10) = t := Fin.ext (by show (i 0).val / 5000 = t.val; omega)
  have hj : (ix2 ⟨(i 0).val % 5000, Nat.mod_lt _ (by decide)⟩ ⟨(i 1).val, idx2_lt1 i⟩ : S5000x96.Idx) = j := by
    funext a
    apply Fin.ext
    match a with
    | ⟨0, _⟩ => show (i 0).val % 5000 = (j 0).val; omega
    | ⟨1, _⟩ => exact h1
  unfold nodeMix1
  rw [ht, hj]

/-- A block function that agrees, index by index, with an array function on the rows of block `t` is what reading block
    `t` of that array gives. -/
theorem read_blk0 (t : Fin cfg0.N) (X : S5000x96.Idx → Elt F .f32) (G : S50000x96.Idx → Elt F .f32)
    (h : ∀ y : S5000x96.Idx, X y = G (ix2 ⟨5000 * t.val + (y 0).val, by have := idx2_lt0 y; have := lt_of_lt_of_eq t.isLt N0; omega⟩ ⟨(y 1).val, idx2_lt1 y⟩)) :
    (cfg0.win 6).cut (grid0.coords t) X = ((cfg0.win 6).blk t).view.read (Elt F) G := by
  have hi := idx0 t
  funext j
  rw [View.read_apply]
  show X _ = G _
  rw [h]
  refine congrArg G ?_
  funext a
  apply Fin.ext
  match a with
  | ⟨0, _⟩ => show 5000 * t.val + (j 0).val = win0_6.index t (0 : Fin 2) * 5000 + 1 * (j 0).val; rw [hi.2.2.2.2.2.2.2.2.2.2.2.2.1]; omega
  | ⟨1, _⟩ => show (j 1).val = win0_6.index t (1 : Fin 2) * 96 + 1 * (j 1).val; rw [hi.2.2.2.2.2.2.2.2.2.2.2.2.2]; omega

/-- What point `t` writes back is block `t` of the row-blocked function of the arrays the launch found. -/
theorem flushed0 (c : Dev nD) (t : Fin cfg0.N) :
    (dat0 V c).flushed 6 t = ((cfg0.win 6).blk t).view.read (Elt F) (nodeMix1 (V c main_v0) (V c main_v3) (V c main_v13) (V c main_v14) (V c main_v18) (V c main_v22)) := by
  show (cfg0.win 6).cut (grid0.coords t) ((dat0 V c).after 6 t) = _
  rw [after0_6, blk0_0, blk0_1, blk0_2, blk0_3, blk0_4, blk0_5]
  exact read_blk0 t _ _ fun y => (nodeMix1_at (V c main_v0) (V c main_v3) (V c main_v13) (V c main_v14) (V c main_v18) (V c main_v22) _ ⟨t.val, lt_of_lt_of_eq t.isLt N0⟩ y rfl rfl).symm

/-- The blocks tile the rows: row `r` is in the block of point `r / 5000`. -/
theorem cover0 (c : Dev nD) (i : S50000x96.Idx) :
    ∃ t : Fin cfg0.N, (cfg0.win 6).flush t = true ∧ i ∈ ((cfg0.win 6).blk t).view.set := by
  have hi0 : (i 0).val < 50000 := idx2_lt0 i
  have hi1 : (i 1).val < 96 := idx2_lt1 i
  let t : Fin cfg0.N := ⟨(i 0).val / 5000, by rw [N0]; omega⟩
  have hi := idx0 t
  refine ⟨t, flush0_6 t, ?_⟩
  show i ∈ ((View.whole main_v23).slice (win0_6.rect t)).set
  rw [View.set_slice_whole, Rect.mem_set_unit]
  intro a
  match a with
  | ⟨0, _⟩ => show win0_6.index t (0 : Fin 2) * 5000 ≤ (i 0).val ∧ (i 0).val < win0_6.index t (0 : Fin 2) * 5000 + 5000
              rw [hi.2.2.2.2.2.2.2.2.2.2.2.2.1]; show (i 0).val / 5000 * 5000 ≤ (i 0).val ∧ (i 0).val < (i 0).val / 5000 * 5000 + 5000; omega
  | ⟨1, _⟩ => show win0_6.index t (1 : Fin 2) * 96 ≤ (i 1).val ∧ (i 1).val < win0_6.index t (1 : Fin 2) * 96 + 96
              rw [hi.2.2.2.2.2.2.2.2.2.2.2.2.2]; omega

/-- The result array after the launch. -/
theorem nodeMix1_arr (c : Dev nD) : (dat0 V c).arrAt 6 cfg0.N = nodeMix1 (V c main_v0) (V c main_v3) (V c main_v13) (V c main_v14) (V c main_v18) (V c main_v22) :=
  (dat0 V c).arrAt_eq_of_cover 6 _ (fun t _ => flushed0 V c t) (cover0 c)

/-! ## Launch 1 -/

/-- The printed block index maps over the grid: the row-blocked windows follow the point, the others stay. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

theorem N1 : cfg1.N = 100 := by decide

theorem blk1_0 (c : Dev nD) (t : Fin cfg1.N) :
    iblk1 V c 0 t = rows10000 (V c main_v24) ⟨t.val, lt_of_lt_of_eq t.isLt N1⟩ := by
  have hi := idx1 t
  funext y
  unfold iblk1
  rw [View.read_apply]
  show V c main_v24 _ = V c main_v24 _
  refine congrArg (V c main_v24) ?_
  funext a
  apply Fin.ext
  match a with
  | ⟨0, _⟩ => show win1_0.index t (0 : Fin 2) * 10000 + 1 * (y 0).val = 10000 * t.val + (y 0).val; rw [hi.1]; omega
  | ⟨1, _⟩ => show win1_0.index t (1 : Fin 2) * 96 + 1 * (y 1).val = (y 1).val; rw [hi.2.1]; omega

theorem blk1_1 (c : Dev nD) (t : Fin cfg1.N) :
    iblk1 V c 1 t = rows10000 (V c main_v25) ⟨t.val, lt_of_lt_of_eq t.isLt N1⟩ := by
  have hi := idx1 t
  funext y
  unfold iblk1
  rw [View.read_apply]
  show V c main_v25 _ = V c main_v25 _
  refine congrArg (V c main_v25) ?_
  funext a
  apply Fin.ext
  match a with
  | ⟨0, _⟩ => show win1_1.index t (0 : Fin 2) * 10000 + 1 * (y 0).val = 10000 * t.val + (y 0).val; rw [hi.2.2.1]; omega
  | ⟨1, _⟩ => show win1_1.index t (1 : Fin 2) * 96 + 1 * (y 1).val = (y 1).val; rw [hi.2.2.2.1]; omega

theorem blk1_2 (c : Dev nD) (t : Fin cfg1.N) :
    iblk1 V c 2 t = col10000 (V c main_v39) ⟨t.val, lt_of_lt_of_eq t.isLt N1⟩ := by
  have hi := idx1 t
  funext y
  unfold iblk1
  rw [View.read_apply]
  show V c main_v39 _ = V c main_v39 _
  refine congrArg (V c main_v39) ?_
  funext a
  apply Fin.ext
  match a with
  | ⟨0, _⟩ => show win1_2.index t (0 : Fin 2) * 10000 + 1 * (y 0).val = 10000 * t.val + (y 0).val; rw [hi.2.2.2.2.1]; omega
  | ⟨1, _⟩ => show win1_2.index t (1 : Fin 2) * 1 + 1 * (y 1).val = (y 1).val; rw [hi.2.2.2.2.2.1]; omega

theorem blk1_3 (c : Dev nD) (t : Fin cfg1.N) : iblk1 V c 3 t = V c main_v35 := by
  have hi := idx1 t
  funext y
  unfold iblk1
  rw [View.read_apply]
  show V c main_v35 _ = V c main_v35 y
  refine congrArg (V c main_v35) ?_
  funext a
  apply Fin.ext
  match a with
  | ⟨0, _⟩ => show win1_3.index t (0 : Fin 2) * 1 + 1 * (y 0).val = (y 0).val; rw [hi.2.2.2.2.2.2.1]; omega
  | ⟨1, _⟩ => show win1_3.index t (1 : Fin 2) * 32 + 1 * (y 1).val = (y 1).val; rw [hi.2.2.2.2.2.2.2.1]; omega

theorem blk1_4 (c : Dev nD) (t : Fin cfg1.N) : iblk1 V c 4 t = V c main_v36 := by
  have hi := idx1 t
  funext y
  unfold iblk1
  rw [View.read_apply]
  show V c main_v36 _ = V c main_v36 y
  refine congrArg (V c main_v36) ?_
  funext a
  apply Fin.ext
  match a with
  | ⟨0, _⟩ => show win1_4.index t (0 : Fin 2) * 1 + 1 * (y 0).val = (y 0).val; rw [hi.2.2.2.2.2.2.2.2.1]; omega
  | ⟨1, _⟩ => show win1_4.index t (1 : Fin 2) * 32 + 1 * (y 1).val = (y 1).val; rw [hi.2.2.2.2.2.2.2.2.2.1]; omega

theorem blk1_5 (c : Dev nD) (t : Fin cfg1.N) : iblk1 V c 5 t = V c main_v37 := by
  have hi := idx1 t
  funext y
  unfold iblk1
  rw [View.read_apply]
  show V c main_v37 _ = V c main_v37 y
  refine congrArg (V c main_v37) ?_
  funext a
  apply Fin.ext
  match a with
  | ⟨0, _⟩ => show win1_5.index t (0 : Fin 2) * 1 + 1 * (y 0).val = (y 0).val; rw [hi.2.2.2.2.2.2.2.2.2.2.1]; omega
  | ⟨1, _⟩ => show win1_5.index t (1 : Fin 2) * 32 + 1 * (y 1).val = (y 1).val; rw [hi.2.2.2.2.2.2.2.2.2.2.2.1]; omega

theorem blk1_6 (c : Dev nD) (t : Fin cfg1.N) : iblk1 V c 6 t = V c main_v38 := by
  have hi := idx1 t
  funext y
  unfold iblk1
  rw [View.read_apply]
  show V c main_v38 _ = V c main_v38 y
  refine congrArg (V c main_v38) ?_
  funext a
  apply Fin.ext
  match a with
  | ⟨0, _⟩ => show win1_6.index t (0 : Fin 2) * 1 + 1 * (y 0).val = (y 0).val; rw [hi.2.2.2.2.2.2.2.2.2.2.2.2.1]; omega
  | ⟨1, _⟩ => show win1_6.index t (1 : Fin 2) * 32 + 1 * (y 1).val = (y 1).val; rw [hi.2.2.2.2.2.2.2.2.2.2.2.2.2.1]; omega

theorem blk1_7 (c : Dev nD) (t : Fin cfg1.N) : iblk1 V c 7 t = V c main_v32 := by
  have hi := idx1 t
  funext y
  unfold iblk1
  rw [View.read_apply]
  show V c main_v32 _ = V c main_v32 y
  refine congrArg (V c main_v32) ?_
  funext a
  apply Fin.ext
  match a with
  | ⟨0, _⟩ => show win1_7.index t (0 : Fin 2) * 96 + 1 * (y 0).val = (y 0).val; rw [hi.2.2.2.2.2.2.2.2.2.2.2.2.2.2.1]; omega
  | ⟨1, _⟩ => show win1_7.index t (1 : Fin 2) * 96 + 1 * (y 1).val = (y 1).val; rw [hi.2.2.2.2.2.2.2.2.2.2.2.2.2.2.2.1]; omega

theorem blk1_8 (c : Dev nD) (t : Fin cfg1.N) : iblk1 V c 8 t = V c main_v34 := by
  have hi := idx1 t
  funext y
  unfold iblk1
  rw [View.read_apply]
  show V c main_v34 _ = V c main_v34 y
  refine congrArg (V c main_v34) ?_
  funext a
  apply Fin.ext
  match a with
  | ⟨0, _⟩ => show win1_8.index t (0 : Fin 2) * 96 + 1 * (y 0).val = (y 0).val; rw [hi.2.2.2.2.2.2.2.2.2.2.2.2.2.2.2.2.1]; omega
  | ⟨1, _⟩ => show win1_8.index t (1 : Fin 2) * 96 + 1 * (y 1).val = (y 1).val; rw [hi.2.2.2.2.2.2.2.2.2.2.2.2.2.2.2.2.2.1]; omega

/-- The result array at an index of block `t` is the body's result on block `t`'s operands at the index inside the block. -/
theorem edgeMix_at (A0 : FVec F S1000000x96 .f32) (A1 : FVec F S1000000x96 .f32) (A2 : FVec F S1000000x1 .f32) (A3 : FVec F S1x32 .f32) (A4 : FVec F S1x32 .f32) (A5 : FVec F S1x32 .f32) (A6 : FVec F S1x32 .f32) (A7 : FVec F S96x96 .bf16) (A8 : FVec F S96x96 .bf16) (i : S1000000x96.Idx) (t : Fin 100) (j : S10000x96.Idx)
    (h0 : (i 0).val = 10000 * t.val + (j 0).val) (h1 : (i 1).val = (j 1).val) :
    edgeMix A0 A1 A2 A3 A4 A5 A6 A7 A8 i = out1_9 (rows10000 A0 t) (rows10000 A1 t) (col10000 A2 t) A3 A4 A5 A6 A7 A8 j := by
  have hj0 : (j 0).val < 10000 := idx2_lt0 j
  have ht : (⟨(i 0).val / 10000, by have := idx2_lt0 i; omega⟩ : Fin 100) = t := Fin.ext (by show (i 0).val / 10000 = t.val; omega)
  have hj : (ix2 ⟨(i 0).val % 10000, Nat.mod_lt _ (by decide)⟩ ⟨(i 1).val, idx2_lt1 i⟩ : S10000x96.Idx) = j := by
    funext a
    apply Fin.ext
    match a with
    | ⟨0, _⟩ => show (i 0).val % 10000 = (j 0).val; omega
    | ⟨1, _⟩ => exact h1
  unfold edgeMix
  rw [ht, hj]

/-- A block function that agrees, index by index, with an array function on the rows of block `t` is what reading block
    `t` of that array gives. -/
theorem read_blk1 (t : Fin cfg1.N) (X : S10000x96.Idx → Elt F .f32) (G : S1000000x96.Idx → Elt F .f32)
    (h : ∀ y : S10000x96.Idx, X y = G (ix2 ⟨10000 * t.val + (y 0).val, by have := idx2_lt0 y; have := lt_of_lt_of_eq t.isLt N1; omega⟩ ⟨(y 1).val, idx2_lt1 y⟩)) :
    (cfg1.win 9).cut (grid1.coords t) X = ((cfg1.win 9).blk t).view.read (Elt F) G := by
  have hi := idx1 t
  funext j
  rw [View.read_apply]
  show X _ = G _
  rw [h]
  refine congrArg G ?_
  funext a
  apply Fin.ext
  match a with
  | ⟨0, _⟩ => show 10000 * t.val + (j 0).val = win1_9.index t (0 : Fin 2) * 10000 + 1 * (j 0).val; rw [hi.2.2.2.2.2.2.2.2.2.2.2.2.2.2.2.2.2.2.1]; omega
  | ⟨1, _⟩ => show (j 1).val = win1_9.index t (1 : Fin 2) * 96 + 1 * (j 1).val; rw [hi.2.2.2.2.2.2.2.2.2.2.2.2.2.2.2.2.2.2.2]; omega

/-- What point `t` writes back is block `t` of the row-blocked function of the arrays the launch found. -/
theorem flushed1 (c : Dev nD) (t : Fin cfg1.N) :
    (dat1 V c).flushed 9 t = ((cfg1.win 9).blk t).view.read (Elt F) (edgeMix (V c main_v24) (V c main_v25) (V c main_v39) (V c main_v35) (V c main_v36) (V c main_v37) (V c main_v38) (V c main_v32) (V c main_v34)) := by
  show (cfg1.win 9).cut (grid1.coords t) ((dat1 V c).after 9 t) = _
  rw [after1_9, blk1_0, blk1_1, blk1_2, blk1_3, blk1_4, blk1_5, blk1_6, blk1_7, blk1_8]
  exact read_blk1 t _ _ fun y => (edgeMix_at (V c main_v24) (V c main_v25) (V c main_v39) (V c main_v35) (V c main_v36) (V c main_v37) (V c main_v38) (V c main_v32) (V c main_v34) _ ⟨t.val, lt_of_lt_of_eq t.isLt N1⟩ y rfl rfl).symm

/-- The blocks tile the rows: row `r` is in the block of point `r / 10000`. -/
theorem cover1 (c : Dev nD) (i : S1000000x96.Idx) :
    ∃ t : Fin cfg1.N, (cfg1.win 9).flush t = true ∧ i ∈ ((cfg1.win 9).blk t).view.set := by
  have hi0 : (i 0).val < 1000000 := idx2_lt0 i
  have hi1 : (i 1).val < 96 := idx2_lt1 i
  let t : Fin cfg1.N := ⟨(i 0).val / 10000, by rw [N1]; omega⟩
  have hi := idx1 t
  refine ⟨t, flush1_9 t, ?_⟩
  show i ∈ ((View.whole main_v40).slice (win1_9.rect t)).set
  rw [View.set_slice_whole, Rect.mem_set_unit]
  intro a
  match a with
  | ⟨0, _⟩ => show win1_9.index t (0 : Fin 2) * 10000 ≤ (i 0).val ∧ (i 0).val < win1_9.index t (0 : Fin 2) * 10000 + 10000
              rw [hi.2.2.2.2.2.2.2.2.2.2.2.2.2.2.2.2.2.2.1]; show (i 0).val / 10000 * 10000 ≤ (i 0).val ∧ (i 0).val < (i 0).val / 10000 * 10000 + 10000; omega
  | ⟨1, _⟩ => show win1_9.index t (1 : Fin 2) * 96 ≤ (i 1).val ∧ (i 1).val < win1_9.index t (1 : Fin 2) * 96 + 96
              rw [hi.2.2.2.2.2.2.2.2.2.2.2.2.2.2.2.2.2.2.2]; omega

/-- The result array after the launch. -/
theorem edgeMix_arr (c : Dev nD) : (dat1 V c).arrAt 9 cfg1.N = edgeMix (V c main_v24) (V c main_v25) (V c main_v39) (V c main_v35) (V c main_v36) (V c main_v37) (V c main_v38) (V c main_v32) (V c main_v34) :=
  (dat1 V c).arrAt_eq_of_cover 9 _ (fun t _ => flushed1 V c t) (cover1 c)

/-! ## Launch 2 -/

/-- The printed block index maps over the grid: the row-blocked windows follow the point, the others stay. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

theorem N2 : cfg2.N = 10 := by decide

theorem blk2_0 (c : Dev nD) (t : Fin cfg2.N) :
    iblk2 V c 0 t = rows5000 (V c main_v43) ⟨t.val, lt_of_lt_of_eq t.isLt N2⟩ := by
  have hi := idx2 t
  funext y
  unfold iblk2
  rw [View.read_apply]
  show V c main_v43 _ = V c main_v43 _
  refine congrArg (V c main_v43) ?_
  funext a
  apply Fin.ext
  match a with
  | ⟨0, _⟩ => show win2_0.index t (0 : Fin 2) * 5000 + 1 * (y 0).val = 5000 * t.val + (y 0).val; rw [hi.1]; omega
  | ⟨1, _⟩ => show win2_0.index t (1 : Fin 2) * 96 + 1 * (y 1).val = (y 1).val; rw [hi.2.1]; omega

theorem blk2_1 (c : Dev nD) (t : Fin cfg2.N) :
    iblk2 V c 1 t = rows5000 (V c main_v46) ⟨t.val, lt_of_lt_of_eq t.isLt N2⟩ := by
  have hi := idx2 t
  funext y
  unfold iblk2
  rw [View.read_apply]
  show V c main_v46 _ = V c main_v46 _
  refine congrArg (V c main_v46) ?_
  funext a
  apply Fin.ext
  match a with
  | ⟨0, _⟩ => show win2_1.index t (0 : Fin 2) * 5000 + 1 * (y 0).val = 5000 * t.val + (y 0).val; rw [hi.2.2.1]; omega
  | ⟨1, _⟩ => show win2_1.index t (1 : Fin 2) * 96 + 1 * (y 1).val = (y 1).val; rw [hi.2.2.2.1]; omega

theorem blk2_2 (c : Dev nD) (t : Fin cfg2.N) : iblk2 V c 2 t = V c main_v48 := by
  have hi := idx2 t
  funext y
  unfold iblk2
  rw [View.read_apply]
  show V c main_v48 _ = V c main_v48 y
  refine congrArg (V c main_v48) ?_
  funext a
  apply Fin.ext
  match a with
  | ⟨0, _⟩ => show win2_2.index t (0 : Fin 2) * 96 + 1 * (y 0).val = (y 0).val; rw [hi.2.2.2.2.1]; omega
  | ⟨1, _⟩ => show win2_2.index t (1 : Fin 2) * 96 + 1 * (y 1).val = (y 1).val; rw [hi.2.2.2.2.2.1]; omega

theorem blk2_3 (c : Dev nD) (t : Fin cfg2.N) : iblk2 V c 3 t = V c main_v50 := by
  have hi := idx2 t
  funext y
  unfold iblk2
  rw [View.read_apply]
  show V c main_v50 _ = V c main_v50 y
  refine congrArg (V c main_v50) ?_
  funext a
  apply Fin.ext
  match a with
  | ⟨0, _⟩ => show win2_3.index t (0 : Fin 2) * 96 + 1 * (y 0).val = (y 0).val; rw [hi.2.2.2.2.2.2.1]; omega
  | ⟨1, _⟩ => show win2_3.index t (1 : Fin 2) * 96 + 1 * (y 1).val = (y 1).val; rw [hi.2.2.2.2.2.2.2.1]; omega

/-- The result array at an index of block `t` is the body's result on block `t`'s operands at the index inside the block. -/
theorem nodeMix2_at (A0 : FVec F S50000x96 .f32) (A1 : FVec F S50000x96 .f32) (A2 : FVec F S96x96 .bf16) (A3 : FVec F S96x96 .bf16) (i : S50000x96.Idx) (t : Fin 10) (j : S5000x96.Idx)
    (h0 : (i 0).val = 5000 * t.val + (j 0).val) (h1 : (i 1).val = (j 1).val) :
    nodeMix2 A0 A1 A2 A3 i = out2_4 (rows5000 A0 t) (rows5000 A1 t) A2 A3 j := by
  have hj0 : (j 0).val < 5000 := idx2_lt0 j
  have ht : (⟨(i 0).val / 5000, by have := idx2_lt0 i; omega⟩ : Fin 10) = t := Fin.ext (by show (i 0).val / 5000 = t.val; omega)
  have hj : (ix2 ⟨(i 0).val % 5000, Nat.mod_lt _ (by decide)⟩ ⟨(i 1).val, idx2_lt1 i⟩ : S5000x96.Idx) = j := by
    funext a
    apply Fin.ext
    match a with
    | ⟨0, _⟩ => show (i 0).val % 5000 = (j 0).val; omega
    | ⟨1, _⟩ => exact h1
  unfold nodeMix2
  rw [ht, hj]

/-- A block function that agrees, index by index, with an array function on the rows of block `t` is what reading block
    `t` of that array gives. -/
theorem read_blk2 (t : Fin cfg2.N) (X : S5000x96.Idx → Elt F .f32) (G : S50000x96.Idx → Elt F .f32)
    (h : ∀ y : S5000x96.Idx, X y = G (ix2 ⟨5000 * t.val + (y 0).val, by have := idx2_lt0 y; have := lt_of_lt_of_eq t.isLt N2; omega⟩ ⟨(y 1).val, idx2_lt1 y⟩)) :
    (cfg2.win 4).cut (grid2.coords t) X = ((cfg2.win 4).blk t).view.read (Elt F) G := by
  have hi := idx2 t
  funext j
  rw [View.read_apply]
  show X _ = G _
  rw [h]
  refine congrArg G ?_
  funext a
  apply Fin.ext
  match a with
  | ⟨0, _⟩ => show 5000 * t.val + (j 0).val = win2_4.index t (0 : Fin 2) * 5000 + 1 * (j 0).val; rw [hi.2.2.2.2.2.2.2.2.1]; omega
  | ⟨1, _⟩ => show (j 1).val = win2_4.index t (1 : Fin 2) * 96 + 1 * (j 1).val; rw [hi.2.2.2.2.2.2.2.2.2]; omega

/-- What point `t` writes back is block `t` of the row-blocked function of the arrays the launch found. -/
theorem flushed2 (c : Dev nD) (t : Fin cfg2.N) :
    (dat2 V c).flushed 4 t = ((cfg2.win 4).blk t).view.read (Elt F) (nodeMix2 (V c main_v43) (V c main_v46) (V c main_v48) (V c main_v50)) := by
  show (cfg2.win 4).cut (grid2.coords t) ((dat2 V c).after 4 t) = _
  rw [after2_4, blk2_0, blk2_1, blk2_2, blk2_3]
  exact read_blk2 t _ _ fun y => (nodeMix2_at (V c main_v43) (V c main_v46) (V c main_v48) (V c main_v50) _ ⟨t.val, lt_of_lt_of_eq t.isLt N2⟩ y rfl rfl).symm

/-- The blocks tile the rows: row `r` is in the block of point `r / 5000`. -/
theorem cover2 (c : Dev nD) (i : S50000x96.Idx) :
    ∃ t : Fin cfg2.N, (cfg2.win 4).flush t = true ∧ i ∈ ((cfg2.win 4).blk t).view.set := by
  have hi0 : (i 0).val < 50000 := idx2_lt0 i
  have hi1 : (i 1).val < 96 := idx2_lt1 i
  let t : Fin cfg2.N := ⟨(i 0).val / 5000, by rw [N2]; omega⟩
  have hi := idx2 t
  refine ⟨t, flush2_4 t, ?_⟩
  show i ∈ ((View.whole main_v51).slice (win2_4.rect t)).set
  rw [View.set_slice_whole, Rect.mem_set_unit]
  intro a
  match a with
  | ⟨0, _⟩ => show win2_4.index t (0 : Fin 2) * 5000 ≤ (i 0).val ∧ (i 0).val < win2_4.index t (0 : Fin 2) * 5000 + 5000
              rw [hi.2.2.2.2.2.2.2.2.1]; show (i 0).val / 5000 * 5000 ≤ (i 0).val ∧ (i 0).val < (i 0).val / 5000 * 5000 + 5000; omega
  | ⟨1, _⟩ => show win2_4.index t (1 : Fin 2) * 96 ≤ (i 1).val ∧ (i 1).val < win2_4.index t (1 : Fin 2) * 96 + 96
              rw [hi.2.2.2.2.2.2.2.2.2]; omega

/-- The result array after the launch. -/
theorem nodeMix2_arr (c : Dev nD) : (dat2 V c).arrAt 4 cfg2.N = nodeMix2 (V c main_v43) (V c main_v46) (V c main_v48) (V c main_v50) :=
  (dat2 V c).arrAt_eq_of_cover 4 _ (fun t _ => flushed2 V c t) (cover2 c)

end Cert.KernelIdeal.RegionArrays

end
-- ==== Proof.KernelChainFirst.lean ====
/-
  The buffer contents at the first launch's entry and exit as pure host terms of the argument arrays: every host
  operation's result read back through the fold of the host stretches before the launch, the launch's result array
  by its row-blocked function; the arguments' buffers keep the arguments.
-/
import proofs.«407674_j57329223467239_3_alg».proof.Proof.RegionArrays

set_option maxRecDepth 16384

noncomputable section

namespace Cert.KernelIdeal.Chain

open Cert.KernelIdeal Cert.KernelIdeal.Gen Cert.KernelIdeal.HostTerms Cert.KernelIdeal.RegionArrays
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Reads one buffer back through a fold of host stretches: every operation's result at its own buffer is its
    function of its operands' contents, at another buffer what was there. -/
local macro "read_fold" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             try rfl))

/-- The same through a called function's typed buffers: the transports between a buffer's type and its value's type
    compose and vanish. -/
local macro "read_fold_typed" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             simp only [TRef.ofBuf, TRef.toBuf, cast_cast, cast_eq]
             rfl))

/-! ## Before the first launch: its six operands -/

theorem entry0_v0 (c : Dev nD) : V5 m ρ c main_v0 = flatNodes (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_v0) = _
  read_fold

theorem entry0_v3 (c : Dev nD) : V5 m ρ c main_v3 = tiledAttr (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v3) = _
  read_fold

theorem entry0_v13 (c : Dev nD) : V5 m ρ c main_v13 = blockDiag (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_v13) = _
  read_fold

theorem entry0_v14 (c : Dev nD) : V5 m ρ c main_v14 = blockDiagT (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_v14) = _
  read_fold

theorem entry0_v18 (c : Dev nD) : V5 m ρ c main_v18 = cosAngle (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_v18) = _
  read_fold

theorem entry0_v22 (c : Dev nD) : V5 m ρ c main_v22 = sinAngle (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_v22) = _
  read_fold

/-- An argument's buffer at the first launch's entry holds the argument. -/
theorem entry0_arg (c : Dev nD) (a : Ref sig .tc) (ha : a = main_arg2 ∨ a = main_arg3 ∨ a = main_arg4 ∨ a = main_arg7 ∨ a = main_arg8 ∨ a = main_arg9 ∨ a = main_arg10 ∨ a = main_arg11 ∨ a = main_arg12 ∨ a = main_arg13 ∨ a = main_arg14 ∨ a = main_arg15 ∨ a = main_arg16) :
    W5 m ρ c (Proc.devRef .tc a) = m ((c : Thread nD τ).loc a) := by
  rcases ha with rfl | rfl | rfl | rfl | rfl | rfl | rfl | rfl | rfl | rfl | rfl | rfl | rfl <;>
  · show StableHlo.after hostOps0_4 (StableHlo.after hostOps0_3 (StableHlo.after hostOps0_2 (StableHlo.after hostOps0_1 (StableHlo.after hostOps0 (W0 m ρ c))))) (Proc.devRef .tc _) = _
    read_fold

/-- The first launch's result array. -/
theorem exit0_v23 (c : Dev nD) : W6 m ρ c (Proc.devRef .tc main_v23)
    = stage1 (m ((c : Thread nD τ).loc main_arg0)) (m ((c : Thread nD τ).loc main_arg1)) (m ((c : Thread nD τ).loc main_arg5)) (m ((c : Thread nD τ).loc main_arg6)) := by
  have h := W6_arr m ρ c 6
  rw [nodeMix1_arr (V5 m ρ) c, entry0_v0, entry0_v3, entry0_v13, entry0_v14, entry0_v18, entry0_v22] at h
  exact h

/-- An argument's buffer after the first launch still holds the argument. -/
theorem exit0_arg (c : Dev nD) (a : Ref sig .tc) (ha : a = main_arg2 ∨ a = main_arg3 ∨ a = main_arg4 ∨ a = main_arg7 ∨ a = main_arg8 ∨ a = main_arg9 ∨ a = main_arg10 ∨ a = main_arg11 ∨ a = main_arg12 ∨ a = main_arg13 ∨ a = main_arg14 ∨ a = main_arg15 ∨ a = main_arg16) :
    W6 m ρ c (Proc.devRef .tc a) = m ((c : Thread nD τ).loc a) := by
  refine (W6_of_ne m ρ c a ?_).trans (entry0_arg m ρ c a ha)
  rcases ha with rfl | rfl | rfl | rfl | rfl | rfl | rfl | rfl | rfl | rfl | rfl | rfl | rfl <;> decide

end Cert.KernelIdeal.Chain

end
-- ==== Proof.KernelChainTakeSrc.lean ====
/-
  The gathered source rows at the second launch's entry: the called gather's operations (wrap the negative
  indices, test the range, gather, select against the fill value) read back through the fold of the host stretches
  after the first launch, through the called function's typed buffers.
-/
import proofs.«407674_j57329223467239_3_alg».proof.Proof.RegionArrays

set_option maxRecDepth 16384

noncomputable section

namespace Cert.KernelIdeal.Chain

open Cert.KernelIdeal Cert.KernelIdeal.Gen Cert.KernelIdeal.HostTerms Cert.KernelIdeal.RegionArrays
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Reads one buffer back through a fold of host stretches: every operation's result at its own buffer is its
    function of its operands' contents, at another buffer what was there. -/
local macro "read_fold" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             try rfl))

/-- The same through a called function's typed buffers: the transports between a buffer's type and its value's type
    compose and vanish. -/
local macro "read_fold_typed" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             simp only [TRef.ofBuf, TRef.toBuf, cast_cast, cast_eq]
             rfl))

theorem entry1_v24 (c : Dev nD) : V13 m ρ c main_v24 = takeRows (W6 m ρ c (Proc.devRef .tc main_v23)) (W6 m ρ c (Proc.devRef .tc main_arg3)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v24) = _
  read_fold_typed

end Cert.KernelIdeal.Chain

end
-- ==== Proof.KernelChainTakeDst.lean ====
/-
  The gathered destination rows at the second launch's entry: the called gather's operations (wrap the negative
  indices, test the range, gather, select against the fill value) read back through the fold of the host stretches
  after the first launch, through the called function's typed buffers.
-/
import proofs.«407674_j57329223467239_3_alg».proof.Proof.KernelChainTakeSrc

set_option maxRecDepth 16384

noncomputable section

namespace Cert.KernelIdeal.Chain

open Cert.KernelIdeal Cert.KernelIdeal.Gen Cert.KernelIdeal.HostTerms Cert.KernelIdeal.RegionArrays
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Reads one buffer back through a fold of host stretches: every operation's result at its own buffer is its
    function of its operands' contents, at another buffer what was there. -/
local macro "read_fold" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             try rfl))

/-- The same through a called function's typed buffers: the transports between a buffer's type and its value's type
    compose and vanish. -/
local macro "read_fold_typed" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             simp only [TRef.ofBuf, TRef.toBuf, cast_cast, cast_eq]
             rfl))

theorem entry1_v25 (c : Dev nD) : V13 m ρ c main_v25 = takeRows (W6 m ρ c (Proc.devRef .tc main_v23)) (W6 m ρ c (Proc.devRef .tc main_arg4)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v25) = _
  read_fold_typed

end Cert.KernelIdeal.Chain

end
-- ==== Proof.KernelChain.lean ====
/-
  The buffer contents at the second and third launches' entries, and the result buffer at the end, as the pure host
  terms of the argument arrays: every host operation's result read back through the fold of the program's host
  stretches, each launch's result array by its row-blocked function.
-/
import proofs.«407674_j57329223467239_3_alg».proof.Proof.KernelChainFirst
import proofs.«407674_j57329223467239_3_alg».proof.Proof.KernelChainTakeSrc
import proofs.«407674_j57329223467239_3_alg».proof.Proof.KernelChainTakeDst

set_option maxRecDepth 16384

noncomputable section

namespace Cert.KernelIdeal.Chain

open Cert.KernelIdeal Cert.KernelIdeal.Gen Cert.KernelIdeal.HostTerms Cert.KernelIdeal.RegionArrays
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Reads one buffer back through a fold of host stretches: every operation's result at its own buffer is its
    function of its operands' contents, at another buffer what was there. -/
local macro "read_fold" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             try rfl))

/-- The same through a called function's typed buffers: the transports between a buffer's type and its value's type
    compose and vanish. -/
local macro "read_fold_typed" : tactic =>
  `(tactic| (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, List.flatten_cons, List.flatten_nil, List.append_nil, List.cons_append, List.nil_append]
             after_results_simp
             simp only [TRef.ofBuf, TRef.toBuf, cast_cast, cast_eq]
             rfl))

/-! ## Between the first and the second launch: its nine operands -/

theorem entry1_v39 (c : Dev nD) : V13 m ρ c main_v39 = colVec (W6 m ρ c (Proc.devRef .tc main_arg2)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v39) = _
  read_fold

theorem entry1_v35 (c : Dev nD) : V13 m ρ c main_v35 = rowVec (W6 m ρ c (Proc.devRef .tc main_arg7)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v35) = _
  read_fold

theorem entry1_v36 (c : Dev nD) : V13 m ρ c main_v36 = rowVec (W6 m ρ c (Proc.devRef .tc main_arg8)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v36) = _
  read_fold

theorem entry1_v37 (c : Dev nD) : V13 m ρ c main_v37 = rowVec (W6 m ρ c (Proc.devRef .tc main_arg9)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v37) = _
  read_fold

theorem entry1_v38 (c : Dev nD) : V13 m ρ c main_v38 = rowVec (W6 m ρ c (Proc.devRef .tc main_arg10)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v38) = _
  read_fold

theorem entry1_v32 (c : Dev nD) : V13 m ρ c main_v32 = composed (W6 m ρ c (Proc.devRef .tc main_arg11)) (W6 m ρ c (Proc.devRef .tc main_arg13)) (W6 m ρ c (Proc.devRef .tc main_arg14)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v32) = _
  read_fold

theorem entry1_v34 (c : Dev nD) : V13 m ρ c main_v34 = composed (W6 m ρ c (Proc.devRef .tc main_arg12)) (W6 m ρ c (Proc.devRef .tc main_arg13)) (W6 m ρ c (Proc.devRef .tc main_arg14)) := by
  show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc main_v34) = _
  read_fold

theorem entry1_arg (c : Dev nD) (a : Ref sig .tc) (ha : a = main_arg3 ∨ a = main_arg4 ∨ a = main_arg15 ∨ a = main_arg16) :
    W13 m ρ c (Proc.devRef .tc a) = W6 m ρ c (Proc.devRef .tc a) := by
  rcases ha with rfl | rfl | rfl | rfl <;>
  · show StableHlo.after hostOps1_6 (StableHlo.after hostOps1_5 (StableHlo.after hostOps1_4 (StableHlo.after hostOps1_3 (StableHlo.after hostOps1_2 (StableHlo.after hostOps1_1 (StableHlo.after hostOps1 (W6 m ρ c))))))) (Proc.devRef .tc _) = _
    read_fold

/-- The second launch's result array. -/
theorem exit1_v40 (c : Dev nD) : W14 m ρ c (Proc.devRef .tc main_v40)
    = stage2 (stage1 (m ((c : Thread nD τ).loc main_arg0)) (m ((c : Thread nD τ).loc main_arg1)) (m ((c : Thread nD τ).loc main_arg5)) (m ((c : Thread nD τ).loc main_arg6)))
        (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) := by
  have h := W14_arr m ρ c 9
  rw [edgeMix_arr (V13 m ρ) c, entry1_v24, entry1_v25, entry1_v39, entry1_v35, entry1_v36, entry1_v37, entry1_v38, entry1_v32, entry1_v34,
    exit0_v23, exit0_arg m ρ c main_arg2 (by decide), exit0_arg m ρ c main_arg3 (by decide), exit0_arg m ρ c main_arg4 (by decide),
    exit0_arg m ρ c main_arg7 (by decide), exit0_arg m ρ c main_arg8 (by decide), exit0_arg m ρ c main_arg9 (by decide), exit0_arg m ρ c main_arg10 (by decide),
    exit0_arg m ρ c main_arg11 (by decide), exit0_arg m ρ c main_arg12 (by decide), exit0_arg m ρ c main_arg13 (by decide), exit0_arg m ρ c main_arg14 (by decide)] at h
  exact h

theorem exit1_arg (c : Dev nD) (a : Ref sig .tc) (ha : a = main_arg3 ∨ a = main_arg4 ∨ a = main_arg15 ∨ a = main_arg16) :
    W14 m ρ c (Proc.devRef .tc a) = m ((c : Thread nD τ).loc a) := by
  refine (W14_of_ne m ρ c a ?_).trans ((entry1_arg m ρ c a ha).trans (exit0_arg m ρ c a ?_))
  · rcases ha with rfl | rfl | rfl | rfl <;> decide
  · rcases ha with rfl | rfl | rfl | rfl <;> simp

/-! ## Between the second and the third launch: its four operands -/

theorem entry2_v43 (c : Dev nD) : V19 m ρ c main_v43 = scatterRows (W14 m ρ c (Proc.devRef .tc main_arg4)) (W14 m ρ c (Proc.devRef .tc main_v40)) := by
  show StableHlo.after hostOps2_4 (StableHlo.after hostOps2_3 (StableHlo.after hostOps2_2 (StableHlo.after hostOps2_1 (StableHlo.after hostOps2 (W14 m ρ c))))) (Proc.devRef .tc main_v43) = _
  read_fold

theorem entry2_v46 (c : Dev nD) : V19 m ρ c main_v46 = scatterRows (W14 m ρ c (Proc.devRef .tc main_arg3)) (W14 m ρ c (Proc.devRef .tc main_v40)) := by
  show StableHlo.after hostOps2_4 (StableHlo.after hostOps2_3 (StableHlo.after hostOps2_2 (StableHlo.after hostOps2_1 (StableHlo.after hostOps2 (W14 m ρ c))))) (Proc.devRef .tc main_v46) = _
  read_fold

theorem entry2_v48 (c : Dev nD) : V19 m ρ c main_v48 = blockDiag (W14 m ρ c (Proc.devRef .tc main_arg15)) := by
  show StableHlo.after hostOps2_4 (StableHlo.after hostOps2_3 (StableHlo.after hostOps2_2 (StableHlo.after hostOps2_1 (StableHlo.after hostOps2 (W14 m ρ c))))) (Proc.devRef .tc main_v48) = _
  read_fold

theorem entry2_v50 (c : Dev nD) : V19 m ρ c main_v50 = blockDiag (W14 m ρ c (Proc.devRef .tc main_arg16)) := by
  show StableHlo.after hostOps2_4 (StableHlo.after hostOps2_3 (StableHlo.after hostOps2_2 (StableHlo.after hostOps2_1 (StableHlo.after hostOps2 (W14 m ρ c))))) (Proc.devRef .tc main_v50) = _
  read_fold

/-- The third launch's result array. -/
theorem exit2_v51 (c : Dev nD) : W20 m ρ c (Proc.devRef .tc main_v51)
    = stage3 (stage2 (stage1 (m ((c : Thread nD τ).loc main_arg0)) (m ((c : Thread nD τ).loc main_arg1)) (m ((c : Thread nD τ).loc main_arg5)) (m ((c : Thread nD τ).loc main_arg6)))
        (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)))
      (m ((c : Thread nD τ).loc main_arg3)) (m ((c : Thread nD τ).loc main_arg4)) (m ((c : Thread nD τ).loc main_arg15)) (m ((c : Thread nD τ).loc main_arg16)) := by
  have h := W20_arr m ρ c 4
  rw [nodeMix2_arr (V19 m ρ) c, entry2_v43, entry2_v46, entry2_v48, entry2_v50, exit1_v40,
    exit1_arg m ρ c main_arg3 (by decide), exit1_arg m ρ c main_arg4 (by decide), exit1_arg m ρ c main_arg15 (by decide), exit1_arg m ρ c main_arg16 (by decide)] at h
  exact h

/-! ## After the third launch -/

theorem final_v52_fold (c : Dev nD) : W21 m ρ c (Proc.devRef .tc main_v52)
    = shapeCast S50000x3x32 (W20 m ρ c (Proc.devRef .tc main_v51)) shapeCasts_S50000x96_S50000x3x32 := by
  show StableHlo.after hostOps3 (W20 m ρ c) (Proc.devRef .tc main_v52) = _
  read_fold

/-- The result buffer's final contents. -/
theorem final_v52 (c : Dev nD) : W21 m ρ c (Proc.devRef .tc main_v52) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [final_v52_fold, exit2_v51]
  rfl

end Cert.KernelIdeal.Chain

end
-- ==== Proof.Spec.lean ====
/-
  The message-passing block over the reals: what both programs compute, index by index.
  Nodes `n < 50000`, spatial components `d < 3`, channels `v < 32`, edges `e < 1000000` from `src e` to `dst e`.
  * `mixed`: each node vector mixed through `M`, weighted by the node's attributes, mixed back through `Mᵀ`, and
    blended with the input by the angle `θ`: `cos θ · x + sin θ · ((x M) ⊙ a) Mᵀ`.
  * `w1`, `w2`: per-edge channel weights `silu (attr · w + b)`, with `silu t = t / (1 + e⁻ᵗ)`.
  * `grad`, `ave`: the weighted difference and half-sum of the two end nodes' vectors; `edge` mixes them through
    `A1`, `A2`, halves, and mixes the result through `vv = (B1 + B2) / 2`; `wedge` weights it by `w2`.
  * `toDst`, `toSrc`: the edge vectors summed into their destination, resp. source, node.
  * `node`: `((toDst − toSrc) C1 + (toDst + toSrc) C2) / 2`; `out` scales each channel by `tanh` of its
    Euclidean norm over the three components.
  Also here: the flat column `q < 96` as the pair `(q / 32, q mod 32)`.
-/
import Idealize.ShloMosaic.PureOps.Ideal

noncomputable section

namespace Cert.Spec

open Finset

/-- `t / (1 + e⁻ᵗ)`. -/
def silu (t : ℝ) : ℝ := t * (1 + Real.exp (-t))⁻¹

/-- The component `q / 32` of a flat column `q < 96`. -/
def dOf (q : Fin 96) : Fin 3 := ⟨q.val / 32, by have := q.isLt; omega⟩
/-- The channel `q mod 32` of a flat column `q < 96`. -/
def vOf (q : Fin 96) : Fin 32 := ⟨q.val % 32, Nat.mod_lt _ (by decide)⟩
/-- The flat column `32 d + v`. -/
def flatOf (d : Fin 3) (v : Fin 32) : Fin 96 := ⟨32 * d.val + v.val, by have := d.isLt; have := v.isLt; omega⟩

theorem dOf_flatOf (d : Fin 3) (v : Fin 32) : dOf (flatOf d v) = d := by
  apply Fin.ext; simp only [dOf, flatOf]; have := v.isLt; omega
theorem vOf_flatOf (d : Fin 3) (v : Fin 32) : vOf (flatOf d v) = v := by
  apply Fin.ext; simp only [vOf, flatOf]; have := v.isLt; omega
theorem flatOf_dOf_vOf (q : Fin 96) : flatOf (dOf q) (vOf q) = q := by
  apply Fin.ext; simp only [dOf, vOf, flatOf]; omega

/-- The real data both programs are run on. -/
structure Inputs where
  x : Fin 50000 → Fin 3 → Fin 32 → ℝ
  a : Fin 50000 → Fin 32 → ℝ
  ea : Fin 1000000 → ℝ
  src : Fin 1000000 → Fin 50000
  dst : Fin 1000000 → Fin 50000
  M : Fin 32 → Fin 32 → ℝ
  θ : ℝ
  f1w : Fin 32 → ℝ
  f1b : Fin 32 → ℝ
  f2w : Fin 32 → ℝ
  f2b : Fin 32 → ℝ
  A1 : Fin 32 → Fin 32 → ℝ
  A2 : Fin 32 → Fin 32 → ℝ
  B1 : Fin 32 → Fin 32 → ℝ
  B2 : Fin 32 → Fin 32 → ℝ
  C1 : Fin 32 → Fin 32 → ℝ
  C2 : Fin 32 → Fin 32 → ℝ

variable (I : Inputs)

def mixed (n : Fin 50000) (d : Fin 3) (v : Fin 32) : ℝ :=
  Real.cos I.θ * I.x n d v + Real.sin I.θ * ∑ s : Fin 32, ((∑ u : Fin 32, I.x n d u * I.M u s) * I.a n s) * I.M v s

def w1 (e : Fin 1000000) (v : Fin 32) : ℝ := silu (I.ea e * I.f1w v + I.f1b v)
def w2 (e : Fin 1000000) (v : Fin 32) : ℝ := silu (I.ea e * I.f2w v + I.f2b v)

def grad (e : Fin 1000000) (d : Fin 3) (v : Fin 32) : ℝ :=
  w1 I e v * (mixed I (I.src e) d v - mixed I (I.dst e) d v)
def ave (e : Fin 1000000) (d : Fin 3) (v : Fin 32) : ℝ :=
  w1 I e v * (mixed I (I.src e) d v + mixed I (I.dst e) d v) / 2

def vv (u w : Fin 32) : ℝ := (I.B1 u w + I.B2 u w) / 2

def edge (e : Fin 1000000) (d : Fin 3) (w : Fin 32) : ℝ :=
  ∑ u : Fin 32, ((∑ v : Fin 32, grad I e d v * I.A1 v u + ∑ v : Fin 32, ave I e d v * I.A2 v u) / 2) * vv I u w

def wedge (e : Fin 1000000) (d : Fin 3) (w : Fin 32) : ℝ := w2 I e w * edge I e d w

def toDst (n : Fin 50000) (d : Fin 3) (w : Fin 32) : ℝ := ∑ e ∈ univ.filter (fun e => I.dst e = n), wedge I e d w
def toSrc (n : Fin 50000) (d : Fin 3) (w : Fin 32) : ℝ := ∑ e ∈ univ.filter (fun e => I.src e = n), wedge I e d w

def node (n : Fin 50000) (d : Fin 3) (w : Fin 32) : ℝ :=
  (∑ v : Fin 32, (toDst I n d v - toSrc I n d v) * I.C1 v w + ∑ v : Fin 32, (toDst I n d v + toSrc I n d v) * I.C2 v w) / 2

def out (n : Fin 50000) (d : Fin 3) (w : Fin 32) : ℝ :=
  node I n d w * Real.tanh (Real.sqrt (∑ d' : Fin 3, node I n d' w * node I n d' w))

end Cert.Spec

end
-- ==== Proof.KernelHostValues.lean ====
/-
  The host side of the kernel's program read index by index: each array the program prepares between the launches,
  at an index, as the entry of the argument arrays it reads.
  * the flattened node array at (n, q) is the node vector at (n, q / 32, q mod 32); the tiled attributes at (n, q)
    are the attributes at (n, q mod 32); the reshape back reads the flat column 32 d + v;
  * the block-diagonal lift of a real 32×32 matrix at (j, k) is the matrix entry at (j mod 32, k mod 32) when
    j / 32 = k / 32 and 0 otherwise; its transpose's lift reads the transposed entry; the composed matrix is the
    lift of the matrix product with the half-sum;
  * the angle is the literal times the weight; its cosine and sine are the real cosine and sine;
  * a vector as a one-row or one-column matrix reads the vector.
-/
import proofs.«407674_j57329223467239_3_alg».proof.Proof.KernelHostTerms
import proofs.«407674_j57329223467239_3_alg».proof.Proof.Spec
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.HostValues

open Cert.KernelIdeal Cert.KernelIdeal.Gen Cert.KernelIdeal.HostTerms Cert.Spec
open Idealize.ShloMosaic Idealize.ShloMosaic.ValueIdx

/-! ## Reshapes: the flat column q is the pair (q / 32, q mod 32) -/

/-- The flattened node array at (n, q) is the node vector at (n, q / 32, q mod 32). -/
theorem flatNodes_apply {F : FTy → Type} [FloatOps F] (a0 : FVec F S50000x3x32 .f32) (n : Fin 50000) (q : Fin 96) :
    flatNodes a0 (ix2 n q) = a0 (ix3 n (dOf q) (vOf q)) := by
  unfold flatNodes
  refine shapeCast_apply _ _ _ _ ?_
  rw [Shape.rowMajor_val_three, Shape.rowMajor_val_two]
  show (n.val * 3 + q.val / 32) * 32 + q.val % 32 = n.val * 96 + q.val
  omega

/-- The tiled attributes at (n, q) are the attributes at (n, q mod 32). -/
theorem tiledAttr_apply {F : FTy → Type} [FloatOps F] (a1 : FVec F S50000x32 .f32) (n : Fin 50000) (q : Fin 96) :
    tiledAttr a1 (ix2 n q) = a1 (ix2 n (vOf q)) := by
  unfold tiledAttr
  refine (shapeCast_apply _ _ (ix2 n q) (ix4 (0 : Fin 1) n (dOf q) (vOf q)) ?_).trans ?_
  · rw [Shape.rowMajor_val_four, Shape.rowMajor_val_two]
    show ((0 * 50000 + n.val) * 3 + q.val / 32) * 32 + q.val % 32 = n.val * 96 + q.val
    omega
  refine (broadcastInDim_apply _ _ _ _ (ix4 (0 : Fin 1) n (0 : Fin 1) (vOf q)) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show n.val * 32 + q.val % 32 = ((0 * 50000 + n.val) * 1 + 0) * 32 + q.val % 32
  omega

/-- The reshape back to [50000, 3, 32] at (n, d, v) reads the flat column 32 d + v. -/
theorem unflatten_apply {F : FTy → Type} [FloatOps F] (Z : FVec F S50000x96 .f32) (n : Fin 50000) (d : Fin 3) (v : Fin 32) :
    shapeCast S50000x3x32 Z shapeCasts_S50000x96_S50000x3x32 (ix3 n d v) = Z (ix2 n (flatOf d v)) := by
  refine shapeCast_apply _ _ _ _ ?_
  rw [Shape.rowMajor_val_three, Shape.rowMajor_val_two]
  show n.val * 96 + (32 * d.val + v.val) = (n.val * 3 + d.val) * 32 + v.val
  omega

/-- A vector as a one-row matrix reads the vector. -/
theorem rowVec_apply {F : FTy → Type} [FloatOps F] (a : FVec F S32 .f32) (v : Fin 32) :
    rowVec a (ix2 (0 : Fin 1) v) = a (ix1 v) := by
  unfold rowVec
  refine shapeCast_apply _ _ _ _ ?_
  rw [Shape.rowMajor_val_one, Shape.rowMajor_val_two]
  show v.val = 0 * 32 + v.val
  omega

/-- A vector as a one-column matrix reads the vector. -/
theorem colVec_apply {F : FTy → Type} [FloatOps F] (a2 : FVec F S1000000 .f32) (e : Fin 1000000) :
    colVec a2 (ix2 e (0 : Fin 1)) = a2 (ix1 e) := by
  unfold colVec
  refine shapeCast_apply _ _ _ _ ?_
  rw [Shape.rowMajor_val_one, Shape.rowMajor_val_two]
  show e.val = e.val * 1 + 0
  omega

/-! ## The angle, its cosine and its sine -/

/-- The angle is the literal times the weight. -/
theorem angle_apply (a6 : FVec Ideal S1 .f32) :
    angle (F := Ideal) a6 (ix1 (0 : Fin 1)) = Ideal.ofBits .f32 0x3DCCCCCD#32 * a6 (ix1 (0 : Fin 1)) := by
  unfold angle
  rw [mulf_apply]
  rfl

/-- The cosine of a real angle is the real cosine. -/
theorem cosAngle_apply (a6 : FVec Ideal S1 .f32) (θ : ℝ) (h : angle (F := Ideal) a6 (ix1 (0 : Fin 1)) = (θ : EReal)) :
    cosAngle (F := Ideal) a6 (ix2 (0 : Fin 1) (0 : Fin 1)) = ((Real.cos θ : ℝ) : EReal) := by
  unfold cosAngle
  refine (shapeCast_apply _ _ _ (ix1 (0 : Fin 1)) ?_).trans ?_
  · rw [Shape.rowMajor_val_one, Shape.rowMajor_val_two]
    rfl
  show FloatOps.hostUnary .cos (angle (F := Ideal) a6 (ix1 (0 : Fin 1))) = _
  rw [h, Ideal.hostUnary_cos_def, Ideal.cos_coe]

/-- The sine of a real angle is the real sine. -/
theorem sinAngle_apply (a6 : FVec Ideal S1 .f32) (θ : ℝ) (h : angle (F := Ideal) a6 (ix1 (0 : Fin 1)) = (θ : EReal)) :
    sinAngle (F := Ideal) a6 (ix2 (0 : Fin 1) (0 : Fin 1)) = ((Real.sin θ : ℝ) : EReal) := by
  unfold sinAngle
  refine (shapeCast_apply _ _ _ (ix1 (0 : Fin 1)) ?_).trans ?_
  · rw [Shape.rowMajor_val_one, Shape.rowMajor_val_two]
    rfl
  show FloatOps.hostUnary .sin (angle (F := Ideal) a6 (ix1 (0 : Fin 1))) = _
  rw [h, Ideal.hostUnary_sin_def, Ideal.sin_coe]

/-! ## The block-diagonal lift -/

/-- The word comparing two coordinates below 3 is the bit 1 exactly when they agree. -/
theorem eqBit_toNat (d d' : Fin 3) :
    (IntOp.cmpi .eq (IntOp.addi (BitVec.ofNat 32 d.val) 0#32) (BitVec.ofNat 32 d'.val)).toNat = if d = d' then 1 else 0 := by
  revert d d'; decide

/-- The 3×3 identity at (d, d') is 1 if d = d' and 0 otherwise. -/
theorem eye3_apply (d d' : Fin 3) :
    eye3 (F := Ideal) (ix2 d d') = ((if d = d' then 1 else 0 : ℝ) : EReal) := by
  show (((IntOp.cmpi .eq (IntOp.addi (BitVec.ofNat 32 d.val) 0#32) (BitVec.ofNat 32 d'.val)).toNat : ℝ) : EReal) = _
  rw [eqBit_toNat]
  split_ifs <;> simp

/-- The Kronecker product at the flat index (j, k) is the first factor at (j / 32, k / 32) times the second at
    (j mod 32, k mod 32). -/
theorem kron_apply (E : FVec Ideal S3x3 .f32) (M : FVec Ideal S32x32 .f32) (j k : Fin 96) :
    kron (F := Ideal) E M (ix2 j k) = E (ix2 (dOf j) (dOf k)) * M (ix2 (vOf j) (vOf k)) := by
  unfold kron
  refine (shapeCast_apply _ _ (ix2 j k) (ix4 (dOf j) (vOf j) (dOf k) (vOf k)) ?_).trans ?_
  · rw [Shape.rowMajor_val_four, Shape.rowMajor_val_two]
    show ((j.val / 32 * 32 + j.val % 32) * 3 + k.val / 32) * 32 + k.val % 32 = j.val * 96 + k.val
    omega
  rw [mulf_apply]
  congr 1
  · refine (broadcastInDim_apply _ _ _ _ (ix4 (dOf j) (0 : Fin 1) (dOf k) (0 : Fin 1)) ?_).trans ?_
    · intro a
      match a with
      | ⟨0, _⟩ => rfl
      | ⟨1, _⟩ => rfl
      | ⟨2, _⟩ => rfl
      | ⟨3, _⟩ => rfl
    refine broadcastInDim_apply _ _ _ _ (ix2 (dOf j) (dOf k)) ?_
    intro a
    match a with
    | ⟨0, _⟩ => rfl
    | ⟨1, _⟩ => rfl
  · refine (broadcastInDim_apply _ _ _ _ (ix4 (0 : Fin 1) (vOf j) (0 : Fin 1) (vOf k)) ?_).trans ?_
    · intro a
      match a with
      | ⟨0, _⟩ => rfl
      | ⟨1, _⟩ => rfl
      | ⟨2, _⟩ => rfl
      | ⟨3, _⟩ => rfl
    refine broadcastInDim_apply _ _ _ _ (ix2 (vOf j) (vOf k)) ?_
    intro a
    match a with
    | ⟨0, _⟩ => rfl
    | ⟨1, _⟩ => rfl

/-- The lift of a real matrix at (j, k): its entry at (j mod 32, k mod 32) on the diagonal blocks, 0 elsewhere. -/
theorem blockDiag_apply (M : FVec Ideal S32x32 .f32) (r : Fin 32 → Fin 32 → ℝ)
    (hM : ∀ u s, M (ix2 u s) = ((r u s : ℝ) : EReal)) (j k : Fin 96) :
    blockDiag (F := Ideal) M (ix2 j k) = ((if dOf j = dOf k then r (vOf j) (vOf k) else 0 : ℝ) : EReal) := by
  unfold blockDiag
  rw [truncf_apply, kron_apply, eye3_apply, hM, ← EReal.coe_mul]
  congr 1
  split_ifs <;> simp

/-- The lift of the transposed matrix reads the transposed entry. -/
theorem blockDiagT_apply (M : FVec Ideal S32x32 .f32) (r : Fin 32 → Fin 32 → ℝ)
    (hM : ∀ u s, M (ix2 u s) = ((r u s : ℝ) : EReal)) (j k : Fin 96) :
    blockDiagT (F := Ideal) M (ix2 j k) = ((if dOf j = dOf k then r (vOf k) (vOf j) else 0 : ℝ) : EReal) := by
  unfold blockDiagT
  refine blockDiag_apply _ (fun u s => r s u) (fun u s => ?_) j k
  refine (transpose_apply _ _ _ (ix2 u s) (ix2 s u) ?_).trans (hM s u)
  intro b
  match b with
  | ⟨0, _⟩ => rfl
  | ⟨1, _⟩ => rfl

/-! ## The composed matrix -/

/-- The literal of the half-sum is ½. -/
theorem half_lit : Ideal.ofBits .f32 0x3F000000#32 = ((1 / 2 : ℝ) : EReal) := by
  simp [Ideal.ofBits, Ideal.ieee, -EReal.coe_mul]; norm_num

/-- A finite sum of reals read as extended reals is the sum read as an extended real. -/
theorem coe_sum {ι : Type*} (s : Finset ι) (f : ι → ℝ) : (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The half-sum of two real matrices at (u, s). -/
theorem halfSum_apply (a13 a14 : FVec Ideal S32x32 .f32) (rB1 rB2 : Fin 32 → Fin 32 → ℝ)
    (hB1 : ∀ u s, a13 (ix2 u s) = ((rB1 u s : ℝ) : EReal)) (hB2 : ∀ u s, a14 (ix2 u s) = ((rB2 u s : ℝ) : EReal))
    (u s : Fin 32) : halfSum (F := Ideal) a13 a14 (ix2 u s) = (((rB1 u s + rB2 u s) / 2 : ℝ) : EReal) := by
  unfold halfSum
  rw [mulf_apply, addf_apply, hB1, hB2]
  show _ * Ideal.ofBits .f32 0x3F000000#32 = _
  rw [half_lit, ← EReal.coe_add, ← EReal.coe_mul]
  congr 1
  ring

/-- The product's left operand index at (i, q): row i's, column the contraction coordinate. -/
theorem lhs_dot_0 (i : S32x32.Idx) (q : dot_S32x32_S32x32_S32x32_1_0_0_1_n_n.contr.Idx) :
    (dot_S32x32_S32x32_S32x32_1_0_0_1_n_n.lhsIdx i q 0).val = (i 0).val := by
  unfold DotDims.lhsIdx
  rw [dif_neg (show ¬(0 : Fin S32x32.rank) ∈ dot_S32x32_S32x32_S32x32_1_0_0_1_n_n.lhsBatch by decide), dif_pos (show (0 : Fin S32x32.rank) ∈ dot_S32x32_S32x32_S32x32_1_0_0_1_n_n.lhsNonContracting by decide)]
  rfl
theorem lhs_dot_1 (i : S32x32.Idx) (q : dot_S32x32_S32x32_S32x32_1_0_0_1_n_n.contr.Idx) :
    (dot_S32x32_S32x32_S32x32_1_0_0_1_n_n.lhsIdx i q 1).val = (q ⟨0, by decide⟩).val :=
  dot_S32x32_S32x32_S32x32_1_0_0_1_n_n.lhsIdx_val_of_single rfl i q
/-- The product's right operand index at (i, q): row the contraction coordinate, column i's. -/
theorem rhs_dot_0 (i : S32x32.Idx) (q : dot_S32x32_S32x32_S32x32_1_0_0_1_n_n.contr.Idx) :
    (dot_S32x32_S32x32_S32x32_1_0_0_1_n_n.rhsIdx i q 0).val = (q ⟨0, by decide⟩).val :=
  dot_S32x32_S32x32_S32x32_1_0_0_1_n_n.rhsIdx_val_of_single rfl i q
theorem rhs_dot_1 (i : S32x32.Idx) (q : dot_S32x32_S32x32_S32x32_1_0_0_1_n_n.contr.Idx) :
    (dot_S32x32_S32x32_S32x32_1_0_0_1_n_n.rhsIdx i q 1).val = (i 1).val := by
  unfold DotDims.rhsIdx
  rw [dif_neg (show ¬(1 : Fin S32x32.rank) ∈ dot_S32x32_S32x32_S32x32_1_0_0_1_n_n.rhsBatch by decide), dif_pos (show (1 : Fin S32x32.rank) ∈ dot_S32x32_S32x32_S32x32_1_0_0_1_n_n.rhsNonContracting by decide)]
  rfl

/-- The 32×32 matrix product at (u, s) is the sum over the inner index. -/
theorem dot_apply (A B : FVec Ideal S32x32 .f32) (u s : Fin 32) :
    Host.dotGeneral (F := Ideal) dot_S32x32_S32x32_S32x32_1_0_0_1_n_n none A B (ix2 u s)
      = ∑ t : Fin 32, A (ix2 u t) * B (ix2 t s) := by
  simp only [Host.dotGeneral]
  rw [Ideal.dotGeneral_apply, ← Equiv.sum_comp (contrEquiv1 dot_S32x32_S32x32_S32x32_1_0_0_1_n_n 32 rfl rfl).symm]
  refine Finset.sum_congr rfl fun t _ => ?_
  have hk := contrEquiv1_symm_val dot_S32x32_S32x32_S32x32_1_0_0_1_n_n 32 rfl rfl t
  have el : dot_S32x32_S32x32_S32x32_1_0_0_1_n_n.lhsIdx (ix2 u s) ((contrEquiv1 dot_S32x32_S32x32_S32x32_1_0_0_1_n_n 32 rfl rfl).symm t) = ix2 u t := funext fun a => Fin.ext (by
    match a with
    | ⟨0, _⟩ => exact lhs_dot_0 _ _
    | ⟨1, _⟩ => exact (lhs_dot_1 _ _).trans hk)
  have er : dot_S32x32_S32x32_S32x32_1_0_0_1_n_n.rhsIdx (ix2 u s) ((contrEquiv1 dot_S32x32_S32x32_S32x32_1_0_0_1_n_n 32 rfl rfl).symm t) = ix2 t s := funext fun a => Fin.ext (by
    match a with
    | ⟨0, _⟩ => exact (rhs_dot_0 _ _).trans hk
    | ⟨1, _⟩ => exact rhs_dot_1 _ _)
  rw [el, er]

/-- The composed matrix: the lift of the first matrix times the half-sum of the other two. -/
theorem composed_apply (a11 a13 a14 : FVec Ideal S32x32 .f32) (rA rB1 rB2 : Fin 32 → Fin 32 → ℝ)
    (hA : ∀ u s, a11 (ix2 u s) = ((rA u s : ℝ) : EReal)) (hB1 : ∀ u s, a13 (ix2 u s) = ((rB1 u s : ℝ) : EReal))
    (hB2 : ∀ u s, a14 (ix2 u s) = ((rB2 u s : ℝ) : EReal)) (j k : Fin 96) :
    composed (F := Ideal) a11 a13 a14 (ix2 j k)
      = ((if dOf j = dOf k then ∑ u : Fin 32, rA (vOf j) u * ((rB1 u (vOf k) + rB2 u (vOf k)) / 2) else 0 : ℝ) : EReal) := by
  unfold composed
  refine blockDiag_apply _ (fun u s => ∑ t : Fin 32, rA u t * ((rB1 t s + rB2 t s) / 2)) (fun u s => ?_) j k
  refine (dot_apply _ _ u s).trans ?_
  rw [← coe_sum]
  refine Finset.sum_congr rfl fun t _ => ?_
  rw [hA, halfSum_apply a13 a14 rB1 rB2 hB1 hB2, ← EReal.coe_mul]

end Cert.KernelIdeal.HostValues

end
-- ==== Proof.KernelValue.lean ====
/-
  The kernel program's result, index by index, is the specification: the three launches' result arrays read at
  (row, flat column) are the mixed node vectors, the weighted edge vectors and the output, given what each
  launch's body computes on one row of its operands and what the row gather and the row scatter-add read.
  * first launch: row n of the flattened nodes and of the tiled attributes, the lifted mixing matrix and its
    transpose, the cosine and sine of the angle; the body gives the mixed node vector of node n;
  * second launch: the mixed rows of edge e's two end nodes, the edge attribute, the four weight rows and the two
    composed matrices; the body gives the weighted edge vector of edge e;
  * third launch: the edge vectors summed into their destination, resp. source, node and the two lifted matrices;
    the body gives the output row of node n;
  * the reshape back reads the flat column 32 d + v, whose pair is (d, v).
  A row-blocked array read at block n / B, row n mod B is the array at row n, since B (n / B) + n mod B = n.
-/
import proofs.«407674_j57329223467239_3_alg».proof.Proof.KernelHostValues
import proofs.«407674_j57329223467239_3_alg».proof.Proof.KernelHostTerms
import proofs.«407674_j57329223467239_3_alg».proof.Proof.Spec

noncomputable section

namespace Cert.KernelIdeal.KernelValue

open Cert.KernelIdeal Cert.KernelIdeal.Gen Cert.KernelIdeal.HostTerms Cert.KernelIdeal.HostValues Cert.Spec
open Idealize.ShloMosaic Idealize.ShloMosaic.ValueIdx

/-! ## What is assumed of the three bodies, the row gather and the row scatter-add -/

/-- The first launch's body on one row: the mixed node vector of the node whose row it is given. -/
abbrev Body0 : Prop :=
  ∀ (I : Inputs) (b0 b1 : Vec Ideal S5000x96 .f32) (m1 m2 : Vec Ideal S96x96 .bf16) (cs sn : Vec Ideal S1x1 .f32)
    (p : Fin 5000) (n : Fin 50000)
    (h0 : ∀ k : Fin 96, b0 (ix2 p k) = ((I.x n (dOf k) (vOf k) : ℝ) : EReal))
    (h1 : ∀ k : Fin 96, b1 (ix2 p k) = ((I.a n (vOf k) : ℝ) : EReal))
    (hm1 : ∀ j k : Fin 96, m1 (ix2 j k) = ((if dOf j = dOf k then I.M (vOf j) (vOf k) else 0 : ℝ) : EReal))
    (hm2 : ∀ j k : Fin 96, m2 (ix2 j k) = ((if dOf j = dOf k then I.M (vOf k) (vOf j) else 0 : ℝ) : EReal))
    (hcs : cs (ix2 0 0) = ((Real.cos I.θ : ℝ) : EReal)) (hsn : sn (ix2 0 0) = ((Real.sin I.θ : ℝ) : EReal))
    (q : Fin 96), out0_6 (F := Ideal) b0 b1 m1 m2 cs sn (ix2 p q) = ((mixed I n (dOf q) (vOf q) : ℝ) : EReal)

/-- The second launch's body on one row: the weighted edge vector of the edge whose row it is given. -/
abbrev Body1 : Prop :=
  ∀ (I : Inputs) (b0 b1 : Vec Ideal S10000x96 .f32) (b2 : Vec Ideal S10000x1 .f32) (r3 r4 r5 r6 : Vec Ideal S1x32 .f32)
    (m7 m8 : Vec Ideal S96x96 .bf16) (p : Fin 10000) (e : Fin 1000000)
    (h0 : ∀ k : Fin 96, b0 (ix2 p k) = ((mixed I (I.src e) (dOf k) (vOf k) : ℝ) : EReal))
    (h1 : ∀ k : Fin 96, b1 (ix2 p k) = ((mixed I (I.dst e) (dOf k) (vOf k) : ℝ) : EReal))
    (h2 : b2 (ix2 p 0) = ((I.ea e : ℝ) : EReal))
    (h3 : ∀ v : Fin 32, r3 (ix2 0 v) = ((I.f1w v : ℝ) : EReal))
    (h4 : ∀ v : Fin 32, r4 (ix2 0 v) = ((I.f1b v : ℝ) : EReal))
    (h5 : ∀ v : Fin 32, r5 (ix2 0 v) = ((I.f2w v : ℝ) : EReal))
    (h6 : ∀ v : Fin 32, r6 (ix2 0 v) = ((I.f2b v : ℝ) : EReal))
    (h7 : ∀ j k : Fin 96, m7 (ix2 j k) = ((if dOf j = dOf k then
      ∑ u : Fin 32, I.A1 (vOf j) u * ((I.B1 u (vOf k) + I.B2 u (vOf k)) / 2) else 0 : ℝ) : EReal))
    (h8 : ∀ j k : Fin 96, m8 (ix2 j k) = ((if dOf j = dOf k then
      ∑ u : Fin 32, I.A2 (vOf j) u * ((I.B1 u (vOf k) + I.B2 u (vOf k)) / 2) else 0 : ℝ) : EReal))
    (q : Fin 96), out1_9 (F := Ideal) b0 b1 b2 r3 r4 r5 r6 m7 m8 (ix2 p q) = ((wedge I e (dOf q) (vOf q) : ℝ) : EReal)

/-- The third launch's body on one row: the output row of the node whose two summed rows it is given. -/
abbrev Body2 : Prop :=
  ∀ (I : Inputs) (b0 b1 : Vec Ideal S5000x96 .f32) (m2 m3 : Vec Ideal S96x96 .bf16) (p : Fin 5000) (n : Fin 50000)
    (h0 : ∀ k : Fin 96, b0 (ix2 p k) = ((toDst I n (dOf k) (vOf k) : ℝ) : EReal))
    (h1 : ∀ k : Fin 96, b1 (ix2 p k) = ((toSrc I n (dOf k) (vOf k) : ℝ) : EReal))
    (h2 : ∀ j k : Fin 96, m2 (ix2 j k) = ((if dOf j = dOf k then I.C1 (vOf j) (vOf k) else 0 : ℝ) : EReal))
    (h3 : ∀ j k : Fin 96, m3 (ix2 j k) = ((if dOf j = dOf k then I.C2 (vOf j) (vOf k) else 0 : ℝ) : EReal))
    (q : Fin 96), out2_4 (F := Ideal) b0 b1 m2 m3 (ix2 p q) = ((out I n (dOf q) (vOf q) : ℝ) : EReal)

/-- The row gather at an index list naming nodes reads the named node's row. -/
abbrev TakeRows : Prop :=
  ∀ (X : FVec Ideal S50000x96 .f32) (ix : IVec S1000000 32) (s : Fin 1000000 → Fin 50000),
    (∀ e, (ix (ix1 e)).toInt = ((s e).val : ℤ)) →
    ∀ (e : Fin 1000000) (q : Fin 96), takeRows (F := Ideal) X ix (ix2 e q) = X (ix2 (s e) q)

/-- The row scatter-add at an index list naming nodes sums the rows of the edges naming the node. -/
abbrev ScatterRows : Prop :=
  ∀ (ix : IVec S1000000 32) (s : Fin 1000000 → Fin 50000), (∀ e, (ix (ix1 e)).toInt = ((s e).val : ℤ)) →
    ∀ (Y : FVec Ideal S1000000x96 .f32) (n : Fin 50000) (q : Fin 96),
      scatterRows (F := Ideal) ix Y (ix2 n q) = ∑ e ∈ Finset.univ.filter (fun e => s e = n), Y (ix2 e q)

/-! ## A row-blocked array at block n / B, row n mod B is the array at row n -/

theorem rows5000_apply {F : FTy → Type} [FloatOps F] (A : FVec F S50000x96 .f32) (n : Fin 50000) (k : Fin 96)
    (h1 : n.val / 5000 < 10) (h2 : n.val % 5000 < 5000) :
    rows5000 A ⟨n.val / 5000, h1⟩ (ix2 (⟨n.val % 5000, h2⟩ : Fin 5000) k) = A (ix2 n k) := by
  unfold rows5000
  refine congrArg A (funext fun a => ?_)
  match a with
  | ⟨0, _⟩ => exact Fin.ext (by show 5000 * (n.val / 5000) + n.val % 5000 = n.val; omega)
  | ⟨1, _⟩ => rfl

theorem rows10000_apply {F : FTy → Type} [FloatOps F] (A : FVec F S1000000x96 .f32) (e : Fin 1000000) (k : Fin 96)
    (h1 : e.val / 10000 < 100) (h2 : e.val % 10000 < 10000) :
    rows10000 A ⟨e.val / 10000, h1⟩ (ix2 (⟨e.val % 10000, h2⟩ : Fin 10000) k) = A (ix2 e k) := by
  unfold rows10000
  refine congrArg A (funext fun a => ?_)
  match a with
  | ⟨0, _⟩ => exact Fin.ext (by show 10000 * (e.val / 10000) + e.val % 10000 = e.val; omega)
  | ⟨1, _⟩ => rfl

theorem col10000_apply {F : FTy → Type} [FloatOps F] (A : FVec F S1000000x1 .f32) (e : Fin 1000000) (k : Fin 1)
    (h1 : e.val / 10000 < 100) (h2 : e.val % 10000 < 10000) :
    col10000 A ⟨e.val / 10000, h1⟩ (ix2 (⟨e.val % 10000, h2⟩ : Fin 10000) k) = A (ix2 e k) := by
  unfold col10000
  refine congrArg A (funext fun a => ?_)
  match a with
  | ⟨0, _⟩ => exact Fin.ext (by show 10000 * (e.val / 10000) + e.val % 10000 = e.val; omega)
  | ⟨1, _⟩ => rfl

/-! ## The three launches -/

/-- The first launch's result at (n, q) is the mixed node vector. -/
theorem stage1_apply (I : Inputs) (a0 : FVec Ideal S50000x3x32 .f32) (a1 : FVec Ideal S50000x32 .f32)
    (a5 : FVec Ideal S32x32 .f32) (a6 : FVec Ideal S1 .f32)
    (hx : ∀ n d v, a0 (ix3 n d v) = ((I.x n d v : ℝ) : EReal)) (ha : ∀ n s, a1 (ix2 n s) = ((I.a n s : ℝ) : EReal))
    (hM : ∀ u s, a5 (ix2 u s) = ((I.M u s : ℝ) : EReal))
    (hθ : Ideal.ofBits .f32 0x3DCCCCCD#32 * a6 (ix1 (0 : Fin 1)) = ((I.θ : ℝ) : EReal))
    (H0 : Body0) (n : Fin 50000) (q : Fin 96) :
    stage1 (F := Ideal) a0 a1 a5 a6 (ix2 n q) = ((mixed I n (dOf q) (vOf q) : ℝ) : EReal) := by
  have hang : angle (F := Ideal) a6 (ix1 (0 : Fin 1)) = ((I.θ : ℝ) : EReal) := (angle_apply a6).trans hθ
  have hb : n.val / 5000 < 10 := by have := n.isLt; omega
  have hp : n.val % 5000 < 5000 := Nat.mod_lt _ (by decide)
  have h0 : ∀ k : Fin 96, rows5000 (flatNodes a0) ⟨n.val / 5000, hb⟩ (ix2 (⟨n.val % 5000, hp⟩ : Fin 5000) k)
      = ((I.x n (dOf k) (vOf k) : ℝ) : EReal) := fun k => by
    rw [rows5000_apply, flatNodes_apply]; exact hx _ _ _
  have h1 : ∀ k : Fin 96, rows5000 (tiledAttr a1) ⟨n.val / 5000, hb⟩ (ix2 (⟨n.val % 5000, hp⟩ : Fin 5000) k)
      = ((I.a n (vOf k) : ℝ) : EReal) := fun k => by
    rw [rows5000_apply, tiledAttr_apply]; exact ha _ _
  exact H0 I _ _ _ _ _ _ _ n h0 h1 (blockDiag_apply a5 I.M hM) (blockDiagT_apply a5 I.M hM)
    (cosAngle_apply a6 I.θ hang) (sinAngle_apply a6 I.θ hang) q

/-- The second launch's result at (e, q) is the weighted edge vector. -/
theorem stage2_apply (I : Inputs) (X : FVec Ideal S50000x96 .f32)
    (hX : ∀ n q, X (ix2 n q) = ((mixed I n (dOf q) (vOf q) : ℝ) : EReal))
    (a2 : FVec Ideal S1000000 .f32) (a3 a4 : IVec S1000000 32) (a7 a8 a9 a10 : FVec Ideal S32 .f32)
    (a11 a12 a13 a14 : FVec Ideal S32x32 .f32)
    (hea : ∀ e, a2 (ix1 e) = ((I.ea e : ℝ) : EReal))
    (hsrc : ∀ e, (a3 (ix1 e)).toInt = ((I.src e).val : ℤ)) (hdst : ∀ e, (a4 (ix1 e)).toInt = ((I.dst e).val : ℤ))
    (h7 : ∀ v, a7 (ix1 v) = ((I.f1w v : ℝ) : EReal)) (h8 : ∀ v, a8 (ix1 v) = ((I.f1b v : ℝ) : EReal))
    (h9 : ∀ v, a9 (ix1 v) = ((I.f2w v : ℝ) : EReal)) (h10 : ∀ v, a10 (ix1 v) = ((I.f2b v : ℝ) : EReal))
    (h11 : ∀ u s, a11 (ix2 u s) = ((I.A1 u s : ℝ) : EReal)) (h12 : ∀ u s, a12 (ix2 u s) = ((I.A2 u s : ℝ) : EReal))
    (h13 : ∀ u s, a13 (ix2 u s) = ((I.B1 u s : ℝ) : EReal)) (h14 : ∀ u s, a14 (ix2 u s) = ((I.B2 u s : ℝ) : EReal))
    (Htake : TakeRows) (H1 : Body1) (e : Fin 1000000) (q : Fin 96) :
    stage2 (F := Ideal) X a2 a3 a4 a7 a8 a9 a10 a11 a12 a13 a14 (ix2 e q) = ((wedge I e (dOf q) (vOf q) : ℝ) : EReal) := by
  have hb : e.val / 10000 < 100 := by have := e.isLt; omega
  have hp : e.val % 10000 < 10000 := Nat.mod_lt _ (by decide)
  have h0 : ∀ k : Fin 96, rows10000 (takeRows X a3) ⟨e.val / 10000, hb⟩ (ix2 (⟨e.val % 10000, hp⟩ : Fin 10000) k)
      = ((mixed I (I.src e) (dOf k) (vOf k) : ℝ) : EReal) := fun k => by
    rw [rows10000_apply, Htake X a3 I.src hsrc]; exact hX _ _
  have h1 : ∀ k : Fin 96, rows10000 (takeRows X a4) ⟨e.val / 10000, hb⟩ (ix2 (⟨e.val % 10000, hp⟩ : Fin 10000) k)
      = ((mixed I (I.dst e) (dOf k) (vOf k) : ℝ) : EReal) := fun k => by
    rw [rows10000_apply, Htake X a4 I.dst hdst]; exact hX _ _
  have h2 : col10000 (colVec a2) ⟨e.val / 10000, hb⟩ (ix2 (⟨e.val % 10000, hp⟩ : Fin 10000) (0 : Fin 1))
      = ((I.ea e : ℝ) : EReal) := by
    rw [col10000_apply, colVec_apply]; exact hea _
  exact H1 I _ _ _ _ _ _ _ _ _ _ e h0 h1 h2
    (fun v => (rowVec_apply a7 v).trans (h7 v)) (fun v => (rowVec_apply a8 v).trans (h8 v))
    (fun v => (rowVec_apply a9 v).trans (h9 v)) (fun v => (rowVec_apply a10 v).trans (h10 v))
    (composed_apply a11 a13 a14 I.A1 I.B1 I.B2 h11 h13 h14) (composed_apply a12 a13 a14 I.A2 I.B1 I.B2 h12 h13 h14) q

/-- The third launch's result at (n, q) is the output. -/
theorem stage3_apply (I : Inputs) (Y : FVec Ideal S1000000x96 .f32)
    (hY : ∀ e q, Y (ix2 e q) = ((wedge I e (dOf q) (vOf q) : ℝ) : EReal))
    (a3 a4 : IVec S1000000 32) (a15 a16 : FVec Ideal S32x32 .f32)
    (hsrc : ∀ e, (a3 (ix1 e)).toInt = ((I.src e).val : ℤ)) (hdst : ∀ e, (a4 (ix1 e)).toInt = ((I.dst e).val : ℤ))
    (h15 : ∀ u s, a15 (ix2 u s) = ((I.C1 u s : ℝ) : EReal)) (h16 : ∀ u s, a16 (ix2 u s) = ((I.C2 u s : ℝ) : EReal))
    (Hscat : ScatterRows) (H2 : Body2) (n : Fin 50000) (q : Fin 96) :
    stage3 (F := Ideal) Y a3 a4 a15 a16 (ix2 n q) = ((out I n (dOf q) (vOf q) : ℝ) : EReal) := by
  have hb : n.val / 5000 < 10 := by have := n.isLt; omega
  have hp : n.val % 5000 < 5000 := Nat.mod_lt _ (by decide)
  have h0 : ∀ k : Fin 96, rows5000 (scatterRows a4 Y) ⟨n.val / 5000, hb⟩ (ix2 (⟨n.val % 5000, hp⟩ : Fin 5000) k)
      = ((toDst I n (dOf k) (vOf k) : ℝ) : EReal) := fun k => by
    rw [rows5000_apply, Hscat a4 I.dst hdst, Finset.sum_congr rfl (fun e _ => hY e k), coe_sum]; rfl
  have h1 : ∀ k : Fin 96, rows5000 (scatterRows a3 Y) ⟨n.val / 5000, hb⟩ (ix2 (⟨n.val % 5000, hp⟩ : Fin 5000) k)
      = ((toSrc I n (dOf k) (vOf k) : ℝ) : EReal) := fun k => by
    rw [rows5000_apply, Hscat a3 I.src hsrc, Finset.sum_congr rfl (fun e _ => hY e k), coe_sum]; rfl
  exact H2 I _ _ _ _ _ n h0 h1 (blockDiag_apply a15 I.C1 h15) (blockDiag_apply a16 I.C2 h16) q

/-! ## The result -/

/-- The program's result at (n, d, v) is the specification's output. -/
theorem result_apply (I : Inputs) (a0 : FVec Ideal S50000x3x32 .f32) (a1 : FVec Ideal S50000x32 .f32)
    (a2 : FVec Ideal S1000000 .f32) (a3 a4 : IVec S1000000 32) (a5 : FVec Ideal S32x32 .f32) (a6 : FVec Ideal S1 .f32)
    (a7 a8 a9 a10 : FVec Ideal S32 .f32) (a11 a12 a13 a14 a15 a16 : FVec Ideal S32x32 .f32)
    (hx : ∀ n d v, a0 (ix3 n d v) = ((I.x n d v : ℝ) : EReal)) (ha : ∀ n s, a1 (ix2 n s) = ((I.a n s : ℝ) : EReal))
    (hea : ∀ e, a2 (ix1 e) = ((I.ea e : ℝ) : EReal))
    (hsrc : ∀ e, (a3 (ix1 e)).toInt = ((I.src e).val : ℤ)) (hdst : ∀ e, (a4 (ix1 e)).toInt = ((I.dst e).val : ℤ))
    (hM : ∀ u s, a5 (ix2 u s) = ((I.M u s : ℝ) : EReal))
    (hθ : Ideal.ofBits .f32 0x3DCCCCCD#32 * a6 (ix1 (0 : Fin 1)) = ((I.θ : ℝ) : EReal))
    (h7 : ∀ v, a7 (ix1 v) = ((I.f1w v : ℝ) : EReal)) (h8 : ∀ v, a8 (ix1 v) = ((I.f1b v : ℝ) : EReal))
    (h9 : ∀ v, a9 (ix1 v) = ((I.f2w v : ℝ) : EReal)) (h10 : ∀ v, a10 (ix1 v) = ((I.f2b v : ℝ) : EReal))
    (h11 : ∀ u s, a11 (ix2 u s) = ((I.A1 u s : ℝ) : EReal)) (h12 : ∀ u s, a12 (ix2 u s) = ((I.A2 u s : ℝ) : EReal))
    (h13 : ∀ u s, a13 (ix2 u s) = ((I.B1 u s : ℝ) : EReal)) (h14 : ∀ u s, a14 (ix2 u s) = ((I.B2 u s : ℝ) : EReal))
    (h15 : ∀ u s, a15 (ix2 u s) = ((I.C1 u s : ℝ) : EReal)) (h16 : ∀ u s, a16 (ix2 u s) = ((I.C2 u s : ℝ) : EReal))
    (Htake : TakeRows) (Hscat : ScatterRows) (H0 : Body0) (H1 : Body1) (H2 : Body2)
    (n : Fin 50000) (d : Fin 3) (v : Fin 32) :
    result (F := Ideal) a0 a1 a2 a3 a4 a5 a6 a7 a8 a9 a10 a11 a12 a13 a14 a15 a16 (ix3 n d v)
      = ((out I n d v : ℝ) : EReal) := by
  unfold result
  rw [unflatten_apply]
  have h3 := stage3_apply I _
    (stage2_apply I _ (stage1_apply I a0 a1 a5 a6 hx ha hM hθ H0) a2 a3 a4 a7 a8 a9 a10 a11 a12 a13 a14
      hea hsrc hdst h7 h8 h9 h10 h11 h12 h13 h14 Htake H1)
    a3 a4 a15 a16 hsrc hdst h15 h16 Hscat H2 n (flatOf d v)
  rw [dOf_flatOf, vOf_flatOf] at h3
  exact h3

end Cert.KernelIdeal.KernelValue

end
-- ==== Proof.KernelGatherScatter.lean ====
/-
  The row gather and the row scatter-add of the program, read at one element, under in-range indices.

  The index list `ix` holds, at every edge `e`, a word whose signed value is a node number `s e` in `[0, 50000)`.
  * Gather. A word with a non-negative signed value is not below zero, so the wrap keeps it; it is at least 0 and at
    most 49999, so the range mask, an `and` over an axis of size one started from 1, is 1 at every edge, and the select
    takes the gathered row. The gather reads, at result position `(e, q)`, the operand at row
    `min (toNat (signed value)) (50000 − 1) = s e` (the clamped start on the collapsed, start-indexed axis 0) and at
    column `q` (the offset coordinate on axis 1).
  * Scatter-add. At the extended reals the scatter adds, to each operand element, the sum of the update elements whose
    result position is that element. Update `(e, q')` lands at row `signed value = s e` (start, not clamped, on the
    inserted axis 0) and column `q'` (the window coordinate on axis 1): inside the operand, at `(s e, q')`. So the
    updates landing on `(n, q)` are the `(e, q)` with `s e = n`, and the operand is the zero array.
-/
import proofs.«407674_j57329223467239_3_alg».proof.Proof.KernelHostTerms
import Idealize.ShloMosaic.Lib.ValueIdx
import Idealize.ShloMosaic.PureOps.Reduce
import Idealize.ShloMosaic.PureOps.Ideal
import Idealize.ShloMosaic.PureOps.Ideal.Laws
import Mathlib.Algebra.BigOperators.Group.Finset.Basic
import Mathlib.Algebra.BigOperators.Group.Finset.Piecewise

noncomputable section

namespace Cert.KernelIdeal.GatherScatter

open Cert.KernelIdeal Cert.KernelIdeal.Gen Cert.KernelIdeal.HostTerms Idealize.ShloMosaic Idealize.ShloMosaic.ValueIdx
open scoped BigOperators

/-! ## Words -/

/-- A left fold by `and` from 1 over one-bit words that are all 1 is 1. -/
theorem foldl_andi_all_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_all_one f hf l

/-- A word with a non-negative signed value is signed-at-least zero. -/
theorem sge_zero_of_nonneg (w : BitVec 32) (h : 0 ≤ w.toInt) : IntOp.cmpi .sge w 0#32 = 1#1 := by
  unfold IntOp.cmpi
  simp only [BitVec.sle, BitVec.toInt_zero, decide_eq_true h]
  rfl

/-- A word with signed value at most 49999 is signed-at-most the word 49999. -/
theorem sle_of_le (w : BitVec 32) (h : w.toInt ≤ 49999) : IntOp.cmpi .sle w 49999#32 = 1#1 := by
  unfold IntOp.cmpi
  have h2 : (49999#32 : BitVec 32).toInt = 49999 := by decide
  simp only [BitVec.sle, h2, decide_eq_true h]
  rfl

/-- A word with a non-negative signed value is not signed-below zero. -/
theorem slt_zero_of_nonneg (w : BitVec 32) (h : 0 ≤ w.toInt) : IntOp.cmpi .slt w 0#32 = 0#1 := by
  unfold IntOp.cmpi
  have h2 : ¬ (w.toInt < 0) := by omega
  simp only [BitVec.slt, BitVec.toInt_zero, decide_eq_false h2]
  rfl

/-! ## The index list as a column -/

/-- The index list laid out as a [1000000, 1] column reads, at `(e, 0)`, the list at `e`. -/
theorem colIdx_apply (ix : IVec S1000000 32) (e : Fin 1000000) (c : Fin 1) :
    broadcastInDim S1000000x1 ![0] bcast_S1000000_S1000000x1_0 ix (ix2 e c) = ix (ix1 e) := by
  unfold broadcastInDim
  congr 1
  funext a
  match a with
  | ⟨0, _⟩ => rfl

/-- Under non-negative indices the wrap keeps the index: the wrapped column reads, at `(e, 0)`, the list at `e`. -/
theorem wrapIdx_apply (ix : IVec S1000000 32) (s : Fin 1000000 → Fin 50000)
    (hs : ∀ e, (ix (ix1 e)).toInt = ((s e).val : ℤ)) (e : Fin 1000000) (c : Fin 1) :
    wrapIdx ix (ix2 e c) = ix (ix1 e) := by
  unfold wrapIdx
  refine (colIdx_apply _ e c).trans ?_
  refine (select_apply _ _ _ _).trans ?_
  show Scalar.select (IntOp.cmpi .slt (ix (ix1 e)) 0#32) (IntOp.addi (ix (ix1 e)) 50000#32) (ix (ix1 e)) = _
  rw [slt_zero_of_nonneg _ (by rw [hs e]; exact Int.natCast_nonneg _), select_zero]

/-! ## The gather -/

/-- Under indices in `[0, 50000)` the range mask is 1 at every edge. -/
theorem inRange_eq_one (ix : IVec S1000000 32) (s : Fin 1000000 → Fin 50000)
    (hs : ∀ e, (ix (ix1 e)).toInt = ((s e).val : ℤ)) (j : S1000000.Idx) : inRange ix j = 1#1 := by
  unfold inRange
  refine (Host.reduce_eq_foldl IntOp.andi _ _ reducesTo_S1000000x1_S1000000_d1 h_S_ j).trans ?_
  refine foldl_andi_all_one _ (fun i => ?_) _
  obtain ⟨e, c, rfl⟩ : ∃ (e : Fin 1000000) (c : Fin 1), i = ix2 e c := ⟨i 0, i 1, eq_ix2 i⟩
  show IntOp.andi (IntOp.cmpi .sge (wrapIdx ix (ix2 e c)) 0#32) (IntOp.cmpi .sle (wrapIdx ix (ix2 e c)) 49999#32) = 1#1
  have hlt := (s e).isLt
  rw [wrapIdx_apply ix s hs e c, sge_zero_of_nonneg _ (by rw [hs e]; exact Int.natCast_nonneg _),
    sle_of_le _ (by rw [hs e]; omega)]
  rfl

/-- The gather at `(e, q)`: the operand at row `s e` (the clamped start) and column `q` (the offset coordinate). -/
theorem gather_apply {F : FTy → Type} [FloatOps F] (X : FVec F S50000x96 .f32) (ix : IVec S1000000 32) (s : Fin 1000000 → Fin 50000)
    (hs : ∀ e, (ix (ix1 e)).toInt = ((s e).val : ℤ)) (e : Fin 1000000) (q : Fin 96) :
    Host.gather gather_S50000x96_S1000000x1_S1000000x96_1_0_n_n_0_1_196 X (wrapIdx ix) (ix2 e q) = X (ix2 (s e) q) := by
  unfold Host.gather
  congr 1
  funext a
  refine Fin.ext ?_
  match a with
  | ⟨0, _⟩ =>
    -- axis 0 is collapsed and start-indexed: the clamped start, no batching or offset coordinate
    show gather_S50000x96_S1000000x1_S1000000x96_1_0_n_n_0_1_196.start (ix2 e q) (wrapIdx ix) 0
      + gather_S50000x96_S1000000x1_S1000000x96_1_0_n_n_0_1_196.batchCoord (ix2 e q) 0
      + gather_S50000x96_S1000000x1_S1000000x96_1_0_n_n_0_1_196.offCoord (ix2 e q) 0 = (s e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x96_S1000000x1_S1000000x96_1_0_n_n_0_1_196.startIndexMap from List.mem_singleton.mpr rfl)]
    have hsi : gather_S50000x96_S1000000x1_S1000000x96_1_0_n_n_0_1_196.siIdx (ix2 e q)
        ⟨List.idxOf (0 : Fin 2) gather_S50000x96_S1000000x1_S1000000x96_1_0_n_n_0_1_196.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, wrapIdx_apply ix s hs e 0, hs e]
    have hlt := (s e).isLt
    show min ((s e).val : ℤ).toNat (50000 - 1) = (s e).val
    rw [Int.toNat_natCast]
    omega
  | ⟨1, _⟩ =>
    -- axis 1 is the offset axis: start 0, no batching coordinate, the result's column
    show gather_S50000x96_S1000000x1_S1000000x96_1_0_n_n_0_1_196.start (ix2 e q) (wrapIdx ix) 1
      + gather_S50000x96_S1000000x1_S1000000x96_1_0_n_n_0_1_196.batchCoord (ix2 e q) 1
      + gather_S50000x96_S1000000x1_S1000000x96_1_0_n_n_0_1_196.offCoord (ix2 e q) 1 = q.val
    rw [GatherDims.batchCoord_eq_zero _ _ _ List.not_mem_nil]
    unfold GatherDims.start
    rw [dif_neg (show ¬ (1 : Fin 2) ∈ gather_S50000x96_S1000000x1_S1000000x96_1_0_n_n_0_1_196.startIndexMap from by decide)]
    show 0 + 0 + q.val = q.val
    omega

/-- THE ROW GATHER at `(e, q)`: row `s e`, column `q` of the operand. -/
theorem takeRows_apply {F : FTy → Type} [FloatOps F] (X : FVec F S50000x96 .f32) (ix : IVec S1000000 32) (s : Fin 1000000 → Fin 50000)
    (hs : ∀ e, (ix (ix1 e)).toInt = ((s e).val : ℤ)) (e : Fin 1000000) (q : Fin 96) :
    takeRows X ix (ix2 e q) = X (ix2 (s e) q) := by
  unfold takeRows
  refine (select_apply _ _ _ _).trans ?_
  have hm : broadcastInDim S1000000x96 ![0] bcast_S1000000_S1000000x96_0 (inRange ix) (ix2 e q) = 1#1 := by
    unfold broadcastInDim
    exact inRange_eq_one ix s hs _
  rw [hm, select_one]
  exact gather_apply X ix s hs e q

/-! ## The scatter-add -/

/-- Update `(e, q')` starts, on axis 0, at the signed value of the index: `s e`. -/
theorem scatter_start0 (ix : IVec S1000000 32) (s : Fin 1000000 → Fin 50000)
    (hs : ∀ e, (ix (ix1 e)).toInt = ((s e).val : ℤ)) (e : Fin 1000000) (q' : Fin 96) :
    scatter_S50000x96_S1000000x1_S1000000x96_1_0_0_1.start (ix2 e q')
      (broadcastInDim S1000000x1 ![0] bcast_S1000000_S1000000x1_0 ix) 0 = ((s e).val : ℤ) := by
  unfold ScatterDims.start
  rw [dif_pos (show (0 : Fin 2) ∈ scatter_S50000x96_S1000000x1_S1000000x96_1_0_0_1.scatterDimsToOperandDims from List.mem_singleton.mpr rfl)]
  have hsi : scatter_S50000x96_S1000000x1_S1000000x96_1_0_0_1.siIdx (ix2 e q')
      ⟨List.idxOf (0 : Fin 2) scatter_S50000x96_S1000000x1_S1000000x96_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi, colIdx_apply ix e 0, hs e]

/-- Axis 1 is not start-indexed: the start is 0. -/
theorem scatter_start1 (ix : IVec S1000000 32) (e : Fin 1000000) (q' : Fin 96) :
    scatter_S50000x96_S1000000x1_S1000000x96_1_0_0_1.start (ix2 e q')
      (broadcastInDim S1000000x1 ![0] bcast_S1000000_S1000000x1_0 ix) 1 = 0 := by
  unfold ScatterDims.start
  rw [dif_neg (show ¬ (1 : Fin 2) ∈ scatter_S50000x96_S1000000x1_S1000000x96_1_0_0_1.scatterDimsToOperandDims from by decide)]

/-- Axis 0 is an inserted window axis: the window coordinate is 0. -/
theorem scatter_window0 (e : Fin 1000000) (q' : Fin 96) :
    scatter_S50000x96_S1000000x1_S1000000x96_1_0_0_1.window (ix2 e q') 0 = 0 := rfl

/-- Axis 1 takes the update's window coordinate: its column. -/
theorem scatter_window1 (e : Fin 1000000) (q' : Fin 96) :
    scatter_S50000x96_S1000000x1_S1000000x96_1_0_0_1.window (ix2 e q') 1 = q'.val := rfl

/-- Update `(e, q')` lands inside the operand, at `(s e, q')`. -/
theorem resultIdx_eq (ix : IVec S1000000 32) (s : Fin 1000000 → Fin 50000)
    (hs : ∀ e, (ix (ix1 e)).toInt = ((s e).val : ℤ)) (e : Fin 1000000) (q' : Fin 96) :
    scatter_S50000x96_S1000000x1_S1000000x96_1_0_0_1.resultIdx? (ix2 e q')
      (broadcastInDim S1000000x1 ![0] bcast_S1000000_S1000000x1_0 ix) = some (ix2 (s e) q') := by
  have hlt := (s e).isLt
  have hq := q'.isLt
  have h : ∀ a : Fin S50000x96.rank,
      0 ≤ scatter_S50000x96_S1000000x1_S1000000x96_1_0_0_1.start (ix2 e q')
          (broadcastInDim S1000000x1 ![0] bcast_S1000000_S1000000x1_0 ix) a
        + scatter_S50000x96_S1000000x1_S1000000x96_1_0_0_1.window (ix2 e q') a ∧
      scatter_S50000x96_S1000000x1_S1000000x96_1_0_0_1.start (ix2 e q')
          (broadcastInDim S1000000x1 ![0] bcast_S1000000_S1000000x1_0 ix) a
        + scatter_S50000x96_S1000000x1_S1000000x96_1_0_0_1.window (ix2 e q') a < S50000x96.size a := by
    intro a
    match a with
    | ⟨0, _⟩ =>
      show 0 ≤ scatter_S50000x96_S1000000x1_S1000000x96_1_0_0_1.start (ix2 e q') _ 0
          + ((scatter_S50000x96_S1000000x1_S1000000x96_1_0_0_1.window (ix2 e q') 0 : ℕ) : ℤ) ∧
        scatter_S50000x96_S1000000x1_S1000000x96_1_0_0_1.start (ix2 e q') _ 0
          + ((scatter_S50000x96_S1000000x1_S1000000x96_1_0_0_1.window (ix2 e q') 0 : ℕ) : ℤ) < ((50000 : ℕ) : ℤ)
      rw [scatter_start0 ix s hs e q', scatter_window0 e q']
      omega
    | ⟨1, _⟩ =>
      show 0 ≤ scatter_S50000x96_S1000000x1_S1000000x96_1_0_0_1.start (ix2 e q') _ 1
          + ((scatter_S50000x96_S1000000x1_S1000000x96_1_0_0_1.window (ix2 e q') 1 : ℕ) : ℤ) ∧
        scatter_S50000x96_S1000000x1_S1000000x96_1_0_0_1.start (ix2 e q') _ 1
          + ((scatter_S50000x96_S1000000x1_S1000000x96_1_0_0_1.window (ix2 e q') 1 : ℕ) : ℤ) < ((96 : ℕ) : ℤ)
      rw [scatter_start1 ix e q', scatter_window1 e q']
      omega
  unfold ScatterDims.resultIdx?
  rw [dif_pos h]
  congr 1
  funext a
  refine Fin.ext ?_
  match a with
  | ⟨0, _⟩ =>
    show (scatter_S50000x96_S1000000x1_S1000000x96_1_0_0_1.start (ix2 e q') (broadcastInDim S1000000x1 ![0] bcast_S1000000_S1000000x1_0 ix) 0
      + ((scatter_S50000x96_S1000000x1_S1000000x96_1_0_0_1.window (ix2 e q') 0 : ℕ) : ℤ)).toNat = (s e).val
    rw [scatter_start0 ix s hs e q', scatter_window0 e q']
    omega
  | ⟨1, _⟩ =>
    show (scatter_S50000x96_S1000000x1_S1000000x96_1_0_0_1.start (ix2 e q') (broadcastInDim S1000000x1 ![0] bcast_S1000000_S1000000x1_0 ix) 1
      + ((scatter_S50000x96_S1000000x1_S1000000x96_1_0_0_1.window (ix2 e q') 1 : ℕ) : ℤ)).toNat = q'.val
    rw [scatter_start1 ix e q', scatter_window1 e q']
    omega

/-- Two rank-2 indices agree exactly when their coordinates do. -/
theorem ix2_eq_iff (a n : Fin 50000) (b q : Fin 96) :
    (ix2 a b : S50000x96.Idx) = ix2 n q ↔ a = n ∧ b = q := by
  constructor
  · intro h
    exact ⟨congrFun h 0, congrFun h 1⟩
  · rintro ⟨rfl, rfl⟩; rfl

/-- At the extended reals the accumulating scatter is, at each operand position, the operand's element plus the sum
    of the update elements whose result position is that position. -/
theorem scatterAdd_ideal_apply {s si su : Shape} (d : ScatterDims s si su) {w : Nat} (x : FVec Ideal s .f32)
    (idx : IVec si w) (upd : FVec Ideal su .f32) (i : s.Idx) :
    Host.scatterAdd d x idx upd i = x i + ∑ j ∈ Finset.univ.filter (fun j => d.resultIdx? j idx = some i), upd j := rfl

/-- The zero array reads 0 everywhere. -/
theorem zeroRows_apply (i : S50000x96.Idx) :
    broadcastInDim S50000x96 ![] bcast_S_S50000x96 (constant (F := Ideal) S_ .f32 0x00000000#32) i = 0 := by
  unfold broadcastInDim
  rw [constant_apply]
  exact Ideal.ofBits_zero_f32

/-- THE ROW SCATTER-ADD at `(n, q)`: the sum of column `q` of the update rows `e` with `s e = n`. -/
theorem scatterRows_apply (ix : IVec S1000000 32) (s : Fin 1000000 → Fin 50000)
    (hs : ∀ e, (ix (ix1 e)).toInt = ((s e).val : ℤ)) (Y : FVec Ideal S1000000x96 .f32) (n : Fin 50000) (q : Fin 96) :
    scatterRows (F := Ideal) ix Y (ix2 n q) = ∑ e ∈ Finset.univ.filter (fun e => s e = n), Y (ix2 e q) := by
  unfold scatterRows
  beta_reduce
  refine (scatterAdd_ideal_apply _ _ _ _ _).trans ?_
  -- the operand is the zero array; the sum over the update positions is the double sum over (edge, column)
  rw [zeroRows_apply, zero_add, Finset.sum_filter, sum_idx2, Finset.sum_filter]
  refine Finset.sum_congr rfl (fun e _ => ?_)
  -- update (e, b) lands on (n, q) exactly when s e = n and b = q
  have hc : ∀ b : Fin 96, (scatter_S50000x96_S1000000x1_S1000000x96_1_0_0_1.resultIdx? (ix2 e b)
      (broadcastInDim S1000000x1 ![0] bcast_S1000000_S1000000x1_0 ix) = some (ix2 n q)) ↔ (s e = n ∧ b = q) := fun b => by
    rw [resultIdx_eq ix s hs e b, Option.some.injEq, ix2_eq_iff]
  simp only [hc]
  by_cases hse : s e = n
  · simp only [hse, eq_self_iff_true, true_and, if_true]
    rw [Finset.sum_ite_eq' Finset.univ q (fun b => Y (ix2 e b))]
    simp only [Finset.mem_univ, if_true]
  · simp only [hse, false_and, if_false, Finset.sum_const_zero]

end Cert.KernelIdeal.GatherScatter

end
-- ==== Proof.NodeMix1Body.lean ====
/-
  The first launch's body, read at an entry. On a block of 5000 rows of the flattened node array the body takes the
  row x (96 = 3 × 32 columns, column q the pair (component q / 32, channel q mod 32)), multiplies it by the
  block-diagonal lift of the mixing matrix M, weights the product channel by channel with the row's attributes,
  multiplies by the block-diagonal lift of Mᵀ, and blends with the row itself by the cosine and sine of the
  angle: cos θ · x + sin θ · (((x · BD(M)) ⊙ a) · BD(Mᵀ)). Both products are matrix products into a zero
  accumulator. Over the extended reals, with every operand entry a real number, the entry at column q is the
  specification's mixed at (component of q, channel of q):
  * a sum over the 96 columns is the double sum over components and channels (sum_flat);
  * a row times a block-diagonal matrix only meets the 32 channels of the column's own component (sum_blockDiag);
  * the coercion of reals into the extended reals commutes with products, sums and finite sums (coe_sum).
-/
import proofs.«407674_j57329223467239_3_alg».proof.Proof.KernelHostTerms
import proofs.«407674_j57329223467239_3_alg».proof.Proof.Spec
import Idealize.ShloMosaic.Lib.Pipeline.Value
import Idealize.ShloMosaic.Lib.ValueIdx
import Idealize.ShloMosaic.PureOps.Ideal.Laws

noncomputable section

namespace Cert.KernelIdeal.NodeMix1Body

open Cert.KernelIdeal Cert.KernelIdeal.Gen Cert.Spec Idealize.ShloMosaic Idealize.ShloMosaic.ValueIdx

/-! ## Sums over the flat columns, in the reals -/

/-- A flat column is its (component, channel) pair. -/
def flatEquiv : Fin 96 ≃ Fin 3 × Fin 32 where
  toFun q := (dOf q, vOf q)
  invFun p := flatOf p.1 p.2
  left_inv q := flatOf_dOf_vOf q
  right_inv p := Prod.ext (dOf_flatOf p.1 p.2) (vOf_flatOf p.1 p.2)

/-- A sum over the 96 flat columns is the sum over the 3 components of the sums over the 32 channels. -/
theorem sum_flat (f : Fin 96 → ℝ) : ∑ k : Fin 96, f k = ∑ d : Fin 3, ∑ v : Fin 32, f (flatOf d v) :=
  (Equiv.sum_comp flatEquiv.symm f).symm.trans (Fintype.sum_prod_type _)

/-- A row times a block-diagonal matrix I₃ ⊗ B, at column q: only the channels of q's own component meet a
    nonzero entry, so the sum over 96 columns is the sum over that component's 32 channels. -/
theorem sum_blockDiag (g : Fin 96 → ℝ) (B : Fin 32 → Fin 32 → ℝ) (q : Fin 96) :
    ∑ k : Fin 96, g k * (if dOf k = dOf q then B (vOf k) (vOf q) else 0)
      = ∑ u : Fin 32, g (flatOf (dOf q) u) * B u (vOf q) := by
  rw [sum_flat, Finset.sum_eq_single (dOf q)]
  · simp only [dOf_flatOf, vOf_flatOf, if_true]
  · intro d _ hd
    simp only [dOf_flatOf, if_neg hd, mul_zero, Finset.sum_const_zero]
  · intro h; exact absurd (Finset.mem_univ _) h

/-- The coercion of the reals into the extended reals commutes with a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The body's matrix product at an entry -/

theorem lhs_axis0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_axis1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_axis0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_axis1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The [5000, 96] × [96, 96] product into the zero accumulator, at entry (p, q): the sum over the 96 contracted
    columns of the products of row p of the left factor and column q of the right one. -/
theorem matmul_entry (l : FVec Ideal S5000x96 .bf16) (r : FVec Ideal S96x96 .bf16) (p : Fin 5000) (q : Fin 96) :
    matmul dot_S5000x96_S96x96_S5000x96_1_0_0_1_n_n none l r (constant (F := Ideal) S5000x96 .f32 0x00000000#32) (ix2 p q)
      = ∑ k : Fin 96, l (ix2 p k) * r (ix2 k q) := by
  simp only [matmul]
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact lhs_axis0 _ _
    | ⟨1, _⟩ => exact (lhs_axis1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (rhs_axis0 _ _).trans hk
    | ⟨1, _⟩ => exact rhs_axis1 _ _)
  rw [el, er]

/-- A [1, 1] value broadcast to [5000, 96] reads its one entry everywhere. -/
theorem bcast_entry (c : FVec Ideal S1x1 .f32) (p : Fin 5000) (q : Fin 96) :
    broadcastTo S5000x96 c broadcasts_S1x1_S5000x96 (ix2 p q) = c (ix2 0 0) :=
  broadcastTo_apply c broadcasts_S1x1_S5000x96 (ix2 p q) (ix2 0 0) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-! ## The body's payload at an entry -/

theorem zeroOffsets : (![0, 0] : Fin 2 → Nat) = fun _ => 0 := funext fun a => by fin_cases a <;> rfl

/-- The block the body leaves is its one store's payload on the whole operand blocks. -/
theorem out0_6_eq_payload (b0 b1 : Vec Ideal S5000x96 .f32) (m1 m2 : Vec Ideal S96x96 .bf16) (cs sn : Vec Ideal S1x1 .f32) :
    out0_6 (F := Ideal) b0 b1 m1 m2 cs sn = k0_pay1 (F := Ideal) b0 m1 b1 m2 cs sn := by
  unfold out0_6
  rw [View.canon_unit_zero zeroOffsets]
  simp only [View.ld_unit_zero (S := S5000x96) zeroOffsets, View.ld_unit_zero (S := S96x96) zeroOffsets,
    View.ld_unit_zero (S := S1x1) zeroOffsets]

/-- The payload at entry (p, q): the cosine entry times the row's entry, plus the sine entry times the second
    product's entry; the second product's left factor at column k is the first product's entry at k times the
    attribute entry at k. -/
theorem payload_entry (b0 b1 : Vec Ideal S5000x96 .f32) (m1 m2 : Vec Ideal S96x96 .bf16) (cs sn : Vec Ideal S1x1 .f32)
    (p : Fin 5000) (q : Fin 96) :
    k0_pay1 (F := Ideal) b0 m1 b1 m2 cs sn (ix2 p q)
      = cs (ix2 0 0) * b0 (ix2 p q)
        + sn (ix2 0 0) * ∑ k : Fin 96, ((∑ j : Fin 96, b0 (ix2 p j) * m1 (ix2 j k)) * b1 (ix2 p k)) * m2 (ix2 k q) := by
  unfold k0_pay1
  simp only [shapeCast_self]
  refine (addf_apply _ _ _).trans ?_
  refine congrArg₂ (· + ·) ?_ ?_
  · refine (mulf_apply _ _ _).trans ?_
    rw [bcast_entry]
  · refine (mulf_apply _ _ _).trans ?_
    rw [bcast_entry]
    refine congrArg (sn (ix2 0 0) * ·) ?_
    refine (matmul_entry _ _ p q).trans ?_
    refine Finset.sum_congr rfl fun k _ => ?_
    refine congrArg (· * m2 (ix2 k q)) ?_
    refine (truncf_apply (ψ := .bf16) _ bitsLt_bf16_f32 _).trans ?_
    refine (mulf_apply _ _ _).trans ?_
    refine congrArg (· * b1 (ix2 p k)) ?_
    refine (matmul_entry _ _ p k).trans ?_
    rfl

/-! ## The entry is the specification's -/

theorem out0_6_apply (I : Inputs) (b0 b1 : Vec Ideal S5000x96 .f32) (m1 m2 : Vec Ideal S96x96 .bf16) (cs sn : Vec Ideal S1x1 .f32) (p : Fin 5000) (n : Fin 50000)
    (h0 : ∀ k : Fin 96, b0 (ix2 p k) = ((I.x n (dOf k) (vOf k) : ℝ) : EReal)) (h1 : ∀ k : Fin 96, b1 (ix2 p k) = ((I.a n (vOf k) : ℝ) : EReal))
    (hm1 : ∀ j k : Fin 96, m1 (ix2 j k) = ((if dOf j = dOf k then I.M (vOf j) (vOf k) else 0 : ℝ) : EReal)) (hm2 : ∀ j k : Fin 96, m2 (ix2 j k) = ((if dOf j = dOf k then I.M (vOf k) (vOf j) else 0 : ℝ) : EReal))
    (hcs : cs (ix2 0 0) = ((Real.cos I.θ : ℝ) : EReal)) (hsn : sn (ix2 0 0) = ((Real.sin I.θ : ℝ) : EReal)) (q : Fin 96) :
    out0_6 (F := Ideal) b0 b1 m1 m2 cs sn (ix2 p q) = ((mixed I n (dOf q) (vOf q) : ℝ) : EReal) := by
  rw [out0_6_eq_payload, payload_entry, hcs, hsn, h0 q]
  simp only [h0, h1, hm1, hm2, ← EReal.coe_mul, ← coe_sum, ← EReal.coe_add]
  refine congrArg (fun t : ℝ => ((t : ℝ) : EReal)) ?_
  unfold mixed
  refine congrArg (fun t : ℝ => Real.cos I.θ * I.x n (dOf q) (vOf q) + Real.sin I.θ * t) ?_
  rw [sum_blockDiag (fun k => (∑ j : Fin 96, I.x n (dOf j) (vOf j) * (if dOf j = dOf k then I.M (vOf j) (vOf k) else 0)) * I.a n (vOf k)) (fun u v => I.M v u) q]
  refine Finset.sum_congr rfl fun s _ => ?_
  rw [sum_blockDiag (fun j => I.x n (dOf j) (vOf j)) I.M (flatOf (dOf q) s)]
  simp only [dOf_flatOf, vOf_flatOf]

end Cert.KernelIdeal.NodeMix1Body
-- ==== Proof.EdgeMixBody.lean ====
/-
  The second launch's body, read entry by entry. On a block of 10000 edge rows the body forms, per row and flat
  column q = 32 d + v:
  * the channel weight W1 = silu (attr · fc1_w + fc1_b), with silu t = t · logistic t, tiled three times along the
    96 columns (column q reads channel q mod 32);
  * g = W1 ⊙ (xs − xd) and a = W1 ⊙ ((xs + xd) · ½) from the gathered source and destination rows;
  * xe = (g · BD1 + a · BD2) · ½, two products against block-diagonal 96×96 matrices into a zero accumulator;
  * the result W2 ⊙ xe with W2 = silu (attr · fc2_w + fc2_b) tiled the same way.
  Here: each layout operation at an index (a column or a row broadcast to [10000,32], three copies side by side),
  the product at an entry as a sum over the 96 contracted columns, the constant ½, and the algebra over the reals:
  a sum over the 96 flat columns is a double sum over components and channels, against a block-diagonal matrix only
  the row's own component contributes, and the two orders of summation through A and vv agree. Together: the
  body's result at (p, q) is the spec's weighted edge vector at the row's edge, component q / 32, channel q mod 32.
-/
import proofs.«407674_j57329223467239_3_alg».proof.Proof.KernelHostTerms
import proofs.«407674_j57329223467239_3_alg».proof.Proof.Spec
import Idealize.ShloMosaic.Lib.Pipeline.Value
import Idealize.ShloMosaic.Lib.ValueIdx
import Idealize.ShloMosaic.PureOps.Ideal.Laws
import Mathlib.Algebra.BigOperators.Group.Finset.Basic
import Mathlib.Algebra.BigOperators.Group.Finset.Sigma
import Mathlib.Algebra.BigOperators.Ring.Finset
import Mathlib.Tactic.Ring

noncomputable section

namespace Cert.KernelIdeal.EdgeMixAlgebra

open Cert.Spec

/-- Flat columns q < 96 are the pairs (component, channel). -/
def flatEquiv : Fin 3 × Fin 32 ≃ Fin 96 where
  toFun p := flatOf p.1 p.2
  invFun q := (dOf q, vOf q)
  left_inv p := by
    show (dOf (flatOf p.1 p.2), vOf (flatOf p.1 p.2)) = p
    rw [dOf_flatOf, vOf_flatOf]
  right_inv q := flatOf_dOf_vOf q

/-- A sum over the 96 flat columns is the double sum over components and channels. -/
theorem sum_flat (f : Fin 96 → ℝ) : ∑ k : Fin 96, f k = ∑ d : Fin 3, ∑ v : Fin 32, f (flatOf d v) := by
  rw [← Equiv.sum_comp flatEquiv f, Fintype.sum_prod_type]
  rfl

/-- Against a block-diagonal matrix only the row's own component contributes. -/
theorem sum_blockDiag (g : Fin 3 → Fin 32 → ℝ) (c : Fin 32 → ℝ) (d : Fin 3) :
    ∑ k : Fin 96, g (dOf k) (vOf k) * (if dOf k = d then c (vOf k) else 0) = ∑ v : Fin 32, g d v * c v := by
  rw [sum_flat]
  simp only [dOf_flatOf, vOf_flatOf]
  rw [Finset.sum_eq_single d]
  · exact Finset.sum_congr rfl fun v _ => by rw [if_pos rfl]
  · intro d' _ hd
    exact Finset.sum_eq_zero fun v _ => by rw [if_neg hd, mul_zero]
  · intro h; exact absurd (Finset.mem_univ d) h

/-- Mixing through A then V, halved: the two orders of summation agree. -/
theorem mix_assoc (g a : Fin 32 → ℝ) (A1 A2 V : Fin 32 → Fin 32 → ℝ) (w : Fin 32) :
    (∑ v : Fin 32, g v * ∑ u : Fin 32, A1 v u * V u w + ∑ v : Fin 32, a v * ∑ u : Fin 32, A2 v u * V u w) * (1 / 2)
      = ∑ u : Fin 32, ((∑ v : Fin 32, g v * A1 v u + ∑ v : Fin 32, a v * A2 v u) / 2) * V u w := by
  have h : ∀ (g : Fin 32 → ℝ) (A : Fin 32 → Fin 32 → ℝ),
      ∑ v : Fin 32, g v * ∑ u : Fin 32, A v u * V u w = ∑ u : Fin 32, (∑ v : Fin 32, g v * A v u) * V u w := by
    intro g A
    simp only [Finset.mul_sum, Finset.sum_mul]
    rw [Finset.sum_comm]
    exact Finset.sum_congr rfl fun u _ => Finset.sum_congr rfl fun v _ => by ring
  rw [h g A1, h a A2, ← Finset.sum_add_distrib, Finset.sum_mul]
  exact Finset.sum_congr rfl fun u _ => by ring

/-- The body's two products against the block-diagonal matrices, halved, are the spec's edge vector. -/
theorem edge_flat (I : Inputs) (e : Fin 1000000) (q : Fin 96) :
    (∑ k : Fin 96, silu (I.ea e * I.f1w (vOf k) + I.f1b (vOf k)) * (mixed I (I.src e) (dOf k) (vOf k) - mixed I (I.dst e) (dOf k) (vOf k)) * (if dOf k = dOf q then ∑ u : Fin 32, I.A1 (vOf k) u * ((I.B1 u (vOf q) + I.B2 u (vOf q)) / 2) else 0)
      + ∑ k : Fin 96, silu (I.ea e * I.f1w (vOf k) + I.f1b (vOf k)) * ((mixed I (I.src e) (dOf k) (vOf k) + mixed I (I.dst e) (dOf k) (vOf k)) * (1 / 2)) * (if dOf k = dOf q then ∑ u : Fin 32, I.A2 (vOf k) u * ((I.B1 u (vOf q) + I.B2 u (vOf q)) / 2) else 0)) * (1 / 2)
      = edge I e (dOf q) (vOf q) := by
  have e1 : (∑ k : Fin 96, silu (I.ea e * I.f1w (vOf k) + I.f1b (vOf k)) * (mixed I (I.src e) (dOf k) (vOf k) - mixed I (I.dst e) (dOf k) (vOf k)) * (if dOf k = dOf q then ∑ u : Fin 32, I.A1 (vOf k) u * ((I.B1 u (vOf q) + I.B2 u (vOf q)) / 2) else 0))
      = ∑ k : Fin 96, grad I e (dOf k) (vOf k) * (if dOf k = dOf q then ∑ u : Fin 32, I.A1 (vOf k) u * vv I u (vOf q) else 0) := rfl
  have e2 : (∑ k : Fin 96, silu (I.ea e * I.f1w (vOf k) + I.f1b (vOf k)) * ((mixed I (I.src e) (dOf k) (vOf k) + mixed I (I.dst e) (dOf k) (vOf k)) * (1 / 2)) * (if dOf k = dOf q then ∑ u : Fin 32, I.A2 (vOf k) u * ((I.B1 u (vOf q) + I.B2 u (vOf q)) / 2) else 0))
      = ∑ k : Fin 96, ave I e (dOf k) (vOf k) * (if dOf k = dOf q then ∑ u : Fin 32, I.A2 (vOf k) u * vv I u (vOf q) else 0) :=
    Finset.sum_congr rfl fun k _ => by unfold ave w1 vv; ring
  rw [e1, e2, sum_blockDiag (fun d v => grad I e d v) (fun v => ∑ u : Fin 32, I.A1 v u * vv I u (vOf q)) (dOf q),
    sum_blockDiag (fun d v => ave I e d v) (fun v => ∑ u : Fin 32, I.A2 v u * vv I u (vOf q)) (dOf q)]
  exact mix_assoc _ _ _ _ _ _

end Cert.KernelIdeal.EdgeMixAlgebra

namespace Cert.KernelIdeal.EdgeMixBody

open Cert.KernelIdeal Cert.KernelIdeal.Gen Cert.Spec Idealize.ShloMosaic Idealize.ShloMosaic.ValueIdx

/-- The zero offsets. -/
theorem hz : (![0, 0] : Fin 2 → Nat) = fun _ => 0 := funext fun a => by fin_cases a <;> rfl

/-- The pattern 0x3F000000 is one half. -/
theorem half_f32 : Ideal.ofBits .f32 0x3F000000#32 = ((1 / 2 : ℝ) : EReal) := by
  simp [Ideal.ofBits, Ideal.ieee, -EReal.coe_mul]; norm_num

/-- A column [10000,1] broadcast along the lanes reads its row's one entry. -/
theorem bcol_apply {α : Type} (x : S10000x1.Idx → α) (p : Fin 10000) (v : Fin 32) :
    broadcastTo S10000x32 x broadcasts_S10000x1_S10000x32 (ix2 p v) = x (ix2 p 0) :=
  broadcastTo_apply x broadcasts_S10000x1_S10000x32 (ix2 p v) (ix2 p 0) (fun a => match a with
    | ⟨0, _⟩ => by show p.val = if (10000 : Nat) = 1 then 0 else p.val; rw [if_neg (by decide)]
    | ⟨1, _⟩ => by show (0 : Nat) = if (1 : Nat) = 1 then 0 else v.val; rw [if_pos rfl])

/-- A row [1,32] broadcast along the sublanes reads its column's one entry. -/
theorem brow_apply {α : Type} (x : S1x32.Idx → α) (p : Fin 10000) (v : Fin 32) :
    broadcastTo S10000x32 x broadcasts_S1x32_S10000x32 (ix2 p v) = x (ix2 0 v) :=
  broadcastTo_apply x broadcasts_S1x32_S10000x32 (ix2 p v) (ix2 0 v) (fun a => match a with
    | ⟨0, _⟩ => by show (0 : Nat) = if (1 : Nat) = 1 then 0 else p.val; rw [if_pos rfl]
    | ⟨1, _⟩ => by show v.val = if (32 : Nat) = 1 then 0 else v.val; rw [if_neg (by decide)])

/-- Three copies of a [10000,32] block side by side: column q reads the block's column q mod 32. -/
theorem tile3_apply {α : Type} (x : S10000x32.Idx → α) (p : Fin 10000) (q : Fin 96) :
    concatenate S10000x96 1 [⟨S10000x32, x⟩, ⟨S10000x32, x⟩, ⟨S10000x32, x⟩] concatenates_S10000x32_S10000x32_S10000x32_S10000x96_d1 (ix2 p q)
      = x (ix2 p (vOf q)) :=
  concatenate_replicate_apply (t := S10000x96) (s₁ := S10000x32) 1 3 x concatenates_S10000x32_S10000x32_S10000x32_S10000x96_d1 rfl (ix2 p q) (ix2 p (vOf q))
    (by show q.val % 32 = q.val % 32; rfl)
    (fun b hb => match b with
      | ⟨0, _⟩ => rfl
      | ⟨1, _⟩ => absurd rfl hb)

/-- The product's operand indices: the left operand is read at (row, contracted column), the right at (contracted column, column). -/
theorem lhs_mm_0 (i : S10000x96.Idx) (q : dot_S10000x96_S96x96_S10000x96_1_0_0_1_n_n.contr.Idx) :
    (dot_S10000x96_S96x96_S10000x96_1_0_0_1_n_n.lhsIdx i q 0).val = (i 0).val := by
  unfold DotDims.lhsIdx
  rw [dif_neg (show ¬(0 : Fin S10000x96.rank) ∈ dot_S10000x96_S96x96_S10000x96_1_0_0_1_n_n.lhsBatch by decide), dif_pos (show (0 : Fin S10000x96.rank) ∈ dot_S10000x96_S96x96_S10000x96_1_0_0_1_n_n.lhsNonContracting by decide)]
  rfl
theorem lhs_mm_1 (i : S10000x96.Idx) (q : dot_S10000x96_S96x96_S10000x96_1_0_0_1_n_n.contr.Idx) :
    (dot_S10000x96_S96x96_S10000x96_1_0_0_1_n_n.lhsIdx i q 1).val = (q ⟨0, by decide⟩).val :=
  dot_S10000x96_S96x96_S10000x96_1_0_0_1_n_n.lhsIdx_val_of_single rfl i q
theorem rhs_mm_0 (i : S10000x96.Idx) (q : dot_S10000x96_S96x96_S10000x96_1_0_0_1_n_n.contr.Idx) :
    (dot_S10000x96_S96x96_S10000x96_1_0_0_1_n_n.rhsIdx i q 0).val = (q ⟨0, by decide⟩).val :=
  dot_S10000x96_S96x96_S10000x96_1_0_0_1_n_n.rhsIdx_val_of_single rfl i q
theorem rhs_mm_1 (i : S10000x96.Idx) (q : dot_S10000x96_S96x96_S10000x96_1_0_0_1_n_n.contr.Idx) :
    (dot_S10000x96_S96x96_S10000x96_1_0_0_1_n_n.rhsIdx i q 1).val = (i 1).val := by
  unfold DotDims.rhsIdx
  rw [dif_neg (show ¬(1 : Fin S96x96.rank) ∈ dot_S10000x96_S96x96_S10000x96_1_0_0_1_n_n.rhsBatch by decide), dif_pos (show (1 : Fin S96x96.rank) ∈ dot_S10000x96_S96x96_S10000x96_1_0_0_1_n_n.rhsNonContracting by decide)]
  rfl

/-- A [10000,96] by [96,96] product into the zero accumulator, read at an entry: the sum over the 96 contracted columns. -/
theorem mm_apply {φ₁ φ₂ : FTy} (l : FVec Ideal S10000x96 φ₁) (r : FVec Ideal S96x96 φ₂) (p : Fin 10000) (q : Fin 96) :
    matmul dot_S10000x96_S96x96_S10000x96_1_0_0_1_n_n none l r (constant S10000x96 .f32 0x00000000#32) (ix2 p q)
      = ∑ k : Fin 96, l (ix2 p k) * r (ix2 k q) := by
  refine (Ideal.matmul_constant_zero_apply dot_S10000x96_S96x96_S10000x96_1_0_0_1_n_n none l r (ix2 p q)).trans ?_
  rw [← Equiv.sum_comp (contrEquiv1 dot_S10000x96_S96x96_S10000x96_1_0_0_1_n_n 96 rfl rfl).symm]
  refine Finset.sum_congr rfl fun k _ => ?_
  have hk := contrEquiv1_symm_val dot_S10000x96_S96x96_S10000x96_1_0_0_1_n_n 96 rfl rfl k
  have el : dot_S10000x96_S96x96_S10000x96_1_0_0_1_n_n.lhsIdx (ix2 p q) ((contrEquiv1 dot_S10000x96_S96x96_S10000x96_1_0_0_1_n_n 96 rfl rfl).symm k) = ix2 p k := funext fun a => Fin.ext (by
    match a with
    | ⟨0, _⟩ => exact lhs_mm_0 _ _
    | ⟨1, _⟩ => exact (lhs_mm_1 _ _).trans hk)
  have er : dot_S10000x96_S96x96_S10000x96_1_0_0_1_n_n.rhsIdx (ix2 p q) ((contrEquiv1 dot_S10000x96_S96x96_S10000x96_1_0_0_1_n_n 96 rfl rfl).symm k) = ix2 k q := funext fun a => Fin.ext (by
    match a with
    | ⟨0, _⟩ => exact (rhs_mm_0 _ _).trans hk
    | ⟨1, _⟩ => exact rhs_mm_1 _ _)
  rw [el, er]

/-- The logistic function lane by lane. -/
theorem logistic_apply {s : Shape} {φ : FTy} (x : FVec Ideal s φ) (i : s.Idx) : logistic x i = Ideal.logistic (x i) := rfl

/-- x · logistic x at a real is silu. -/
theorem silu_read (a w b : ℝ) :
    ((a : EReal) * (w : EReal) + (b : EReal)) * Ideal.logistic ((a : EReal) * (w : EReal) + (b : EReal)) = ((silu (a * w + b) : ℝ) : EReal) := by
  rw [← EReal.coe_mul, ← EReal.coe_add, Ideal.logistic_coe, ← EReal.coe_mul]
  rfl

/-- The constant one half, as the scalar the body broadcasts. -/
theorem half_scalar : FloatOps.ofBits (F := Ideal) .f32 0x3F000000#32 = ((1 / 2 : ℝ) : EReal) := half_f32

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The halved sum of the two block-diagonal products, at (p, q): the spec's edge vector of the row's edge. -/
theorem pay3_apply (I : Inputs) (b0 b1 : Vec Ideal S10000x96 .f32) (b2 : Vec Ideal S10000x1 .f32) (r3 r4 : Vec Ideal S1x32 .f32) (m7 m8 : Vec Ideal S96x96 .bf16) (p : Fin 10000) (e : Fin 1000000)
    (h0 : ∀ k : Fin 96, b0 (ix2 p k) = ((mixed I (I.src e) (dOf k) (vOf k) : ℝ) : EReal)) (h1 : ∀ k : Fin 96, b1 (ix2 p k) = ((mixed I (I.dst e) (dOf k) (vOf k) : ℝ) : EReal))
    (h2 : b2 (ix2 p 0) = ((I.ea e : ℝ) : EReal))
    (h3 : ∀ v : Fin 32, r3 (ix2 0 v) = ((I.f1w v : ℝ) : EReal)) (h4 : ∀ v : Fin 32, r4 (ix2 0 v) = ((I.f1b v : ℝ) : EReal))
    (h7 : ∀ j k : Fin 96, m7 (ix2 j k) = ((if dOf j = dOf k then ∑ u : Fin 32, I.A1 (vOf j) u * ((I.B1 u (vOf k) + I.B2 u (vOf k)) / 2) else 0 : ℝ) : EReal))
    (h8 : ∀ j k : Fin 96, m8 (ix2 j k) = ((if dOf j = dOf k then ∑ u : Fin 32, I.A2 (vOf j) u * ((I.B1 u (vOf k) + I.B2 u (vOf k)) / 2) else 0 : ℝ) : EReal)) (q : Fin 96) :
    k1_pay3 (F := Ideal) b2 r3 r4 b0 b1 m7 m8 (ix2 p q) = ((edge I e (dOf q) (vOf q) : ℝ) : EReal) := by
  unfold k1_pay3 k1_pay2
  simp only [shapeCast_self]
  simp only [mulf_apply, addf_apply, subf_apply, broadcast_apply, truncf_apply, mm_apply, tile3_apply, bcol_apply, brow_apply, logistic_apply, shapeCast_self]
  simp only [h0, h1, h2, h3, h4, h7, h8, silu_read, half_scalar]
  simp only [← EReal.coe_sub, ← EReal.coe_add, ← EReal.coe_mul, ← coe_sum]
  exact congrArg _ (EdgeMixAlgebra.edge_flat I e q)

/-- The body's result at (p, q): the second channel weight times the edge vector, the spec's weighted edge vector. -/
theorem out1_9_apply (I : Inputs) (b0 b1 : Vec Ideal S10000x96 .f32) (b2 : Vec Ideal S10000x1 .f32) (r3 r4 r5 r6 : Vec Ideal S1x32 .f32) (m7 m8 : Vec Ideal S96x96 .bf16) (p : Fin 10000) (e : Fin 1000000)
    (h0 : ∀ k : Fin 96, b0 (ix2 p k) = ((mixed I (I.src e) (dOf k) (vOf k) : ℝ) : EReal)) (h1 : ∀ k : Fin 96, b1 (ix2 p k) = ((mixed I (I.dst e) (dOf k) (vOf k) : ℝ) : EReal))
    (h2 : b2 (ix2 p 0) = ((I.ea e : ℝ) : EReal))
    (h3 : ∀ v : Fin 32, r3 (ix2 0 v) = ((I.f1w v : ℝ) : EReal)) (h4 : ∀ v : Fin 32, r4 (ix2 0 v) = ((I.f1b v : ℝ) : EReal)) (h5 : ∀ v : Fin 32, r5 (ix2 0 v) = ((I.f2w v : ℝ) : EReal)) (h6 : ∀ v : Fin 32, r6 (ix2 0 v) = ((I.f2b v : ℝ) : EReal))
    (h7 : ∀ j k : Fin 96, m7 (ix2 j k) = ((if dOf j = dOf k then ∑ u : Fin 32, I.A1 (vOf j) u * ((I.B1 u (vOf k) + I.B2 u (vOf k)) / 2) else 0 : ℝ) : EReal))
    (h8 : ∀ j k : Fin 96, m8 (ix2 j k) = ((if dOf j = dOf k then ∑ u : Fin 32, I.A2 (vOf j) u * ((I.B1 u (vOf k) + I.B2 u (vOf k)) / 2) else 0 : ℝ) : EReal)) (q : Fin 96) :
    out1_9 (F := Ideal) b0 b1 b2 r3 r4 r5 r6 m7 m8 (ix2 p q) = ((wedge I e (dOf q) (vOf q) : ℝ) : EReal) := by
  unfold out1_9
  rw [View.canon_unit_zero hz]
  simp only [View.ld_unit_zero (S := S10000x96) hz, View.ld_unit_zero (S := S10000x1) hz, View.ld_unit_zero (S := S1x32) hz, View.ld_unit_zero (S := S96x96) hz]
  unfold k1_pay1 k1_pay4 k1_pay5 k1_pay2
  simp only [mulf_apply, addf_apply, tile3_apply, bcol_apply, brow_apply, logistic_apply, shapeCast_self]
  rw [pay3_apply I b0 b1 b2 r3 r4 m7 m8 p e h0 h1 h2 h3 h4 h7 h8 q]
  simp only [h2, h5, h6, silu_read]
  rw [← EReal.coe_mul]
  rfl

end Cert.KernelIdeal.EdgeMixBody

end
-- ==== Proof.NodeMix2Body.lean ====
/-
  The third launch's body at a row and a column, over the extended reals.
  On a block of 5000 node rows with 96 flat columns (column `q` is component `q / 32`, channel `q mod 32`) the body
  forms `y = ((a − b) · D₁ + (a + b) · D₂) · ½`, two [5000, 96] × [96, 96] products into zero accumulators, where
  `D₁`, `D₂` are block diagonal: entry `(j, k)` is `C (j mod 32) (k mod 32)` when `j` and `k` lie in the same
  component and `0` otherwise. It then cuts `y`'s 96 lanes into three 32-lane slices `y₀ y₁ y₂`, takes
  `t = tanh (√(y₀² + y₁² + y₂²))` per channel, and stores `y ⊙ (t t t)`.
  Proved here, for a row `p` whose entries of `a` and `b` are a node's two edge sums `toDst`, `toSrc`:
  * a product into the zero accumulator at `(p, q)` is `∑ k < 96, l (p, k) · r (k, q)` (`matmul_zero_apply`);
  * the sum over the 96 flat columns against a block-diagonal column keeps the 32 channels of that column's own
    component (`sum_block`), and the pattern `0x3F000000` is one half, so `y (p, q)` is the specification's `node`
    (`mid_apply`);
  * a slice at lane offset `32 d` reads column `32 d + v`, three copies of a 32-lane piece read the piece at
    `q mod 32`, a sum of three squares is not negative so its square root is the real one, and `tanh` of a real is
    the real `tanh` (`normT_apply`, `scaled_apply`);
  * hence the body's stored value at `(p, q)` is the specification's `out` (`out2_4_apply`).
-/
import proofs.«407674_j57329223467239_3_alg».proof.Proof.KernelHostTerms
import proofs.«407674_j57329223467239_3_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Data.EReal.Operations

noncomputable section

namespace Cert.KernelIdeal.NodeMix2Body

open Cert.KernelIdeal Cert.KernelIdeal.Gen Cert.Spec Idealize.ShloMosaic Idealize.ShloMosaic.ValueIdx

/-- A finite sum of reals, each read as an extended real, is the real sum read as an extended real. -/
theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- The left operand's index at output index `i` and inner index `q`: row `i 0`. -/
theorem lhs_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- … and column `q`. -/
theorem lhs_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
/-- The right operand's index at output index `i` and inner index `q`: row `q`. -/
theorem rhs_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
/-- … and column `i 1`. -/
theorem rhs_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A [5000, 96] × [96, 96] product into the zero accumulator, at row `p` and column `q`: the sum over the 96 inner columns. -/
theorem matmul_zero_apply (l : FVec Ideal S5000x96 .bf16) (r : FVec Ideal S96x96 .bf16) (p : Fin 5000) (q : Fin 96) :
    FloatOps.matmul dot_S5000x96_S96x96_S5000x96_1_0_0_1_n_n none l r (constant (F := Ideal) S5000x96 .f32 0x00000000#32) (ix2 p q)
      = ∑ k : Fin 96, l (ix2 p k) * r (ix2 k q) := by
  refine (Ideal.matmul_constant_zero_apply dot_S5000x96_S96x96_S5000x96_1_0_0_1_n_n none l r (ix2 p q)).trans ?_
  rw [← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact lhs_0 _ _
    | ⟨1, _⟩ => exact (lhs_1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (rhs_0 _ _).trans hk
    | ⟨1, _⟩ => exact rhs_1 _ _)
  rw [el, er]

/-- The halved sum of the two products: the node rows before the norm is applied. -/
def mid (b0 b1 : FVec Ideal S5000x96 .f32) (m2 m3 : FVec Ideal S96x96 .bf16) : FVec Ideal S5000x96 .f32 :=
  mulf (addf
      (FloatOps.matmul dot_S5000x96_S96x96_S5000x96_1_0_0_1_n_n none (truncf .bf16 (subf b0 b1) bitsLt_bf16_f32) m2 (constant (F := Ideal) S5000x96 .f32 0x00000000#32))
      (FloatOps.matmul dot_S5000x96_S96x96_S5000x96_1_0_0_1_n_n none (truncf .bf16 (addf b0 b1) bitsLt_bf16_f32) m3 (constant (F := Ideal) S5000x96 .f32 0x00000000#32)))
    (broadcast S5000x96 (Scalar.ofBits (F := Ideal) .f32 0x3F000000#32))

/-- `tanh` of the Euclidean norm of a row's three 32-lane slices, per channel. -/
def normT (y : FVec Ideal S5000x96 .f32) : FVec Ideal S5000x32 .f32 :=
  tanh (sqrt (addf (addf
    (mulf (extractStridedSlice S5000x32 ![0, 0] y slices_S5000x96_o0_0_S5000x32) (extractStridedSlice S5000x32 ![0, 0] y slices_S5000x96_o0_0_S5000x32))
    (mulf (extractStridedSlice S5000x32 ![0, 32] y slices_S5000x96_o0_32_S5000x32) (extractStridedSlice S5000x32 ![0, 32] y slices_S5000x96_o0_32_S5000x32)))
    (mulf (extractStridedSlice S5000x32 ![0, 64] y slices_S5000x96_o0_64_S5000x32) (extractStridedSlice S5000x32 ![0, 64] y slices_S5000x96_o0_64_S5000x32))))

/-- Rows scaled, channel by channel in each of the three components, by `normT`. -/
def scaled (y : FVec Ideal S5000x96 .f32) : FVec Ideal S5000x96 .f32 :=
  mulf y (concatenate S5000x96 1 [⟨S5000x32, normT y⟩, ⟨S5000x32, normT y⟩, ⟨S5000x32, normT y⟩] concatenates_S5000x32_S5000x32_S5000x32_S5000x96_d1)

/-- The stored value is the halved sum of the two products, scaled by the norm. -/
theorem pay_eq (b0 b1 : Vec Ideal S5000x96 .f32) (m2 m3 : Vec Ideal S96x96 .bf16) :
    k2_pay1 (F := Ideal) b0 b1 m2 m3 = scaled (mid b0 b1 m2 m3) := by
  have e0 : shapeCast S5000x96 b0 shapeCasts_S5000x96_S5000x96 = b0 := shapeCast_self _ _
  have e1 : shapeCast S5000x96 b1 shapeCasts_S5000x96_S5000x96 = b1 := shapeCast_self _ _
  have e2 : shapeCast S96x96 m2 shapeCasts_S96x96_S96x96 = m2 := shapeCast_self _ _
  have e3 : shapeCast S96x96 m3 shapeCasts_S96x96_S96x96 = m3 := shapeCast_self _ _
  unfold k2_pay1 scaled normT mid
  rw [e0, e1, e2, e3]

/-! ## The halved sum at a column -/

/-- The f32 pattern `0x3F000000` is the real one half. -/
theorem half_eq : Ideal.ofBits .f32 0x3F000000#32 = (((1 : ℝ) / 2 : ℝ) : EReal) := by
  simp [Ideal.ofBits, Ideal.ieee, -EReal.coe_mul]; norm_num

/-- Flat columns as (component, channel) pairs. -/
def flatEquiv : Fin 3 × Fin 32 ≃ Fin 96 where
  toFun dv := flatOf dv.1 dv.2
  invFun q := (dOf q, vOf q)
  left_inv dv := Prod.ext (dOf_flatOf dv.1 dv.2) (vOf_flatOf dv.1 dv.2)
  right_inv q := flatOf_dOf_vOf q

/-- A row times a block-diagonal matrix: the sum over the 96 flat columns keeps the 32 channels of the column's own component. -/
theorem sum_block (f : Fin 3 → Fin 32 → ℝ) (c : Fin 32 → ℝ) (dq : Fin 3) :
    ∑ k : Fin 96, f (dOf k) (vOf k) * (if dOf k = dq then c (vOf k) else 0) = ∑ v : Fin 32, f dq v * c v := by
  rw [← Equiv.sum_comp flatEquiv, Fintype.sum_prod_type]
  simp only [flatEquiv, Equiv.coe_fn_mk, dOf_flatOf, vOf_flatOf]
  rw [Finset.sum_eq_single dq (fun d _ hd => by simp [hd]) (fun h => absurd (Finset.mem_univ _) h)]
  simp

/-- The halved sum of the two products at row `p`, column `q`, is the specification's `node`. -/
theorem mid_apply (I : Inputs) (b0 b1 : FVec Ideal S5000x96 .f32) (m2 m3 : FVec Ideal S96x96 .bf16) (p : Fin 5000) (n : Fin 50000)
    (h0 : ∀ k : Fin 96, b0 (ix2 p k) = ((toDst I n (dOf k) (vOf k) : ℝ) : EReal))
    (h1 : ∀ k : Fin 96, b1 (ix2 p k) = ((toSrc I n (dOf k) (vOf k) : ℝ) : EReal))
    (h2 : ∀ j k : Fin 96, m2 (ix2 j k) = ((if dOf j = dOf k then I.C1 (vOf j) (vOf k) else 0 : ℝ) : EReal))
    (h3 : ∀ j k : Fin 96, m3 (ix2 j k) = ((if dOf j = dOf k then I.C2 (vOf j) (vOf k) else 0 : ℝ) : EReal)) (q : Fin 96) :
    mid b0 b1 m2 m3 (ix2 p q) = ((node I n (dOf q) (vOf q) : ℝ) : EReal) := by
  unfold mid
  rw [mulf_apply, addf_apply, broadcast_apply, matmul_zero_apply, matmul_zero_apply]
  simp only [truncf_apply, subf_apply, addf_apply, h0, h1, h2, h3]
  rw [show Scalar.ofBits (F := Ideal) .f32 0x3F000000#32 = (((1 : ℝ) / 2 : ℝ) : EReal) from half_eq]
  simp only [← EReal.coe_sub, ← EReal.coe_add, ← EReal.coe_mul, coe_sum]
  rw [sum_block (fun d v => toDst I n d v - toSrc I n d v) (fun v => I.C1 v (vOf q)) (dOf q),
    sum_block (fun d v => toDst I n d v + toSrc I n d v) (fun v => I.C2 v (vOf q)) (dOf q)]
  unfold node
  congr 1
  ring

/-! ## The scaling by the norm -/

/-- The slice at lane offset 0, at channel `v`, is column `v`. -/
theorem slice0 (y : FVec Ideal S5000x96 .f32) (p : Fin 5000) (v : Fin 32) :
    extractStridedSlice S5000x32 ![0, 0] y slices_S5000x96_o0_0_S5000x32 (ix2 p v) = y (ix2 p (flatOf 0 v)) :=
  extractStridedSlice_apply ![0, 0] y slices_S5000x96_o0_0_S5000x32 (ix2 p v) (ix2 p (flatOf 0 v)) fun a => by
    have e : ((0 : Fin 3) : ℕ) = 0 := rfl
    match a with
    | ⟨0, _⟩ => show p.val = 0 + p.val; omega
    | ⟨1, _⟩ => show 32 * ((0 : Fin 3) : ℕ) + v.val = 0 + v.val; omega
/-- The slice at lane offset 32, at channel `v`, is column `32 + v`. -/
theorem slice1 (y : FVec Ideal S5000x96 .f32) (p : Fin 5000) (v : Fin 32) :
    extractStridedSlice S5000x32 ![0, 32] y slices_S5000x96_o0_32_S5000x32 (ix2 p v) = y (ix2 p (flatOf 1 v)) :=
  extractStridedSlice_apply ![0, 32] y slices_S5000x96_o0_32_S5000x32 (ix2 p v) (ix2 p (flatOf 1 v)) fun a => by
    have e : ((1 : Fin 3) : ℕ) = 1 := rfl
    match a with
    | ⟨0, _⟩ => show p.val = 0 + p.val; omega
    | ⟨1, _⟩ => show 32 * ((1 : Fin 3) : ℕ) + v.val = 32 + v.val; omega
/-- The slice at lane offset 64, at channel `v`, is column `64 + v`. -/
theorem slice2 (y : FVec Ideal S5000x96 .f32) (p : Fin 5000) (v : Fin 32) :
    extractStridedSlice S5000x32 ![0, 64] y slices_S5000x96_o0_64_S5000x32 (ix2 p v) = y (ix2 p (flatOf 2 v)) :=
  extractStridedSlice_apply ![0, 64] y slices_S5000x96_o0_64_S5000x32 (ix2 p v) (ix2 p (flatOf 2 v)) fun a => by
    have e : ((2 : Fin 3) : ℕ) = 2 := rfl
    match a with
    | ⟨0, _⟩ => show p.val = 0 + p.val; omega
    | ⟨1, _⟩ => show 32 * ((2 : Fin 3) : ℕ) + v.val = 64 + v.val; omega

/-- Three copies of one 32-lane piece side by side, at column `q`: the piece at channel `q mod 32`. -/
theorem tile3_apply (t : FVec Ideal S5000x32 .f32) (p : Fin 5000) (q : Fin 96) :
    concatenate S5000x96 1 [⟨S5000x32, t⟩, ⟨S5000x32, t⟩, ⟨S5000x32, t⟩] concatenates_S5000x32_S5000x32_S5000x32_S5000x96_d1 (ix2 p q)
      = t (ix2 p (vOf q)) :=
  concatenate_replicate_apply (1 : Fin S5000x96.rank) 3 t concatenates_S5000x32_S5000x32_S5000x32_S5000x96_d1 rfl (ix2 p q) (ix2 p (vOf q))
    (by show (vOf q).val = q.val % 32; rfl)
    (fun b hb => by
      match b with
      | ⟨0, _⟩ => rfl
      | ⟨1, _⟩ => exact absurd rfl hb)

/-- On a row whose columns are the reals `g d v`: `tanh` of the square root of the sum of the three squares. -/
theorem normT_apply (y : FVec Ideal S5000x96 .f32) (g : Fin 3 → Fin 32 → ℝ) (p : Fin 5000)
    (hy : ∀ k : Fin 96, y (ix2 p k) = ((g (dOf k) (vOf k) : ℝ) : EReal)) (v : Fin 32) :
    normT y (ix2 p v) = ((Real.tanh (Real.sqrt (∑ d : Fin 3, g d v * g d v)) : ℝ) : EReal) := by
  have hg : ∀ d : Fin 3, y (ix2 p (flatOf d v)) = ((g d v : ℝ) : EReal) := fun d => by rw [hy, dOf_flatOf, vOf_flatOf]
  have h0 : (0 : ℝ) ≤ g 0 v * g 0 v + g 1 v * g 1 v + g 2 v * g 2 v :=
    add_nonneg (add_nonneg (mul_self_nonneg _) (mul_self_nonneg _)) (mul_self_nonneg _)
  show Ideal.tanh (Ideal.sqrt (
      extractStridedSlice S5000x32 ![0, 0] y slices_S5000x96_o0_0_S5000x32 (ix2 p v) * extractStridedSlice S5000x32 ![0, 0] y slices_S5000x96_o0_0_S5000x32 (ix2 p v)
      + extractStridedSlice S5000x32 ![0, 32] y slices_S5000x96_o0_32_S5000x32 (ix2 p v) * extractStridedSlice S5000x32 ![0, 32] y slices_S5000x96_o0_32_S5000x32 (ix2 p v)
      + extractStridedSlice S5000x32 ![0, 64] y slices_S5000x96_o0_64_S5000x32 (ix2 p v) * extractStridedSlice S5000x32 ![0, 64] y slices_S5000x96_o0_64_S5000x32 (ix2 p v))) = _
  rw [slice0, slice1, slice2, hg, hg, hg, ← EReal.coe_mul, ← EReal.coe_mul, ← EReal.coe_mul, ← EReal.coe_add, ← EReal.coe_add,
    Ideal.sqrt_coe, if_neg (not_lt.mpr h0), Ideal.tanh_coe, Fin.sum_univ_three]

/-- On such a row, the scaled row at column `q`. -/
theorem scaled_apply (y : FVec Ideal S5000x96 .f32) (g : Fin 3 → Fin 32 → ℝ) (p : Fin 5000)
    (hy : ∀ k : Fin 96, y (ix2 p k) = ((g (dOf k) (vOf k) : ℝ) : EReal)) (q : Fin 96) :
    scaled y (ix2 p q)
      = ((g (dOf q) (vOf q) * Real.tanh (Real.sqrt (∑ d : Fin 3, g d (vOf q) * g d (vOf q))) : ℝ) : EReal) := by
  unfold scaled
  rw [mulf_apply, tile3_apply, normT_apply y g p hy, hy, ← EReal.coe_mul]

/-! ## The body's result -/

/-- The zero offsets. -/
theorem hz : (![0, 0] : Fin 2 → Nat) = fun _ => 0 := funext fun a => by fin_cases a <;> rfl

/-- The output window's buffer after the body is the stored value. -/
theorem out2_4_eq (b0 b1 : Vec Ideal S5000x96 .f32) (m2 m3 : Vec Ideal S96x96 .bf16) :
    out2_4 (F := Ideal) b0 b1 m2 m3 = k2_pay1 (F := Ideal) b0 b1 m2 m3 := by
  unfold out2_4
  rw [View.canon_unit_zero hz]
  simp only [View.ld_unit_zero (S := S5000x96) hz, View.ld_unit_zero (S := S96x96) hz]

/-- The body on a row block whose row `p` holds node `n`'s two edge sums, with the two block-diagonal matrices:
    row `p` of the result is the specification's `out` at node `n`. -/
theorem out2_4_apply (I : Inputs) (b0 b1 : Vec Ideal S5000x96 .f32) (m2 m3 : Vec Ideal S96x96 .bf16) (p : Fin 5000) (n : Fin 50000)
    (h0 : ∀ k : Fin 96, b0 (ix2 p k) = ((toDst I n (dOf k) (vOf k) : ℝ) : EReal))
    (h1 : ∀ k : Fin 96, b1 (ix2 p k) = ((toSrc I n (dOf k) (vOf k) : ℝ) : EReal))
    (h2 : ∀ j k : Fin 96, m2 (ix2 j k) = ((if dOf j = dOf k then I.C1 (vOf j) (vOf k) else 0 : ℝ) : EReal))
    (h3 : ∀ j k : Fin 96, m3 (ix2 j k) = ((if dOf j = dOf k then I.C2 (vOf j) (vOf k) else 0 : ℝ) : EReal)) (q : Fin 96) :
    out2_4 (F := Ideal) b0 b1 m2 m3 (ix2 p q) = ((out I n (dOf q) (vOf q) : ℝ) : EReal) := by
  rw [out2_4_eq, pay_eq]
  exact scaled_apply _ (fun d v => node I n d v) p (fun k => mid_apply I b0 b1 m2 m3 p n h0 h1 h2 h3 k) q

end Cert.KernelIdeal.NodeMix2Body
-- ==== Proof.RefNodeStage.lean ====
/-
  The reference's node-mixing stage and its two per-edge channel weights, read at an index.
  * `mixed_apply`: the blended node vector at `(n, d, v)` is `cos θ · x + sin θ · ((x M) ⊙ a) Mᵀ`, with
    `θ` the product of the constant one tenth and the angle parameter.
  * `w1_apply`, `w2_apply`: the channel weight at `(e, v)` is `silu (ea · w + b)`, where the program spells
    `silu t` as `t · (1 / (1 + e⁻ᵗ))`.
  Every input entry is assumed to be a finite real; the extended-real operations then agree with the real ones.
-/
import proofs.«407674_j57329223467239_3_alg».proof.Proof.Gen.ReferenceIdeal.Read
import proofs.«407674_j57329223467239_3_alg».proof.Proof.Spec
import Mathlib.Data.EReal.Basic
import Mathlib.Data.EReal.Operations

noncomputable section

namespace Cert.RefStages.Node

open Cert.ReferenceIdeal Cert.ReferenceIdeal.Read Cert.Spec Idealize.ShloMosaic Idealize.ShloMosaic.ValueIdx

/-- The pattern `0x3F800000` denotes the real number one. -/
theorem lit_one : Ideal.ofBits .f32 0x3F800000#32 = ((1 : ℝ) : EReal) := by
  simp [Ideal.ofBits, Ideal.ieee]
  norm_cast; norm_num

/-- The embedding of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- `t · (1 / (1 + e⁻ᵗ))` on a finite real `t` is `silu t`: the denominator is positive, so the quotient
    is the real one. -/
theorem silu_coe (t : ℝ) :
    (t : EReal) * Ideal.div (Ideal.ofBits .f32 0x3F800000#32)
        (Ideal.ofBits .f32 0x3F800000#32 + Ideal.exp (-(t : EReal))) = ((silu t : ℝ) : EReal) := by
  have hpos : (1 + Real.exp (-t)) ≠ 0 := by positivity
  rw [lit_one, ← EReal.coe_neg, Ideal.exp_coe, ← EReal.coe_add, Ideal.div_coe hpos, ← EReal.coe_mul, ← EReal.coe_mul]
  simp [silu]

variable (I : Inputs)
variable (x0 : (⟨S50000x3x32, .f32⟩ : BufTy).Contents (Elt Ideal))
  (x1 : (⟨S50000x32, .f32⟩ : BufTy).Contents (Elt Ideal))
  (x2 : (⟨S1000000, .f32⟩ : BufTy).Contents (Elt Ideal))
  (x5 : (⟨S32x32, .f32⟩ : BufTy).Contents (Elt Ideal))
  (x6 : (⟨S1, .f32⟩ : BufTy).Contents (Elt Ideal))
  (x7 x8 x9 x10 : (⟨S32, .f32⟩ : BufTy).Contents (Elt Ideal))

/-- The angle `θ`: the constant one tenth times the angle parameter. -/
theorem angle_apply (hθ : Ideal.ofBits .f32 0x3DCCCCCD#32 * x6 (ix1 0) = ((I.θ : ℝ) : EReal)) :
    val_main_v6 (F := Ideal) x6 (ix1 (0 : Fin 1)) = ((I.θ : ℝ) : EReal) := by
  rw [val_main_v6_apply, val_main_v5_apply, val_main_cst_apply]
  exact hθ

/-- The first mixing, `(x M)` at `(n, d, s)`: the sum over the channel `u` of `x n d u · M u s`. -/
theorem mixIn_apply (hx : ∀ n d v, x0 (ix3 n d v) = ((I.x n d v : ℝ) : EReal))
    (hM : ∀ u s, x5 (ix2 u s) = ((I.M u s : ℝ) : EReal)) (n : Fin 50000) (d : Fin 3) (s : Fin 32) :
    val_main_v0 (F := Ideal) x0 x5 (ix3 n d s) = ((∑ u : Fin 32, I.x n d u * I.M u s : ℝ) : EReal) := by
  rw [val_main_v0_apply, coe_sum]
  refine Finset.sum_congr rfl fun u _ => ?_
  have e1 : lidx_main_v0 (ix3 n d s) u = ix3 n d u :=
    funext fun a => match a with | ⟨0, _⟩ => rfl | ⟨1, _⟩ => rfl | ⟨2, _⟩ => rfl
  have e2 : ridx_main_v0 (ix3 n d s) u = ix2 u s :=
    funext fun a => match a with | ⟨0, _⟩ => rfl | ⟨1, _⟩ => rfl
  rw [e1, e2, hx, hM, EReal.coe_mul]

/-- The node attribute spread over the three components: `a n s` at `(n, d, s)`. -/
theorem attr_apply (ha : ∀ n s, x1 (ix2 n s) = ((I.a n s : ℝ) : EReal)) (n : Fin 50000) (d : Fin 3) (s : Fin 32) :
    val_main_v2 (F := Ideal) x1 (ix3 n d s) = ((I.a n s : ℝ) : EReal) := by
  have e : idx_main_v1 (idx_main_v2 (ix3 n d s)) = ix2 n s :=
    funext fun a => match a with | ⟨0, _⟩ => rfl | ⟨1, _⟩ => rfl
  rw [val_main_v2_apply, val_main_v1_apply, e, ha]

/-- The second mixing, `((x M) ⊙ a) Mᵀ` at `(n, d, v)`. -/
theorem mixOut_apply (hx : ∀ n d v, x0 (ix3 n d v) = ((I.x n d v : ℝ) : EReal))
    (ha : ∀ n s, x1 (ix2 n s) = ((I.a n s : ℝ) : EReal))
    (hM : ∀ u s, x5 (ix2 u s) = ((I.M u s : ℝ) : EReal)) (n : Fin 50000) (d : Fin 3) (v : Fin 32) :
    val_main_v4 (F := Ideal) x0 x1 x5 (ix3 n d v)
      = ((∑ s : Fin 32, ((∑ u : Fin 32, I.x n d u * I.M u s) * I.a n s) * I.M v s : ℝ) : EReal) := by
  rw [val_main_v4_apply, coe_sum]
  refine Finset.sum_congr rfl fun s _ => ?_
  have e1 : lidx_main_v4 (ix3 n d v) s = ix3 n d s :=
    funext fun a => match a with | ⟨0, _⟩ => rfl | ⟨1, _⟩ => rfl | ⟨2, _⟩ => rfl
  have e2 : ridx_main_v4 (ix3 n d v) s = ix2 v s :=
    funext fun a => match a with | ⟨0, _⟩ => rfl | ⟨1, _⟩ => rfl
  rw [e1, e2, val_main_v3_apply, mixIn_apply I x0 x5 hx hM, attr_apply I x1 ha, hM]
  simp only [Ideal.mulf_def, EReal.coe_mul]

/-- The blended node vector: `cos θ · x + sin θ · ((x M) ⊙ a) Mᵀ`. -/
theorem mixed_apply (hx : ∀ n d v, x0 (ix3 n d v) = ((I.x n d v : ℝ) : EReal))
    (ha : ∀ n s, x1 (ix2 n s) = ((I.a n s : ℝ) : EReal))
    (hM : ∀ u s, x5 (ix2 u s) = ((I.M u s : ℝ) : EReal))
    (hθ : Ideal.ofBits .f32 0x3DCCCCCD#32 * x6 (ix1 0) = ((I.θ : ℝ) : EReal))
    (n : Fin 50000) (d : Fin 3) (v : Fin 32) :
    val_main_v15 (F := Ideal) x0 x1 x5 x6 (ix3 n d v) = ((mixed I n d v : ℝ) : EReal) := by
  have ec : idx_main_v8 (idx_main_v9 (ix3 n d v)) = ix1 (0 : Fin 1) :=
    funext fun a => match a with | ⟨0, _⟩ => rfl
  have es : idx_main_v12 (idx_main_v13 (ix3 n d v)) = ix1 (0 : Fin 1) :=
    funext fun a => match a with | ⟨0, _⟩ => rfl
  rw [val_main_v15_apply, val_main_v10_apply, val_main_v9_apply, val_main_v8_apply, val_main_v7_apply, ec,
    val_main_v14_apply, val_main_v13_apply, val_main_v12_apply, val_main_v11_apply, es,
    angle_apply I x6 hθ, mixOut_apply I x0 x1 x5 hx ha hM, hx]
  simp only [Ideal.addf_def, Ideal.mulf_def, Ideal.hostUnary_cos_def, Ideal.hostUnary_sin_def, Ideal.cos_coe,
    Ideal.sin_coe]
  rw [← EReal.coe_mul, ← EReal.coe_mul, ← EReal.coe_add]
  rfl

/-- The first layer's pre-activation `ea · w + b` at `(e, v)`. -/
theorem pre1_apply (hea : ∀ e, x2 (ix1 e) = ((I.ea e : ℝ) : EReal))
    (h7 : ∀ v, x7 (ix1 v) = ((I.f1w v : ℝ) : EReal)) (h8 : ∀ v, x8 (ix1 v) = ((I.f1b v : ℝ) : EReal))
    (e : Fin 1000000) (v : Fin 32) :
    val_main_v23 (F := Ideal) x2 x7 x8 (ix2 e v) = ((I.ea e * I.f1w v + I.f1b v : ℝ) : EReal) := by
  have e1 : idx_main_v16 (idx_main_v18 (ix2 e v)) = ix1 e := funext fun a => match a with | ⟨0, _⟩ => rfl
  have e2 : idx_main_v17 (idx_main_v19 (ix2 e v)) = ix1 v := funext fun a => match a with | ⟨0, _⟩ => rfl
  have e3 : idx_main_v21 (idx_main_v22 (ix2 e v)) = ix1 v := funext fun a => match a with | ⟨0, _⟩ => rfl
  rw [val_main_v23_apply, val_main_v20_apply, val_main_v18_apply, val_main_v16_apply, e1, val_main_v19_apply,
    val_main_v17_apply, e2, val_main_v22_apply, val_main_v21_apply, e3, hea, h7, h8]
  simp only [Ideal.addf_def, Ideal.mulf_def, EReal.coe_add, EReal.coe_mul]

/-- The first channel weight: `silu (ea · w + b)`. -/
theorem w1_apply (hea : ∀ e, x2 (ix1 e) = ((I.ea e : ℝ) : EReal))
    (h7 : ∀ v, x7 (ix1 v) = ((I.f1w v : ℝ) : EReal)) (h8 : ∀ v, x8 (ix1 v) = ((I.f1b v : ℝ) : EReal))
    (e : Fin 1000000) (v : Fin 32) :
    val_main_v24 (F := Ideal) x2 x7 x8 (ix2 e v) = ((w1 I e v : ℝ) : EReal) := by
  rw [val_main_v24_apply, val_main_call0_v5_apply, val_main_call0_v4_apply, val_main_call0_cst_0_apply,
    val_main_call0_v3_apply, val_main_call0_v2_apply, val_main_call0_cst_apply, val_main_call0_v1_apply,
    val_main_call0_v0_apply, pre1_apply I x2 x7 x8 hea h7 h8]
  simp only [Ideal.mulf_def, Ideal.hostDivf_def, Ideal.addf_def, Ideal.hostUnary_exp_def, Ideal.hostNegf_def,
    Ideal.negf_def, Ideal.ofBits_def]
  exact silu_coe _

/-- The second layer's pre-activation `ea · w + b` at `(e, v)`. -/
theorem pre2_apply (hea : ∀ e, x2 (ix1 e) = ((I.ea e : ℝ) : EReal))
    (h9 : ∀ v, x9 (ix1 v) = ((I.f2w v : ℝ) : EReal)) (h10 : ∀ v, x10 (ix1 v) = ((I.f2b v : ℝ) : EReal))
    (e : Fin 1000000) (v : Fin 32) :
    val_main_v65 (F := Ideal) x2 x9 x10 (ix2 e v) = ((I.ea e * I.f2w v + I.f2b v : ℝ) : EReal) := by
  have e1 : idx_main_v58 (idx_main_v60 (ix2 e v)) = ix1 e := funext fun a => match a with | ⟨0, _⟩ => rfl
  have e2 : idx_main_v59 (idx_main_v61 (ix2 e v)) = ix1 v := funext fun a => match a with | ⟨0, _⟩ => rfl
  have e3 : idx_main_v63 (idx_main_v64 (ix2 e v)) = ix1 v := funext fun a => match a with | ⟨0, _⟩ => rfl
  rw [val_main_v65_apply, val_main_v62_apply, val_main_v60_apply, val_main_v58_apply, e1, val_main_v61_apply,
    val_main_v59_apply, e2, val_main_v64_apply, val_main_v63_apply, e3, hea, h9, h10]
  simp only [Ideal.addf_def, Ideal.mulf_def, EReal.coe_add, EReal.coe_mul]

/-- The second channel weight: `silu (ea · w + b)`. -/
theorem w2_apply (hea : ∀ e, x2 (ix1 e) = ((I.ea e : ℝ) : EReal))
    (h9 : ∀ v, x9 (ix1 v) = ((I.f2w v : ℝ) : EReal)) (h10 : ∀ v, x10 (ix1 v) = ((I.f2b v : ℝ) : EReal))
    (e : Fin 1000000) (v : Fin 32) :
    val_main_v66 (F := Ideal) x2 x9 x10 (ix2 e v) = ((w2 I e v : ℝ) : EReal) := by
  rw [val_main_v66_apply, val_main_call1_v5_apply, val_main_call1_v4_apply, val_main_call1_cst_0_apply,
    val_main_call1_v3_apply, val_main_call1_v2_apply, val_main_call1_cst_apply, val_main_call1_v1_apply,
    val_main_call1_v0_apply, pre2_apply I x2 x9 x10 hea h9 h10]
  simp only [Ideal.mulf_def, Ideal.hostDivf_def, Ideal.addf_def, Ideal.hostUnary_exp_def, Ideal.hostNegf_def,
    Ideal.negf_def, Ideal.ofBits_def]
  exact silu_coe _

end Cert.RefStages.Node

end
-- ==== Proof.RefEdgeStage.lean ====
/-
  The reference's edge stage at the ideal instance, entry by entry.
  * The two gathers read the mixed node vectors at each edge's source and destination node: a start index that is a
    node number is neither wrapped (it is not negative) nor clamped (it is below the node count), and the offset axes
    carry the component and the channel unchanged.
  * The weighted difference and half-sum of the two end nodes' vectors, their mixes through `A1` and `A2`, the
    halving, the mix through `(B1 + B2) / 2` and the weighting by the second per-edge weight are the real numbers
    `grad`, `ave`, `edge`, `wedge` of the specification: sums and products of finite reals stay finite reals,
    and a division by the literal two is a multiplication by one half.
-/
import proofs.«407674_j57329223467239_3_alg».proof.Proof.Gen.ReferenceIdeal.Read
import proofs.«407674_j57329223467239_3_alg».proof.Proof.Spec

noncomputable section

namespace Cert.RefStages.Edge

open Cert.ReferenceIdeal Cert.ReferenceIdeal.Gen Cert.ReferenceIdeal.Read Cert.Spec Idealize.ShloMosaic
  Idealize.ShloMosaic.ValueIdx

/-! ## The gather's operand index -/

/-- The gather's dimension numbers: operand `[50000, 3, 32]`, start indices `[1000000, 1]`, the node axis collapsed,
    the component and channel axes offset axes. -/
abbrev G := gather_S50000x3x32_S1000000x1_S1000000x3x32_12_0_n_n_0_1_1332

/-- On the node axis the operand index is the start index read signed and clamped into `[0, 49999]`. -/
theorem operandIdx_node (e : Fin 1000000) (d : Fin 3) (v : Fin 32) (idx : IVec S1000000x1 32) :
    (G.operandIdx (ix3 e d v) idx 0).val = min (idx (ix2 e 0)).toInt.toNat 49999 := by
  show G.start (ix3 e d v) idx 0 + G.batchCoord (ix3 e d v) 0 + G.offCoord (ix3 e d v) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G.startIndexMap from List.mem_singleton.mpr rfl)]
  have hsi : G.siIdx (ix3 e d v) ⟨List.idxOf (0 : Fin 3) G.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the component axis the operand index is the result's component. -/
theorem operandIdx_comp (e : Fin 1000000) (d : Fin 3) (v : Fin 32) (idx : IVec S1000000x1 32) :
    (G.operandIdx (ix3 e d v) idx 1).val = d.val := by
  show G.start (ix3 e d v) idx 1 + G.batchCoord (ix3 e d v) 1 + G.offCoord (ix3 e d v) 1 = _
  rw [GatherDims.batchCoord_eq_zero _ _ _ List.not_mem_nil]
  unfold GatherDims.start GatherDims.offCoord
  rw [dif_neg (show ¬ (1 : Fin 3) ∈ G.startIndexMap by decide), dif_pos (show (1 : Fin 3) ∈ G.sKept by decide)]
  have key : ∀ q : Fin 3, q = 1 → 0 + 0 + (ix3 e d v q).val = d.val := by rintro _ rfl; exact Nat.zero_add _
  exact key _ (by decide)

/-- On the channel axis the operand index is the result's channel. -/
theorem operandIdx_chan (e : Fin 1000000) (d : Fin 3) (v : Fin 32) (idx : IVec S1000000x1 32) :
    (G.operandIdx (ix3 e d v) idx 2).val = v.val := by
  show G.start (ix3 e d v) idx 2 + G.batchCoord (ix3 e d v) 2 + G.offCoord (ix3 e d v) 2 = _
  rw [GatherDims.batchCoord_eq_zero _ _ _ List.not_mem_nil]
  unfold GatherDims.start GatherDims.offCoord
  rw [dif_neg (show ¬ (2 : Fin 3) ∈ G.startIndexMap by decide), dif_pos (show (2 : Fin 3) ∈ G.sKept by decide)]
  have key : ∀ q : Fin 3, q = 2 → 0 + 0 + (ix3 e d v q).val = v.val := by rintro _ rfl; exact Nat.zero_add _
  exact key _ (by decide)

/-- The gather at `(e, d, v)` with a start index that is the node number `n`: the operand at `(n, d, v)`. -/
theorem gather_read {α : Type} (x : S50000x3x32.Idx → α) (idx : IVec S1000000x1 32)
    (e : Fin 1000000) (d : Fin 3) (v : Fin 32) (n : Fin 50000)
    (h : (idx (ix2 e 0)).toInt = (n.val : ℤ)) :
    Host.gather G x idx (ix3 e d v) = x (ix3 n d v) := by
  unfold Host.gather
  congr 1
  funext a; refine Fin.ext ?_
  match a with
  | ⟨0, _⟩ =>
    refine (operandIdx_node e d v idx).trans ?_
    rw [h, Int.toNat_natCast]
    have := n.isLt
    show min n.val 49999 = n.val
    omega
  | ⟨1, _⟩ => exact operandIdx_comp e d v idx
  | ⟨2, _⟩ => exact operandIdx_chan e d v idx

/-- An index that is not negative is left as it is by the wrap `i < 0 ? i + 50000 : i`. -/
theorem wrap_nonneg (b : BitVec 32) (h : 0 ≤ b.toInt) :
    Scalar.select (IntOp.cmpi .slt b 0#32) (IntOp.addi b 50000#32) b = b := by
  have h0 : b.slt 0#32 = false := by
    unfold BitVec.slt
    rw [decide_eq_false_iff_not]
    have : (0#32 : BitVec 32).toInt = 0 := by decide
    omega
  have : IntOp.cmpi .slt b 0#32 = 0#1 := by
    show BitVec.ofBool (b.slt 0#32) = 0#1
    rw [h0]; rfl
  rw [this]; exact select_zero _ _

/-! ## Extended reals that are reals -/

/-- The f32 pattern `0x40000000` is the real two. -/
theorem ofBits_two : Ideal.ofBits .f32 0x40000000#32 = ((2 : ℝ) : EReal) := by
  simp [Ideal.ofBits, Ideal.ieee, -EReal.coe_mul]; norm_num

/-- A finite sum of reals, read as an extended real, is the sum of the extended reals. -/
theorem coe_sum32 (f : Fin 32 → ℝ) : ((∑ k : Fin 32, f k : ℝ) : EReal) = ∑ k : Fin 32, ((f k : ℝ) : EReal) := by
  induction (Finset.univ : Finset (Fin 32)) using Finset.induction_on with
  | empty => simp
  | insert a s ha ih => rw [Finset.sum_insert ha, Finset.sum_insert ha, EReal.coe_add, ih]

/-- Halving a real, as the extended-real division by two. -/
theorem div_two (x : ℝ) : Ideal.div ((x : ℝ) : EReal) ((2 : ℝ) : EReal) = ((x / 2 : ℝ) : EReal) := by
  rw [Ideal.div_coe (by norm_num : (2 : ℝ) ≠ 0), ← EReal.coe_mul]
  congr 1; ring

/-! ## The reference's values -/

section
variable (I : Inputs)
variable (x0 : (⟨S50000x3x32, .f32⟩ : BufTy).Contents (Elt Ideal)) (x1 : (⟨S50000x32, .f32⟩ : BufTy).Contents (Elt Ideal))
  (x2 : (⟨S1000000, .f32⟩ : BufTy).Contents (Elt Ideal)) (x3 x4 : (⟨S1000000, .i32⟩ : BufTy).Contents (Elt Ideal))
  (x5 : (⟨S32x32, .f32⟩ : BufTy).Contents (Elt Ideal)) (x6 : (⟨S1, .f32⟩ : BufTy).Contents (Elt Ideal))
  (x7 x8 x9 x10 : (⟨S32, .f32⟩ : BufTy).Contents (Elt Ideal))
  (x11 x12 x13 x14 : (⟨S32x32, .f32⟩ : BufTy).Contents (Elt Ideal))

/-- The wrapped start indices of the first gather are the source indices themselves where those are not negative. -/
theorem wrapped_src (e : Fin 1000000) (h : 0 ≤ (x3 (ix1 e)).toInt) :
    val_main_v30 (F := Ideal) x3 (ix2 e 0) = x3 (ix1 e) := by
  have hi : idx_main_v30 (ix2 e (0 : Fin 1)) = ix1 e := funext fun a => Fin.ext (by match a with | ⟨0, _⟩ => rfl)
  rw [val_main_v30_apply, hi, val_main_v29_apply, val_main_v26_apply, val_main_v28_apply, val_main_v25_apply,
    val_main_v27_apply, val_main_c_apply, val_main_c_0_apply]
  exact wrap_nonneg _ h

/-- The wrapped start indices of the second gather are the destination indices themselves where those are not negative. -/
theorem wrapped_dst (e : Fin 1000000) (h : 0 ≤ (x4 (ix1 e)).toInt) :
    val_main_v37 (F := Ideal) x4 (ix2 e 0) = x4 (ix1 e) := by
  have hi : idx_main_v37 (ix2 e (0 : Fin 1)) = ix1 e := funext fun a => Fin.ext (by match a with | ⟨0, _⟩ => rfl)
  rw [val_main_v37_apply, hi, val_main_v36_apply, val_main_v33_apply, val_main_v35_apply, val_main_v32_apply,
    val_main_v34_apply, val_main_c_1_apply, val_main_c_2_apply]
  exact wrap_nonneg _ h

/-- The first gather: the mixed vector of the edge's source node. -/
theorem gather_src (hsrc : ∀ e, (x3 (ix1 e)).toInt = ((I.src e).val : ℤ))
    (hmixed : ∀ n d v, val_main_v15 (F := Ideal) x0 x1 x5 x6 (ix3 n d v) = ((mixed I n d v : ℝ) : EReal))
    (e : Fin 1000000) (d : Fin 3) (v : Fin 32) :
    val_main_v31 (F := Ideal) x0 x1 x3 x5 x6 (ix3 e d v) = ((mixed I (I.src e) d v : ℝ) : EReal) := by
  have hw : (val_main_v30 (F := Ideal) x3 (ix2 e 0)).toInt = ((I.src e).val : ℤ) := by
    rw [wrapped_src x3 e (by rw [hsrc]; exact Int.natCast_nonneg _)]; exact hsrc e
  unfold val_main_v31
  exact (gather_read (val_main_v15 (F := Ideal) x0 x1 x5 x6) (val_main_v30 (F := Ideal) x3) e d v (I.src e) hw).trans
    (hmixed _ d v)

/-- The second gather: the mixed vector of the edge's destination node. -/
theorem gather_dst (hdst : ∀ e, (x4 (ix1 e)).toInt = ((I.dst e).val : ℤ))
    (hmixed : ∀ n d v, val_main_v15 (F := Ideal) x0 x1 x5 x6 (ix3 n d v) = ((mixed I n d v : ℝ) : EReal))
    (e : Fin 1000000) (d : Fin 3) (v : Fin 32) :
    val_main_v38 (F := Ideal) x0 x1 x4 x5 x6 (ix3 e d v) = ((mixed I (I.dst e) d v : ℝ) : EReal) := by
  have hw : (val_main_v37 (F := Ideal) x4 (ix2 e 0)).toInt = ((I.dst e).val : ℤ) := by
    rw [wrapped_dst x4 e (by rw [hdst]; exact Int.natCast_nonneg _)]; exact hdst e
  unfold val_main_v38
  exact (gather_read (val_main_v15 (F := Ideal) x0 x1 x5 x6) (val_main_v37 (F := Ideal) x4) e d v (I.dst e) hw).trans
    (hmixed _ d v)

/-- The weighted difference of the two end nodes' vectors. -/
theorem grad_apply (hsrc : ∀ e, (x3 (ix1 e)).toInt = ((I.src e).val : ℤ))
    (hdst : ∀ e, (x4 (ix1 e)).toInt = ((I.dst e).val : ℤ))
    (hmixed : ∀ n d v, val_main_v15 (F := Ideal) x0 x1 x5 x6 (ix3 n d v) = ((mixed I n d v : ℝ) : EReal))
    (hw1 : ∀ e v, val_main_v24 (F := Ideal) x2 x7 x8 (ix2 e v) = ((w1 I e v : ℝ) : EReal))
    (e : Fin 1000000) (d : Fin 3) (v : Fin 32) :
    val_main_v42 (F := Ideal) x0 x1 x2 x3 x4 x5 x6 x7 x8 (ix3 e d v) = ((grad I e d v : ℝ) : EReal) := by
  have h41 : idx_main_v41 (ix3 e d v) = ix3 e (0 : Fin 1) v := funext fun a => Fin.ext (by match a with | ⟨0, _⟩ => rfl | ⟨1, _⟩ => rfl | ⟨2, _⟩ => rfl)
  have h39 : idx_main_v39 (ix3 e (0 : Fin 1) v) = ix2 e v := funext fun a => Fin.ext (by match a with | ⟨0, _⟩ => rfl | ⟨1, _⟩ => rfl)
  rw [val_main_v42_apply, val_main_v41_apply, h41, val_main_v39_apply, h39, val_main_v40_apply, hw1,
    gather_src I x0 x1 x3 x5 x6 hsrc hmixed, gather_dst I x0 x1 x4 x5 x6 hdst hmixed]
  simp only [Ideal.mulf_def, Ideal.subf_def]
  rw [← EReal.coe_sub, ← EReal.coe_mul]
  rfl

/-- The weighted half-sum of the two end nodes' vectors. -/
theorem ave_apply (hsrc : ∀ e, (x3 (ix1 e)).toInt = ((I.src e).val : ℤ))
    (hdst : ∀ e, (x4 (ix1 e)).toInt = ((I.dst e).val : ℤ))
    (hmixed : ∀ n d v, val_main_v15 (F := Ideal) x0 x1 x5 x6 (ix3 n d v) = ((mixed I n d v : ℝ) : EReal))
    (hw1 : ∀ e v, val_main_v24 (F := Ideal) x2 x7 x8 (ix2 e v) = ((w1 I e v : ℝ) : EReal))
    (e : Fin 1000000) (d : Fin 3) (v : Fin 32) :
    val_main_v48 (F := Ideal) x0 x1 x2 x3 x4 x5 x6 x7 x8 (ix3 e d v) = ((ave I e d v : ℝ) : EReal) := by
  have h45 : idx_main_v45 (ix3 e d v) = ix3 e (0 : Fin 1) v := funext fun a => Fin.ext (by match a with | ⟨0, _⟩ => rfl | ⟨1, _⟩ => rfl | ⟨2, _⟩ => rfl)
  have h43 : idx_main_v43 (ix3 e (0 : Fin 1) v) = ix2 e v := funext fun a => Fin.ext (by match a with | ⟨0, _⟩ => rfl | ⟨1, _⟩ => rfl)
  rw [val_main_v48_apply, val_main_v46_apply, val_main_v45_apply, h45, val_main_v43_apply, h43, val_main_v44_apply,
    val_main_v47_apply, val_main_cst_3_apply, hw1,
    gather_src I x0 x1 x3 x5 x6 hsrc hmixed, gather_dst I x0 x1 x4 x5 x6 hdst hmixed]
  simp only [Ideal.mulf_def, Ideal.addf_def, Ideal.hostDivf_def, Ideal.ofBits_def]
  rw [ofBits_two, ← EReal.coe_add, ← EReal.coe_mul, div_two]
  rfl

/-- The two mixes of the edge vectors through `A1` and `A2`, added and halved. -/
theorem premix_apply (hsrc : ∀ e, (x3 (ix1 e)).toInt = ((I.src e).val : ℤ))
    (hdst : ∀ e, (x4 (ix1 e)).toInt = ((I.dst e).val : ℤ))
    (hmixed : ∀ n d v, val_main_v15 (F := Ideal) x0 x1 x5 x6 (ix3 n d v) = ((mixed I n d v : ℝ) : EReal))
    (hw1 : ∀ e v, val_main_v24 (F := Ideal) x2 x7 x8 (ix2 e v) = ((w1 I e v : ℝ) : EReal))
    (h11 : ∀ u s, x11 (ix2 u s) = ((I.A1 u s : ℝ) : EReal)) (h12 : ∀ u s, x12 (ix2 u s) = ((I.A2 u s : ℝ) : EReal))
    (e : Fin 1000000) (d : Fin 3) (u : Fin 32) :
    val_main_v53 (F := Ideal) x0 x1 x2 x3 x4 x5 x6 x7 x8 x11 x12 (ix3 e d u)
      = (((∑ v : Fin 32, grad I e d v * I.A1 v u + ∑ v : Fin 32, ave I e d v * I.A2 v u) / 2 : ℝ) : EReal) := by
  have h49 : val_main_v49 (F := Ideal) x0 x1 x2 x3 x4 x5 x6 x7 x8 x11 (ix3 e d u)
      = ((∑ v : Fin 32, grad I e d v * I.A1 v u : ℝ) : EReal) := by
    rw [val_main_v49_apply, coe_sum32]
    refine Finset.sum_congr rfl fun k _ => ?_
    have hl : lidx_main_v49 (ix3 e d u) k = ix3 e d k := funext fun a => Fin.ext (by match a with | ⟨0, _⟩ => rfl | ⟨1, _⟩ => rfl | ⟨2, _⟩ => rfl)
    have hr : ridx_main_v49 (ix3 e d u) k = ix2 k u := funext fun a => Fin.ext (by match a with | ⟨0, _⟩ => rfl | ⟨1, _⟩ => rfl)
    rw [hl, hr, grad_apply I x0 x1 x2 x3 x4 x5 x6 x7 x8 hsrc hdst hmixed hw1, h11, EReal.coe_mul]
  have h50 : val_main_v50 (F := Ideal) x0 x1 x2 x3 x4 x5 x6 x7 x8 x12 (ix3 e d u)
      = ((∑ v : Fin 32, ave I e d v * I.A2 v u : ℝ) : EReal) := by
    rw [val_main_v50_apply, coe_sum32]
    refine Finset.sum_congr rfl fun k _ => ?_
    have hl : lidx_main_v50 (ix3 e d u) k = ix3 e d k := funext fun a => Fin.ext (by match a with | ⟨0, _⟩ => rfl | ⟨1, _⟩ => rfl | ⟨2, _⟩ => rfl)
    have hr : ridx_main_v50 (ix3 e d u) k = ix2 k u := funext fun a => Fin.ext (by match a with | ⟨0, _⟩ => rfl | ⟨1, _⟩ => rfl)
    rw [hl, hr, ave_apply I x0 x1 x2 x3 x4 x5 x6 x7 x8 hsrc hdst hmixed hw1, h12, EReal.coe_mul]
  rw [val_main_v53_apply, val_main_v51_apply, val_main_v52_apply, val_main_cst_4_apply, h49, h50]
  simp only [Ideal.addf_def, Ideal.hostDivf_def, Ideal.ofBits_def]
  rw [ofBits_two, ← EReal.coe_add, div_two]

/-- The half-sum of `B1` and `B2`. -/
theorem vv_apply (h13 : ∀ u s, x13 (ix2 u s) = ((I.B1 u s : ℝ) : EReal))
    (h14 : ∀ u s, x14 (ix2 u s) = ((I.B2 u s : ℝ) : EReal)) (u w : Fin 32) :
    val_main_v56 (F := Ideal) x13 x14 (ix2 u w) = ((vv I u w : ℝ) : EReal) := by
  rw [val_main_v56_apply, val_main_v54_apply, val_main_v55_apply, val_main_cst_5_apply, h13, h14]
  simp only [Ideal.addf_def, Ideal.hostDivf_def, Ideal.ofBits_def]
  rw [ofBits_two, ← EReal.coe_add, div_two]
  rfl

/-- The edge vector: the halved mixes, mixed through `(B1 + B2) / 2`. -/
theorem edge_apply (hsrc : ∀ e, (x3 (ix1 e)).toInt = ((I.src e).val : ℤ))
    (hdst : ∀ e, (x4 (ix1 e)).toInt = ((I.dst e).val : ℤ))
    (hmixed : ∀ n d v, val_main_v15 (F := Ideal) x0 x1 x5 x6 (ix3 n d v) = ((mixed I n d v : ℝ) : EReal))
    (hw1 : ∀ e v, val_main_v24 (F := Ideal) x2 x7 x8 (ix2 e v) = ((w1 I e v : ℝ) : EReal))
    (h11 : ∀ u s, x11 (ix2 u s) = ((I.A1 u s : ℝ) : EReal)) (h12 : ∀ u s, x12 (ix2 u s) = ((I.A2 u s : ℝ) : EReal))
    (h13 : ∀ u s, x13 (ix2 u s) = ((I.B1 u s : ℝ) : EReal)) (h14 : ∀ u s, x14 (ix2 u s) = ((I.B2 u s : ℝ) : EReal))
    (e : Fin 1000000) (d : Fin 3) (w : Fin 32) :
    val_main_v57 (F := Ideal) x0 x1 x2 x3 x4 x5 x6 x7 x8 x11 x12 x13 x14 (ix3 e d w) = ((edge I e d w : ℝ) : EReal) := by
  unfold edge
  rw [val_main_v57_apply, coe_sum32]
  refine Finset.sum_congr rfl fun k _ => ?_
  have hl : lidx_main_v57 (ix3 e d w) k = ix3 e d k := funext fun a => Fin.ext (by match a with | ⟨0, _⟩ => rfl | ⟨1, _⟩ => rfl | ⟨2, _⟩ => rfl)
  have hr : ridx_main_v57 (ix3 e d w) k = ix2 k w := funext fun a => Fin.ext (by match a with | ⟨0, _⟩ => rfl | ⟨1, _⟩ => rfl)
  rw [hl, hr, premix_apply I x0 x1 x2 x3 x4 x5 x6 x7 x8 x11 x12 hsrc hdst hmixed hw1 h11 h12,
    vv_apply I x13 x14 h13 h14, EReal.coe_mul]

/-- The weighted edge vector. -/
theorem wedge_apply (hsrc : ∀ e, (x3 (ix1 e)).toInt = ((I.src e).val : ℤ))
    (hdst : ∀ e, (x4 (ix1 e)).toInt = ((I.dst e).val : ℤ))
    (hmixed : ∀ n d v, val_main_v15 (F := Ideal) x0 x1 x5 x6 (ix3 n d v) = ((mixed I n d v : ℝ) : EReal))
    (hw1 : ∀ e v, val_main_v24 (F := Ideal) x2 x7 x8 (ix2 e v) = ((w1 I e v : ℝ) : EReal))
    (hw2 : ∀ e v, val_main_v66 (F := Ideal) x2 x9 x10 (ix2 e v) = ((w2 I e v : ℝ) : EReal))
    (h11 : ∀ u s, x11 (ix2 u s) = ((I.A1 u s : ℝ) : EReal)) (h12 : ∀ u s, x12 (ix2 u s) = ((I.A2 u s : ℝ) : EReal))
    (h13 : ∀ u s, x13 (ix2 u s) = ((I.B1 u s : ℝ) : EReal)) (h14 : ∀ u s, x14 (ix2 u s) = ((I.B2 u s : ℝ) : EReal))
    (e : Fin 1000000) (d : Fin 3) (w : Fin 32) :
    val_main_v69 (F := Ideal) x0 x1 x2 x3 x4 x5 x6 x7 x8 x9 x10 x11 x12 x13 x14 (ix3 e d w)
      = ((wedge I e d w : ℝ) : EReal) := by
  have h68 : idx_main_v68 (ix3 e d w) = ix3 e (0 : Fin 1) w := funext fun a => Fin.ext (by match a with | ⟨0, _⟩ => rfl | ⟨1, _⟩ => rfl | ⟨2, _⟩ => rfl)
  have h67 : idx_main_v67 (ix3 e (0 : Fin 1) w) = ix2 e w := funext fun a => Fin.ext (by match a with | ⟨0, _⟩ => rfl | ⟨1, _⟩ => rfl)
  rw [val_main_v69_apply, val_main_v68_apply, h68, val_main_v67_apply, h67, hw2,
    edge_apply I x0 x1 x2 x3 x4 x5 x6 x7 x8 x11 x12 x13 x14 hsrc hdst hmixed hw1 h11 h12 h13 h14]
  simp only [Ideal.mulf_def]
  rw [← EReal.coe_mul]
  rfl

end

end Cert.RefStages.Edge

end
-- ==== Proof.RefOutStage.lean ====
/-
  The reference's last stage read index by index, over the reals.
  * The accumulating scatter: an update at edge `e`, component `d`, channel `w` lands at the node its index word
    names, same component and channel; so the scattered array at `(n, d, w)` is the zero array's entry plus the sum of
    the edge values over the edges whose word is `n` (the sum over the update indices split by coordinates).
  * `toDst`, `toSrc`: that scatter by the destination, resp. source, words.
  * `node`: `((toDst − toSrc) C1 + (toDst + toSrc) C2) / 2`, the two contractions read as sums over the channel.
  * `out`: the node vector times `tanh` of the square root of its sum of squares over the three components.
-/
import proofs.«407674_j57329223467239_3_alg».proof.Proof.Gen.ReferenceIdeal.Read
import proofs.«407674_j57329223467239_3_alg».proof.Proof.Spec

noncomputable section

namespace Cert.RefStages.Out

open Cert.ReferenceIdeal Cert.ReferenceIdeal.Gen Idealize.ShloMosaic Idealize.ShloMosaic.ValueIdx

/-- The scatter's dimension numbers: the update's axes 1 and 2 are window axes onto the operand's axes 1 and 2; the
    operand's axis 0 is indexed by the one component of the index vector (axis 1 of the index array). -/
abbrev SD : ScatterDims S50000x3x32 S1000000x1 S1000000x3x32 := scatter_S50000x3x32_S1000000x1_S1000000x3x32_12_0_0_1

/-- The index array is read at the update's edge coordinate. -/
theorem siIdx_0 (j : S1000000x3x32.Idx) (c : Fin SD.scatterDimsToOperandDims.length) :
    (SD.siIdx j c 0).val = (j 0).val := rfl

/-- On the node axis the window starts at the index word, read signed. -/
theorem start_0 {w : Nat} (j : S1000000x3x32.Idx) (idx : IVec S1000000x1 w) :
    SD.start j idx 0 = (idx (SD.siIdx j ⟨0, by decide⟩)).toInt := by
  unfold ScatterDims.start
  rw [dif_pos (show (0 : Fin S50000x3x32.rank) ∈ SD.scatterDimsToOperandDims by decide)]
  rfl

/-- On the component axis the window starts at zero. -/
theorem start_1 {w : Nat} (j : S1000000x3x32.Idx) (idx : IVec S1000000x1 w) :
    SD.start j idx 1 = 0 := by
  unfold ScatterDims.start
  rw [dif_neg (show ¬ (1 : Fin S50000x3x32.rank) ∈ SD.scatterDimsToOperandDims by decide)]

/-- On the channel axis the window starts at zero. -/
theorem start_2 {w : Nat} (j : S1000000x3x32.Idx) (idx : IVec S1000000x1 w) :
    SD.start j idx 2 = 0 := by
  unfold ScatterDims.start
  rw [dif_neg (show ¬ (2 : Fin S50000x3x32.rank) ∈ SD.scatterDimsToOperandDims by decide)]

/-- The node axis is an inserted axis: its window coordinate is zero. -/
theorem window_0 (j : S1000000x3x32.Idx) : SD.window j 0 = 0 := by
  unfold ScatterDims.window
  rw [dif_neg (show ¬ (0 : Fin S50000x3x32.rank) ∈ SD.sKept by decide)]

/-- The window coordinate on the component axis is the update's component. -/
theorem window_1 (j : S1000000x3x32.Idx) : SD.window j 1 = (j 1).val := by
  unfold ScatterDims.window
  rw [dif_pos (show (1 : Fin S50000x3x32.rank) ∈ SD.sKept by decide)]
  rfl

/-- The window coordinate on the channel axis is the update's channel. -/
theorem window_2 (j : S1000000x3x32.Idx) : SD.window j 2 = (j 2).val := by
  unfold ScatterDims.window
  rw [dif_pos (show (2 : Fin S50000x3x32.rank) ∈ SD.sKept by decide)]
  rfl

/-- An update at edge `e`, component `d'`, channel `w'` lands at node `tgt e`, same component and channel,
    when the index array holds `tgt e` at edge `e` (a node number, so the landing place is inside the operand). -/
theorem resultIdx_ix3 (idx : IVec S1000000x1 32) (tgt : Fin 1000000 → Fin 50000)
    (hidx : ∀ (e : Fin 1000000) (i : S1000000x1.Idx), (i 0).val = e.val → (idx i).toInt = ((tgt e).val : ℤ))
    (e : Fin 1000000) (d' : Fin 3) (w' : Fin 32) :
    SD.resultIdx? (ix3 e d' w') idx = some (ix3 (tgt e) d' w') := by
  have hs0 : SD.start (ix3 e d' w') idx 0 = ((tgt e).val : ℤ) := by
    rw [start_0]; exact hidx e _ (siIdx_0 _ _)
  have ht := (tgt e).isLt
  have hd := d'.isLt
  have hw := w'.isLt
  have H : ∀ a, 0 ≤ SD.start (ix3 e d' w') idx a + SD.window (ix3 e d' w') a ∧
      SD.start (ix3 e d' w') idx a + SD.window (ix3 e d' w') a < S50000x3x32.size a := by
    intro a
    match a with
    | ⟨0, _⟩ =>
      show 0 ≤ SD.start (ix3 e d' w') idx 0 + SD.window (ix3 e d' w') 0 ∧
        SD.start (ix3 e d' w') idx 0 + SD.window (ix3 e d' w') 0 < ((50000 : ℕ) : ℤ)
      rw [hs0, window_0]; omega
    | ⟨1, _⟩ =>
      show 0 ≤ SD.start (ix3 e d' w') idx 1 + SD.window (ix3 e d' w') 1 ∧
        SD.start (ix3 e d' w') idx 1 + SD.window (ix3 e d' w') 1 < ((3 : ℕ) : ℤ)
      rw [start_1, window_1]; show 0 ≤ (0 : ℤ) + (d'.val : ℤ) ∧ (0 : ℤ) + (d'.val : ℤ) < ((3 : ℕ) : ℤ); omega
    | ⟨2, _⟩ =>
      show 0 ≤ SD.start (ix3 e d' w') idx 2 + SD.window (ix3 e d' w') 2 ∧
        SD.start (ix3 e d' w') idx 2 + SD.window (ix3 e d' w') 2 < ((32 : ℕ) : ℤ)
      rw [start_2, window_2]; show 0 ≤ (0 : ℤ) + (w'.val : ℤ) ∧ (0 : ℤ) + (w'.val : ℤ) < ((32 : ℕ) : ℤ); omega
  unfold ScatterDims.resultIdx?
  rw [dif_pos H]
  refine congrArg some (funext fun a => ?_)
  match a with
  | ⟨0, _⟩ =>
    refine Fin.ext ?_
    show (SD.start (ix3 e d' w') idx 0 + SD.window (ix3 e d' w') 0).toNat = (tgt e).val
    rw [hs0, window_0]; omega
  | ⟨1, _⟩ =>
    refine Fin.ext ?_
    show (SD.start (ix3 e d' w') idx 1 + SD.window (ix3 e d' w') 1).toNat = d'.val
    rw [start_1, window_1]; show ((0 : ℤ) + (d'.val : ℤ)).toNat = d'.val; omega
  | ⟨2, _⟩ =>
    refine Fin.ext ?_
    show (SD.start (ix3 e d' w') idx 2 + SD.window (ix3 e d' w') 2).toNat = w'.val
    rw [start_2, window_2]; show ((0 : ℤ) + (w'.val : ℤ)).toNat = w'.val; omega

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- Two rank-3 indices are equal exactly when their coordinates are. -/
theorem ix3_inj {n0 n1 n2 : Nat} (a a' : Fin n0) (b b' : Fin n1) (c c' : Fin n2) :
    (ix3 a b c = ix3 a' b' c') ↔ (a = a' ∧ b = b' ∧ c = c') := by
  have h : ix3 a b c = ix3 a' b' c' ↔ (a, b, c) = (a', b', c') :=
    (idxEquiv3 (n0 := n0) (n1 := n1) (n2 := n2)).symm.injective.eq_iff (a := (a, b, c)) (b := (a', b', c'))
  rw [h]; simp only [Prod.mk.injEq]

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The accumulating scatter of real edge values `g` into a zero array, read at node `n`: the sum of `g` over the
    edges whose index word is `n`. -/
theorem scatter_sum (idx : IVec S1000000x1 32) (tgt : Fin 1000000 → Fin 50000)
    (hidx : ∀ (e : Fin 1000000) (i : S1000000x1.Idx), (i 0).val = e.val → (idx i).toInt = ((tgt e).val : ℤ))
    (x : FVec Ideal S50000x3x32 .f32) (hx : ∀ i, x i = 0)
    (upd : FVec Ideal S1000000x3x32 .f32) (g : Fin 1000000 → Fin 3 → Fin 32 → ℝ)
    (hupd : ∀ e d w, upd (ix3 e d w) = ((g e d w : ℝ) : EReal))
    (n : Fin 50000) (d : Fin 3) (w : Fin 32) :
    Host.scatterAdd (F := Ideal) SD x idx upd (ix3 n d w)
      = ((∑ e ∈ Finset.univ.filter (fun e => tgt e = n), g e d w : ℝ) : EReal) := by
  simp only [Host.scatterAdd, Ideal.hostScatterAdd_def]
  unfold Ideal.hostScatterAdd
  rw [hx, zero_add, Finset.sum_filter, sum_idx3, coe_sum, Finset.sum_filter]
  refine Finset.sum_congr rfl fun e _ => ?_
  simp only [resultIdx_ix3 idx tgt hidx, Option.some.injEq, ix3_inj, hupd]
  by_cases he : tgt e = n
  · simp only [he, true_and, if_true]
    rw [Finset.sum_eq_single d]
    · rw [Finset.sum_eq_single w]
      · simp
      · intro c _ hc; simp [hc]
      · intro h; exact absurd (Finset.mem_univ _) h
    · intro b _ hb; simp [hb]
    · intro h; exact absurd (Finset.mem_univ _) h
  · simp [he]

/-- The word `0x40000000` is the real number two. -/
theorem two_eq : Ideal.ofBits .f32 0x40000000#32 = ((2 : ℝ) : EReal) := by
  simp [Ideal.ofBits, Ideal.ieee, -EReal.coe_mul]; norm_num

/-! ## The reference's last stage, index by index -/

section Reference

open Cert.ReferenceIdeal.Read Cert.Spec

variable (I : Inputs)
variable {x0 : (⟨S50000x3x32, .f32⟩ : BufTy).Contents (Elt Ideal)} {x1 : (⟨S50000x32, .f32⟩ : BufTy).Contents (Elt Ideal)} {x2 : (⟨S1000000, .f32⟩ : BufTy).Contents (Elt Ideal)}
  {x3 x4 : (⟨S1000000, .i32⟩ : BufTy).Contents (Elt Ideal)} {x5 : (⟨S32x32, .f32⟩ : BufTy).Contents (Elt Ideal)} {x6 : (⟨S1, .f32⟩ : BufTy).Contents (Elt Ideal)}
  {x7 x8 x9 x10 : (⟨S32, .f32⟩ : BufTy).Contents (Elt Ideal)} {x11 x12 x13 x14 x15 x16 : (⟨S32x32, .f32⟩ : BufTy).Contents (Elt Ideal)}

/-- The array the destination scatter accumulates into is zero. -/
theorem v70_zero (i : S50000x3x32.Idx) : val_main_v70 (F := Ideal) i = 0 := by
  rw [val_main_v70_apply, val_main_cst_6_apply, Ideal.ofBits_def]; exact Ideal.ofBits_zero_f32

/-- The array the source scatter accumulates into is zero. -/
theorem v73_zero (i : S50000x3x32.Idx) : val_main_v73 (F := Ideal) i = 0 := by
  rw [val_main_v73_apply, val_main_cst_7_apply, Ideal.ofBits_def]; exact Ideal.ofBits_zero_f32

/-- The destination index array at edge `e` holds the destination node's number. -/
theorem v71_dst (hdst : ∀ e, (x4 (ix1 e)).toInt = ((I.dst e).val : ℤ)) (e : Fin 1000000) (i : S1000000x1.Idx) (h : (i 0).val = e.val) :
    (val_main_v71 (F := Ideal) x4 i).toInt = ((I.dst e).val : ℤ) := by
  rw [val_main_v71_apply]
  have hi : idx_main_v71 i = ix1 e := funext fun a => match a with | ⟨0, _⟩ => Fin.ext h
  rw [hi]; exact hdst e

/-- The source index array at edge `e` holds the source node's number. -/
theorem v74_src (hsrc : ∀ e, (x3 (ix1 e)).toInt = ((I.src e).val : ℤ)) (e : Fin 1000000) (i : S1000000x1.Idx) (h : (i 0).val = e.val) :
    (val_main_v74 (F := Ideal) x3 i).toInt = ((I.src e).val : ℤ) := by
  rw [val_main_v74_apply]
  have hi : idx_main_v74 i = ix1 e := funext fun a => match a with | ⟨0, _⟩ => Fin.ext h
  rw [hi]; exact hsrc e

/-- The edge vectors summed into their destination node: the accumulating scatter by the destination words into the
    zero array. -/
theorem toDst_apply (hdst : ∀ e, (x4 (ix1 e)).toInt = ((I.dst e).val : ℤ))
    (hwedge : ∀ e d w, val_main_v69 (F := Ideal) x0 x1 x2 x3 x4 x5 x6 x7 x8 x9 x10 x11 x12 x13 x14 (ix3 e d w) = ((wedge I e d w : ℝ) : EReal))
    (n : Fin 50000) (d : Fin 3) (w : Fin 32) :
    val_main_v72 (F := Ideal) x0 x1 x2 x3 x4 x5 x6 x7 x8 x9 x10 x11 x12 x13 x14 (ix3 n d w) = ((toDst I n d w : ℝ) : EReal) := by
  have hidx := v71_dst I hdst
  have hx : ∀ i, val_main_v70 (F := Ideal) i = 0 := v70_zero
  unfold val_main_v72 toDst
  generalize val_main_v69 (F := Ideal) x0 x1 x2 x3 x4 x5 x6 x7 x8 x9 x10 x11 x12 x13 x14 = upd at hwedge ⊢
  generalize val_main_v71 (F := Ideal) x4 = idx at hidx ⊢
  generalize val_main_v70 (F := Ideal) = x at hx ⊢
  exact scatter_sum idx I.dst hidx x hx upd (wedge I) hwedge n d w

/-- The edge vectors summed into their source node: the same scatter by the source words. -/
theorem toSrc_apply (hsrc : ∀ e, (x3 (ix1 e)).toInt = ((I.src e).val : ℤ))
    (hwedge : ∀ e d w, val_main_v69 (F := Ideal) x0 x1 x2 x3 x4 x5 x6 x7 x8 x9 x10 x11 x12 x13 x14 (ix3 e d w) = ((wedge I e d w : ℝ) : EReal))
    (n : Fin 50000) (d : Fin 3) (w : Fin 32) :
    val_main_v75 (F := Ideal) x0 x1 x2 x3 x4 x5 x6 x7 x8 x9 x10 x11 x12 x13 x14 (ix3 n d w) = ((toSrc I n d w : ℝ) : EReal) := by
  have hidx := v74_src I hsrc
  have hx : ∀ i, val_main_v73 (F := Ideal) i = 0 := v73_zero
  unfold val_main_v75 toSrc
  generalize val_main_v69 (F := Ideal) x0 x1 x2 x3 x4 x5 x6 x7 x8 x9 x10 x11 x12 x13 x14 = upd at hwedge ⊢
  generalize val_main_v74 (F := Ideal) x3 = idx at hidx ⊢
  generalize val_main_v73 (F := Ideal) = x at hx ⊢
  exact scatter_sum idx I.src hidx x hx upd (wedge I) hwedge n d w

/-- The difference of the two scattered arrays. -/
theorem v76_apply (hsrc : ∀ e, (x3 (ix1 e)).toInt = ((I.src e).val : ℤ)) (hdst : ∀ e, (x4 (ix1 e)).toInt = ((I.dst e).val : ℤ))
    (hwedge : ∀ e d w, val_main_v69 (F := Ideal) x0 x1 x2 x3 x4 x5 x6 x7 x8 x9 x10 x11 x12 x13 x14 (ix3 e d w) = ((wedge I e d w : ℝ) : EReal))
    (n : Fin 50000) (d : Fin 3) (k : Fin 32) :
    val_main_v76 (F := Ideal) x0 x1 x2 x3 x4 x5 x6 x7 x8 x9 x10 x11 x12 x13 x14 (ix3 n d k) = ((toDst I n d k - toSrc I n d k : ℝ) : EReal) := by
  rw [val_main_v76_apply, toDst_apply I hdst hwedge, toSrc_apply I hsrc hwedge, Ideal.subf_def, ← EReal.coe_sub]

/-- The sum of the two scattered arrays. -/
theorem v77_apply (hsrc : ∀ e, (x3 (ix1 e)).toInt = ((I.src e).val : ℤ)) (hdst : ∀ e, (x4 (ix1 e)).toInt = ((I.dst e).val : ℤ))
    (hwedge : ∀ e d w, val_main_v69 (F := Ideal) x0 x1 x2 x3 x4 x5 x6 x7 x8 x9 x10 x11 x12 x13 x14 (ix3 e d w) = ((wedge I e d w : ℝ) : EReal))
    (n : Fin 50000) (d : Fin 3) (k : Fin 32) :
    val_main_v77 (F := Ideal) x0 x1 x2 x3 x4 x5 x6 x7 x8 x9 x10 x11 x12 x13 x14 (ix3 n d k) = ((toDst I n d k + toSrc I n d k : ℝ) : EReal) := by
  rw [val_main_v77_apply, toDst_apply I hdst hwedge, toSrc_apply I hsrc hwedge, Ideal.addf_def, ← EReal.coe_add]

/-- The node vector: the difference and the sum of the two scattered arrays mixed through `C1` and `C2`, halved. -/
theorem node_apply (hsrc : ∀ e, (x3 (ix1 e)).toInt = ((I.src e).val : ℤ)) (hdst : ∀ e, (x4 (ix1 e)).toInt = ((I.dst e).val : ℤ))
    (h15 : ∀ u s, x15 (ix2 u s) = ((I.C1 u s : ℝ) : EReal)) (h16 : ∀ u s, x16 (ix2 u s) = ((I.C2 u s : ℝ) : EReal))
    (hwedge : ∀ e d w, val_main_v69 (F := Ideal) x0 x1 x2 x3 x4 x5 x6 x7 x8 x9 x10 x11 x12 x13 x14 (ix3 e d w) = ((wedge I e d w : ℝ) : EReal))
    (n : Fin 50000) (d : Fin 3) (w : Fin 32) :
    val_main_v82 (F := Ideal) x0 x1 x2 x3 x4 x5 x6 x7 x8 x9 x10 x11 x12 x13 x14 x15 x16 (ix3 n d w) = ((node I n d w : ℝ) : EReal) := by
  have h76 := v76_apply I hsrc hdst hwedge
  have h77 := v77_apply I hsrc hdst hwedge
  have hl78 : ∀ k : Fin 32, lidx_main_v78 (ix3 n d w) k = ix3 n d k := fun k => funext fun a =>
    match a with | ⟨0, _⟩ => rfl | ⟨1, _⟩ => rfl | ⟨2, _⟩ => rfl
  have hr78 : ∀ k : Fin 32, ridx_main_v78 (ix3 n d w) k = ix2 k w := fun k => funext fun a =>
    match a with | ⟨0, _⟩ => rfl | ⟨1, _⟩ => rfl
  have hl79 : ∀ k : Fin 32, lidx_main_v79 (ix3 n d w) k = ix3 n d k := fun k => funext fun a =>
    match a with | ⟨0, _⟩ => rfl | ⟨1, _⟩ => rfl | ⟨2, _⟩ => rfl
  have hr79 : ∀ k : Fin 32, ridx_main_v79 (ix3 n d w) k = ix2 k w := fun k => funext fun a =>
    match a with | ⟨0, _⟩ => rfl | ⟨1, _⟩ => rfl
  unfold node
  rw [val_main_v82_apply, val_main_v80_apply, val_main_v78_apply, val_main_v79_apply, val_main_v81_apply,
    val_main_cst_8_apply]
  generalize val_main_v76 (F := Ideal) x0 x1 x2 x3 x4 x5 x6 x7 x8 x9 x10 x11 x12 x13 x14 = P at h76 ⊢
  generalize val_main_v77 (F := Ideal) x0 x1 x2 x3 x4 x5 x6 x7 x8 x9 x10 x11 x12 x13 x14 = Q at h77 ⊢
  simp only [hl78, hr78, hl79, hr79, h76, h77, h15, h16, Ideal.addf_def, Ideal.hostDivf_def, Ideal.ofBits_def]
  rw [two_eq, Ideal.div_coe (two_ne_zero)]
  simp only [← EReal.coe_add, ← EReal.coe_mul, ← coe_sum]
  congr 1
  ring

/-- The square of the node vector's entry. -/
theorem sq_apply (hsrc : ∀ e, (x3 (ix1 e)).toInt = ((I.src e).val : ℤ)) (hdst : ∀ e, (x4 (ix1 e)).toInt = ((I.dst e).val : ℤ))
    (h15 : ∀ u s, x15 (ix2 u s) = ((I.C1 u s : ℝ) : EReal)) (h16 : ∀ u s, x16 (ix2 u s) = ((I.C2 u s : ℝ) : EReal))
    (hwedge : ∀ e d w, val_main_v69 (F := Ideal) x0 x1 x2 x3 x4 x5 x6 x7 x8 x9 x10 x11 x12 x13 x14 (ix3 e d w) = ((wedge I e d w : ℝ) : EReal))
    (n : Fin 50000) (k : Fin 3) (w : Fin 32) :
    val_main_call2_v0 (F := Ideal) x0 x1 x2 x3 x4 x5 x6 x7 x8 x9 x10 x11 x12 x13 x14 x15 x16 (ix3 n k w) = ((node I n k w * node I n k w : ℝ) : EReal) := by
  rw [val_main_call2_v0_apply, node_apply I hsrc hdst h15 h16 hwedge, Ideal.mulf_def, ← EReal.coe_mul]

/-- The block's result: each channel of the node vector scaled by `tanh` of its Euclidean norm over the three
    components (a sum of squares is not negative, so its square root is the real one). -/
theorem out_apply (hsrc : ∀ e, (x3 (ix1 e)).toInt = ((I.src e).val : ℤ)) (hdst : ∀ e, (x4 (ix1 e)).toInt = ((I.dst e).val : ℤ))
    (h15 : ∀ u s, x15 (ix2 u s) = ((I.C1 u s : ℝ) : EReal)) (h16 : ∀ u s, x16 (ix2 u s) = ((I.C2 u s : ℝ) : EReal))
    (hwedge : ∀ e d w, val_main_v69 (F := Ideal) x0 x1 x2 x3 x4 x5 x6 x7 x8 x9 x10 x11 x12 x13 x14 (ix3 e d w) = ((wedge I e d w : ℝ) : EReal))
    (n : Fin 50000) (d : Fin 3) (w : Fin 32) :
    val_main_v87 (F := Ideal) x0 x1 x2 x3 x4 x5 x6 x7 x8 x9 x10 x11 x12 x13 x14 x15 x16 (ix3 n d w) = ((out I n d w : ℝ) : EReal) := by
  have hN := node_apply I hsrc hdst h15 h16 hwedge
  have hQ := sq_apply I hsrc hdst h15 h16 hwedge
  have hi : ∀ k : Fin 3, idx_main_call2_v1 (idx_main_v85 (idx_main_v86 (ix3 n d w))) k = ix3 n k w := fun k =>
    funext fun a => match a with | ⟨0, _⟩ => rfl | ⟨1, _⟩ => rfl | ⟨2, _⟩ => rfl
  unfold out
  rw [val_main_v87_apply, val_main_v86_apply, val_main_v85_apply, val_main_v84_apply, val_main_v83_apply,
    val_main_call2_v1_apply, val_main_call2_cst_apply, hN]
  generalize val_main_call2_v0 (F := Ideal) x0 x1 x2 x3 x4 x5 x6 x7 x8 x9 x10 x11 x12 x13 x14 x15 x16 = Q at hQ ⊢
  simp only [hi, hQ, Ideal.mulf_def, Ideal.hostUnary_sqrt_def, Ideal.hostUnary_tanh_def, Ideal.ofBits_def]
  rw [Ideal.ofBits_zero_f32, zero_add, ← coe_sum,
    Ideal.sqrt_coe, if_neg (not_lt.2 (Finset.sum_nonneg fun k _ => mul_self_nonneg _)), Ideal.tanh_coe,
    ← EReal.coe_mul]

end Reference

end Cert.RefStages.Out

end
-- ==== Proof.PreFacts.lean ====
/-
  The precondition read back at the extended-real instance. The printed predicate is a conjunction, one conjunct per
  input array: for a float array x, "|x| < +∞ at every entry"; for each of the two index arrays, "0 ≤ ix and ix < 50000
  at every entry (signed)". Each conjunct is an all-axes reduction by "and" of an array of one-bit words, and the whole
  predicate is stated to be 1. A reduction by "and" that is 1 met a 1 at every entry; an "and" of two one-bit words is 1
  exactly when both are; |x| = max x (−x) below +∞ excludes x = +∞ and x = −∞, so x is a real; a signed comparison word
  that is 1 is the inequality of the signed values.
-/
import proofs.«407674_j57329223467239_3_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_finite_inputs Cert.Pre_finite_inputs.Gen

/-- The rank-0 shape has one index. -/
instance : Subsingleton S_.Idx := ⟨fun a b => funext fun d => d.elim0⟩

/-- An extended real x with max x (−x) < +∞ is a real: at x = −∞ and at x = +∞ the maximum is +∞, which is not below +∞.
    The pattern 0x7F800000 denotes +∞. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  have ht : Ideal.ofBits .f32 0x7F800000#32 = (⊤ : EReal) := by simp [Ideal.ofBits, Ideal.ieee]
  induction x using EReal.rec with
  | bot =>
    exfalso
    change Ideal.cmp .olt (max (⊥ : EReal) (-⊥)) (Ideal.ofBits .f32 0x7F800000#32) = 1#1 at h
    rw [ht] at h
    simp [Ideal.cmp] at h
  | top =>
    exfalso
    change Ideal.cmp .olt (max (⊤ : EReal) (-⊤)) (Ideal.ofBits .f32 0x7F800000#32) = 1#1 at h
    rw [ht] at h
    simp [Ideal.cmp] at h
  | coe r => exact ⟨r, rfl⟩

/-- A float array of any shape whose "|x| < +∞ everywhere" conjunct is 1 has a real at every entry. -/
theorem finite_of_all {s : Shape} {axes : List (Fin s.rank)} (hb : S_.BroadcastsInDim s (![] : Fin 0 → Fin s.rank))
    (hr : s.ReducesTo axes S_) (h0 : 0 < S_.numel) (x : FVec Ideal s .f32) (j : S_.Idx)
    (e : Host.reduce IntOp.andi (cmpf .olt (Host.absf x) (broadcastInDim s ![] hb (constant (F := Ideal) S_ .f32 0x7F800000#32)))
      (constantI S_ 1 1#1) hr h0 j = 1#1) : ∀ i, ∃ r : ℝ, x i = (r : EReal) := by
  intro i
  have hi := Host.reduce_andi_all _ _ hr h0 j e i
  exact real_of_abs_lt (x i) hi

/-- An index array of any shape whose "0 ≤ ix and ix < 50000 everywhere" conjunct is 1 has every entry, read signed,
    in [0, 50000). -/
theorem range_of_all {s : Shape} {axes : List (Fin s.rank)} (hb : S_.BroadcastsInDim s (![] : Fin 0 → Fin s.rank))
    (hr : s.ReducesTo axes S_) (h0 : 0 < S_.numel) (x : IVec s 32) (j : S_.Idx)
    (e : Host.reduce IntOp.andi (andi (cmpi .sge x (broadcastInDim s ![] hb (constantI S_ 32 0#32)))
        (cmpi .slt x (broadcastInDim s ![] hb (constantI S_ 32 50000#32))))
      (constantI S_ 1 1#1) hr h0 j = 1#1) : ∀ i, 0 ≤ (x i).toInt ∧ (x i).toInt < 50000 := by
  intro i
  have hi := Host.reduce_andi_all _ _ hr h0 j e i
  obtain ⟨h1, h2⟩ := IntOp.andi_eq_one.1 hi
  exact ⟨IntOp.cmpi_sge.1 h1, IntOp.cmpi_slt.1 h2⟩

/-- An "and" of two rank-0 one-bit arrays that reads 1 has both operands reading 1. -/
theorem andi_split (x y : IVec S_ 1) (j : S_.Idx) (e : andi x y j = 1#1) : x j = 1#1 ∧ y j = 1#1 :=
  IntOp.andi_eq_one.1 e

/-- THE PRECONDITION DECODED: every float input is real at every entry and both index inputs lie in [0, 50000), signed.
    The predicate nests its conjuncts to the left, in the order a0, a1, a2, a5, …, a16, a3, a4: the outermost "and" splits
    off a4's conjunct, the next a3's, then a16's down to a5's, then a2's, and what remains is a0's with a1's. -/
theorem of_pre (a0 : FVec Ideal S50000x3x32 .f32) (a1 : FVec Ideal S50000x32 .f32) (a2 : FVec Ideal S1000000 .f32)
    (a3 a4 : IVec S1000000 32) (a5 : FVec Ideal S32x32 .f32) (a6 : FVec Ideal S1 .f32) (a7 a8 a9 a10 : FVec Ideal S32 .f32)
    (a11 a12 a13 a14 a15 a16 : FVec Ideal S32x32 .f32)
    (h : Cert.Pre_finite_inputs.fn (F := Ideal) a0 a1 a2 a3 a4 a5 a6 a7 a8 a9 a10 a11 a12 a13 a14 a15 a16 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, 0 ≤ (a3 i).toInt ∧ (a3 i).toInt < 50000) ∧ (∀ i, 0 ≤ (a4 i).toInt ∧ (a4 i).toInt < 50000)
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ i, ∃ r : ℝ, a11 i = (r : EReal)) ∧ (∀ i, ∃ r : ℝ, a12 i = (r : EReal)) ∧ (∀ i, ∃ r : ℝ, a13 i = (r : EReal))
    ∧ (∀ i, ∃ r : ℝ, a14 i = (r : EReal)) ∧ (∀ i, ∃ r : ℝ, a15 i = (r : EReal)) ∧ (∀ i, ∃ r : ℝ, a16 i = (r : EReal)) := by
  have e := congrFun h ix0
  dsimp only [Cert.Pre_finite_inputs.fn, fn_part1, fn_part2, fn_part3, fn_part4, fn_part5] at e
  obtain ⟨e, h4⟩ := andi_split _ _ _ e
  obtain ⟨e, h3⟩ := andi_split _ _ _ e
  obtain ⟨e, h16⟩ := andi_split _ _ _ e
  obtain ⟨e, h15⟩ := andi_split _ _ _ e
  obtain ⟨e, h14⟩ := andi_split _ _ _ e
  obtain ⟨e, h13⟩ := andi_split _ _ _ e
  obtain ⟨e, h12⟩ := andi_split _ _ _ e
  obtain ⟨e, h11⟩ := andi_split _ _ _ e
  obtain ⟨e, h10⟩ := andi_split _ _ _ e
  obtain ⟨e, h9⟩ := andi_split _ _ _ e
  obtain ⟨e, h8⟩ := andi_split _ _ _ e
  obtain ⟨e, h7⟩ := andi_split _ _ _ e
  obtain ⟨e, h6⟩ := andi_split _ _ _ e
  obtain ⟨e, h5⟩ := andi_split _ _ _ e
  obtain ⟨e, h2⟩ := andi_split _ _ _ e
  obtain ⟨h0, h1⟩ := andi_split _ _ _ e
  exact ⟨finite_of_all _ _ _ a0 _ h0, finite_of_all _ _ _ a1 _ h1, finite_of_all _ _ _ a2 _ h2,
    range_of_all _ _ _ a3 _ h3, range_of_all _ _ _ a4 _ h4,
    finite_of_all _ _ _ a5 _ h5, finite_of_all _ _ _ a6 _ h6, finite_of_all _ _ _ a7 _ h7, finite_of_all _ _ _ a8 _ h8,
    finite_of_all _ _ _ a9 _ h9, finite_of_all _ _ _ a10 _ h10, finite_of_all _ _ _ a11 _ h11, finite_of_all _ _ _ a12 _ h12,
    finite_of_all _ _ _ a13 _ h13, finite_of_all _ _ _ a14 _ h14, finite_of_all _ _ _ a15 _ h15, finite_of_all _ _ _ a16 _ h16⟩

end Cert.PreFacts

end
-- ==== Proof.InputsOfPre.lean ====
/-
  From the decoded precondition to the real data. Every float input is a real at every entry, so each array is the
  coercion of a real-valued function of its coordinates (a choice of the witnesses); each index entry, read signed, lies
  in [0, 50000), so it is the value of a node number below 50000 (its signed value as a natural number). The angle is the
  product of the constant the pattern 0x3DCCCCCD denotes, the real 13421773 / 2²⁷, with the one entry of the angle input;
  a product of two reals' coercions is the coercion of their product.
-/
import proofs.«407674_j57329223467239_3_alg».proof.Proof.PreFacts
import proofs.«407674_j57329223467239_3_alg».proof.Proof.Spec
import Idealize.ShloMosaic.Lib.ValueIdx
import Idealize.ShloMosaic.PureOps.Ideal

noncomputable section

namespace Cert.InputsOfPre

open Idealize.ShloMosaic Idealize.ShloMosaic.ValueIdx
open Cert.Pre_finite_inputs Cert.Pre_finite_inputs.Gen

/-- The pattern 0x3DCCCCCD denotes the real 13421773 / 2²⁷: sign 0, exponent field 123, significand field 5033165,
    so (2²³ + 5033165) · 2^(123 − 127 − 23). -/
theorem tenth : Ideal.ofBits .f32 0x3DCCCCCD#32 = (((13421773 : ℝ) / 134217728 : ℝ) : EReal) := by
  simp [Ideal.ofBits, Ideal.ieee, -EReal.coe_mul]
  norm_num

/-- THE REAL DATA: under the precondition there are real inputs whose coercions the seventeen arrays are, entry by entry;
    the two index arrays hold the edges' end nodes, and the angle is the constant times the angle input's entry. -/
theorem exists_inputs (a0 : FVec Ideal S50000x3x32 .f32) (a1 : FVec Ideal S50000x32 .f32) (a2 : FVec Ideal S1000000 .f32)
    (a3 a4 : IVec S1000000 32) (a5 : FVec Ideal S32x32 .f32) (a6 : FVec Ideal S1 .f32) (a7 a8 a9 a10 : FVec Ideal S32 .f32)
    (a11 a12 a13 a14 a15 a16 : FVec Ideal S32x32 .f32)
    (h : Cert.Pre_finite_inputs.fn (F := Ideal) a0 a1 a2 a3 a4 a5 a6 a7 a8 a9 a10 a11 a12 a13 a14 a15 a16 = (fun _ => 1#1)) :
    ∃ I : Cert.Spec.Inputs,
      (∀ n d v, a0 (ix3 n d v) = ((I.x n d v : ℝ) : EReal)) ∧ (∀ n s, a1 (ix2 n s) = ((I.a n s : ℝ) : EReal))
      ∧ (∀ e, a2 (ix1 e) = ((I.ea e : ℝ) : EReal)) ∧ (∀ e, (a3 (ix1 e)).toInt = ((I.src e).val : ℤ))
      ∧ (∀ e, (a4 (ix1 e)).toInt = ((I.dst e).val : ℤ)) ∧ (∀ u s, a5 (ix2 u s) = ((I.M u s : ℝ) : EReal))
      ∧ (Ideal.ofBits .f32 0x3DCCCCCD#32 * a6 (ix1 (0 : Fin 1)) = ((I.θ : ℝ) : EReal))
      ∧ (∀ v, a7 (ix1 v) = ((I.f1w v : ℝ) : EReal)) ∧ (∀ v, a8 (ix1 v) = ((I.f1b v : ℝ) : EReal))
      ∧ (∀ v, a9 (ix1 v) = ((I.f2w v : ℝ) : EReal)) ∧ (∀ v, a10 (ix1 v) = ((I.f2b v : ℝ) : EReal))
      ∧ (∀ u s, a11 (ix2 u s) = ((I.A1 u s : ℝ) : EReal)) ∧ (∀ u s, a12 (ix2 u s) = ((I.A2 u s : ℝ) : EReal))
      ∧ (∀ u s, a13 (ix2 u s) = ((I.B1 u s : ℝ) : EReal)) ∧ (∀ u s, a14 (ix2 u s) = ((I.B2 u s : ℝ) : EReal))
      ∧ (∀ u s, a15 (ix2 u s) = ((I.C1 u s : ℝ) : EReal)) ∧ (∀ u s, a16 (ix2 u s) = ((I.C2 u s : ℝ) : EReal)) := by
  obtain ⟨h0, h1, h2, h3, h4, h5, h6, h7, h8, h9, h10, h11, h12, h13, h14, h15, h16⟩ :=
    Cert.PreFacts.of_pre a0 a1 a2 a3 a4 a5 a6 a7 a8 a9 a10 a11 a12 a13 a14 a15 a16 h
  choose f0 hf0 using h0
  choose f1 hf1 using h1
  choose f2 hf2 using h2
  choose f5 hf5 using h5
  choose f6 hf6 using h6
  choose f7 hf7 using h7
  choose f8 hf8 using h8
  choose f9 hf9 using h9
  choose f10 hf10 using h10
  choose f11 hf11 using h11
  choose f12 hf12 using h12
  choose f13 hf13 using h13
  choose f14 hf14 using h14
  choose f15 hf15 using h15
  choose f16 hf16 using h16
  refine ⟨{ x := fun n d v => f0 (ix3 n d v), a := fun n s => f1 (ix2 n s), ea := fun e => f2 (ix1 e),
            src := fun e => ⟨(a3 (ix1 e)).toInt.toNat, by have := h3 (ix1 e); omega⟩,
            dst := fun e => ⟨(a4 (ix1 e)).toInt.toNat, by have := h4 (ix1 e); omega⟩,
            M := fun u s => f5 (ix2 u s), θ := (13421773 : ℝ) / 134217728 * f6 (ix1 (0 : Fin 1)),
            f1w := fun v => f7 (ix1 v), f1b := fun v => f8 (ix1 v), f2w := fun v => f9 (ix1 v), f2b := fun v => f10 (ix1 v),
            A1 := fun u s => f11 (ix2 u s), A2 := fun u s => f12 (ix2 u s), B1 := fun u s => f13 (ix2 u s),
            B2 := fun u s => f14 (ix2 u s), C1 := fun u s => f15 (ix2 u s), C2 := fun u s => f16 (ix2 u s) },
    fun n d v => hf0 _, fun n s => hf1 _, fun e => hf2 _, fun e => (Int.toNat_of_nonneg (h3 _).1).symm,
    fun e => (Int.toNat_of_nonneg (h4 _).1).symm, fun u s => hf5 _, ?_, fun v => hf7 _, fun v => hf8 _, fun v => hf9 _,
    fun v => hf10 _, fun u s => hf11 _, fun u s => hf12 _, fun u s => hf13 _, fun u s => hf14 _, fun u s => hf15 _,
    fun u s => hf16 _⟩
  show Ideal.ofBits .f32 0x3DCCCCCD#32 * a6 (ix1 (0 : Fin 1)) = (((13421773 : ℝ) / 134217728 * f6 (ix1 (0 : Fin 1)) : ℝ) : EReal)
  rw [tenth, hf6, EReal.coe_mul]

end Cert.InputsOfPre

end
-- ==== Proof.lean ====
/-
  The kernel (three pallas_calls with jax glue: a node mixing, a per-edge mixing on gathered rows, a node mixing on
  scatter-added rows) against its jnp reference, over the extended reals, for finite float inputs and edge endpoints
  that are node indices.
  Both programs' results are read as ONE real-valued function of the inputs (`Cert.Spec.out`), index by index:
  * the kernel's run names the result buffer's final contents, which the fold of the host stretches and the three
    launches' row-blocked result arrays turn into a pure term of the arguments; at an index that term is the
    specification (the three bodies at a row, the block-diagonal lifts of the mixing matrices collapsing to the row's
    own component, the gather reading the endpoint's row, the scatter-add summing the edges that land on a node,
    associativity of the two matrix products and distributivity — valid because every entry is a real);
  * the reference's generated run and read-at-an-index lemmas give the same specification for its result.
  The three frames are the generated ones (the reference's is its run with the result dropped); the ideal pass
  rewrote nothing, so the preservation claim is trivial.
-/
import proofs.«407674_j57329223467239_3_alg».proof.Defs
import proofs.«407674_j57329223467239_3_alg».proof.Proof.Gen.Kernel
import proofs.«407674_j57329223467239_3_alg».proof.Proof.Gen.Kernel.Frame
import proofs.«407674_j57329223467239_3_alg».proof.Proof.Gen.KernelIdeal
import proofs.«407674_j57329223467239_3_alg».proof.Proof.Gen.KernelIdeal.Frame
import proofs.«407674_j57329223467239_3_alg».proof.Proof.Gen.ReferenceIdeal
import proofs.«407674_j57329223467239_3_alg».proof.Proof.Gen.Pre_finite_inputs
import proofs.«407674_j57329223467239_3_alg».proof.Proof.Gen.ReferenceIdeal.Run
import proofs.«407674_j57329223467239_3_alg».proof.Proof.Gen.ReferenceIdeal.Read
import proofs.«407674_j57329223467239_3_alg».proof.Proof.KernelRunValue
import proofs.«407674_j57329223467239_3_alg».proof.Proof.KernelChain
import proofs.«407674_j57329223467239_3_alg».proof.Proof.KernelValue
import proofs.«407674_j57329223467239_3_alg».proof.Proof.KernelGatherScatter
import proofs.«407674_j57329223467239_3_alg».proof.Proof.NodeMix1Body
import proofs.«407674_j57329223467239_3_alg».proof.Proof.EdgeMixBody
import proofs.«407674_j57329223467239_3_alg».proof.Proof.NodeMix2Body
import proofs.«407674_j57329223467239_3_alg».proof.Proof.RefNodeStage
import proofs.«407674_j57329223467239_3_alg».proof.Proof.RefEdgeStage
import proofs.«407674_j57329223467239_3_alg».proof.Proof.RefOutStage
import proofs.«407674_j57329223467239_3_alg».proof.Proof.InputsOfPre
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result at an index is the specification. -/
theorem reference_apply (I : Cert.Spec.Inputs)
    (x0 : FVec Ideal Cert.ReferenceIdeal.S50000x3x32 .f32) (x1 : FVec Ideal Cert.ReferenceIdeal.S50000x32 .f32)
    (x2 : FVec Ideal Cert.ReferenceIdeal.S1000000 .f32) (x3 x4 : IVec Cert.ReferenceIdeal.S1000000 32)
    (x5 : FVec Ideal Cert.ReferenceIdeal.S32x32 .f32) (x6 : FVec Ideal Cert.ReferenceIdeal.S1 .f32)
    (x7 x8 x9 x10 : FVec Ideal Cert.ReferenceIdeal.S32 .f32) (x11 x12 x13 x14 x15 x16 : FVec Ideal Cert.ReferenceIdeal.S32x32 .f32)
    (hx : ∀ n d v, x0 (ix3 n d v) = ((I.x n d v : ℝ) : EReal)) (ha : ∀ n s, x1 (ix2 n s) = ((I.a n s : ℝ) : EReal))
    (hea : ∀ e, x2 (ix1 e) = ((I.ea e : ℝ) : EReal)) (hsrc : ∀ e, (x3 (ix1 e)).toInt = ((I.src e).val : ℤ))
    (hdst : ∀ e, (x4 (ix1 e)).toInt = ((I.dst e).val : ℤ)) (hM : ∀ u s, x5 (ix2 u s) = ((I.M u s : ℝ) : EReal))
    (hθ : Ideal.ofBits .f32 0x3DCCCCCD#32 * x6 (ix1 (0 : Fin 1)) = ((I.θ : ℝ) : EReal))
    (h7 : ∀ v, x7 (ix1 v) = ((I.f1w v : ℝ) : EReal)) (h8 : ∀ v, x8 (ix1 v) = ((I.f1b v : ℝ) : EReal))
    (h9 : ∀ v, x9 (ix1 v) = ((I.f2w v : ℝ) : EReal)) (h10 : ∀ v, x10 (ix1 v) = ((I.f2b v : ℝ) : EReal))
    (h11 : ∀ u s, x11 (ix2 u s) = ((I.A1 u s : ℝ) : EReal)) (h12 : ∀ u s, x12 (ix2 u s) = ((I.A2 u s : ℝ) : EReal))
    (h13 : ∀ u s, x13 (ix2 u s) = ((I.B1 u s : ℝ) : EReal)) (h14 : ∀ u s, x14 (ix2 u s) = ((I.B2 u s : ℝ) : EReal))
    (h15 : ∀ u s, x15 (ix2 u s) = ((I.C1 u s : ℝ) : EReal)) (h16 : ∀ u s, x16 (ix2 u s) = ((I.C2 u s : ℝ) : EReal))
    (n : Fin 50000) (d : Fin 3) (w : Fin 32) :
    Cert.ReferenceIdeal.Read.val_main_v87 (F := Ideal) x0 x1 x2 x3 x4 x5 x6 x7 x8 x9 x10 x11 x12 x13 x14 x15 x16 (ix3 n d w)
      = ((Cert.Spec.out I n d w : ℝ) : EReal) := by
  have hmixed := Cert.RefStages.Node.mixed_apply I x0 x1 x5 x6 hx ha hM hθ
  have hw1 := Cert.RefStages.Node.w1_apply I x2 x7 x8 hea h7 h8
  have hw2 := Cert.RefStages.Node.w2_apply I x2 x9 x10 hea h9 h10
  have hwedge := Cert.RefStages.Edge.wedge_apply I x0 x1 x2 x3 x4 x5 x6 x7 x8 x9 x10 x11 x12 x13 x14 hsrc hdst hmixed hw1 hw2 h11 h12 h13 h14
  exact Cert.RefStages.Out.out_apply I hsrc hdst h15 h16 hwedge n d w

/-- Both programs' result arrays end at the specification of the (real, in-range) inputs. -/
theorem algebraic : Cert.algebraic_KernelIdeal_ReferenceIdeal := by
  intro m ρ m' ρ' hpre hagree
  refine ⟨fun c => Cert.KernelIdeal.HostTerms.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run (Cert.KernelIdeal.defs (F := Ideal)) _ _).mono
      (fun r h c => ⟨(h c).1.trans (Cert.KernelIdeal.Chain.final_v52 m ρ c), (h c).2⟩)
      (Cert.KernelIdeal.RunValue.run_value (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v87_eq, e0, e1, e2, e3, e4, e5, e6, e7, e8, e9, e10, e11, e12, e13, e14, e15, e16]
    obtain ⟨I, hx, ha, hea, hsrc, hdst, hM, hθ, h7, h8, h9, h10, h11, h12, h13, h14, h15, h16⟩ :=
      Cert.InputsOfPre.exists_inputs _ _ _ _ _ _ _ _ _ _ _ _ _ _ _ _ _ (hpre c)
    funext i
    obtain ⟨n, d, w, rfl⟩ : ∃ (n : Fin 50000) (d : Fin 3) (w : Fin 32), i = ix3 n d w := ⟨i 0, i 1, i 2, eq_ix3 i⟩
    rw [reference_apply I _ _ _ _ _ _ _ _ _ _ _ _ _ _ _ _ _ hx ha hea hsrc hdst hM hθ h7 h8 h9 h10 h11 h12 h13 h14 h15 h16 n d w]
    exact (Cert.KernelIdeal.KernelValue.result_apply I _ _ _ _ _ _ _ _ _ _ _ _ _ _ _ _ _ hx ha hea hsrc hdst hM hθ h7 h8 h9 h10 h11 h12 h13 h14 h15 h16
      Cert.KernelIdeal.GatherScatter.takeRows_apply Cert.KernelIdeal.GatherScatter.scatterRows_apply
      Cert.KernelIdeal.NodeMix1Body.out0_6_apply Cert.KernelIdeal.EdgeMixBody.out1_9_apply Cert.KernelIdeal.NodeMix2Body.out2_4_apply n d w).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
